-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2304x1024 : Shape := ⟨2, ![2304, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S512x2 : Shape := ⟨2, ![512, 2]⟩
abbrev S512 : Shape := ⟨1, ![512]⟩
abbrev S16x512 : Shape := ⟨2, ![16, 512]⟩
abbrev S9025x2 : Shape := ⟨2, ![9025, 2]⟩
abbrev S5308416 : Shape := ⟨1, ![5308416]⟩
abbrev S_ : Shape := ⟨0, ![]⟩

class Facts : Prop where
  bcast_S_S2304x1024 : S_.BroadcastsInDim S2304x1024 (![] : Fin 0 → Fin S2304x1024.rank)
  reducesTo_S2304x1024_S_d0_1 : S2304x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x2 : S_.BroadcastsInDim S512x2 (![] : Fin 0 → Fin S512x2.rank)
  reducesTo_S512x2_S_d0_1 : S512x2.ReducesTo [0, 1] S_
  bcast_S_S512 : S_.BroadcastsInDim S512 (![] : Fin 0 → Fin S512.rank)
  reducesTo_S512_S_d0 : S512.ReducesTo [0] S_
  bcast_S_S16x512 : S_.BroadcastsInDim S16x512 (![] : Fin 0 → Fin S16x512.rank)
  reducesTo_S16x512_S_d0_1 : S16x512.ReducesTo [0, 1] S_
  bcast_S_S9025x2 : S_.BroadcastsInDim S9025x2 (![] : Fin 0 → Fin S9025x2.rank)
  reducesTo_S9025x2_S_d0_1 : S9025x2.ReducesTo [0, 1] S_
  bcast_S_S5308416 : S_.BroadcastsInDim S5308416 (![] : Fin 0 → Fin S5308416.rank)
  reducesTo_S5308416_S_d0 : S5308416.ReducesTo [0] S_

variable [Facts]

def fn_part3 {F : FTy → Type} [FloatOps F] (main_arg9 : IVec S5308416 32) (main_v43 : IVec S_ 1) (main_v50 : IVec S5308416 1) : IVec S_ 1 :=
  let main_c_19 : IVec S_ 32 := constantI S_ 32 0#32
  let main_v51 : IVec S5308416 32 := broadcastInDim S5308416 ![] bcast_S_S5308416 main_c_19
  let main_v52 : IVec S5308416 1 := cmpi .slt main_arg9 main_v51
  let main_c_20 : IVec S_ 32 := constantI S_ 32 9025#32
  let main_v53 : IVec S5308416 32 := broadcastInDim S5308416 ![] bcast_S_S5308416 main_c_20
  let main_v54 : IVec S5308416 32 := addi main_arg9 main_v53
  let main_v55 : IVec S5308416 32 := select main_v52 main_v54 main_arg9
  let main_c_21 : IVec S_ 32 := constantI S_ 32 9024#32
  let main_v56 : IVec S5308416 32 := broadcastInDim S5308416 ![] bcast_S_S5308416 main_c_21
  let main_v57 : IVec S5308416 1 := cmpi .sle main_v55 main_v56
  let main_v58 : IVec S5308416 1 := andi main_v50 main_v57
  let main_c_22 : IVec S_ 1 := constantI S_ 1 1#1
  let main_v59 : IVec S_ 1 := (fun x v => Host.reduce IntOp.andi x v reducesTo_S5308416_S_d0 h_S_) main_v58 main_c_22
  let main_v60 : IVec S_ 1 := andi main_v43 main_v59
  main_v60

def fn_part2 {F : FTy → Type} [FloatOps F] (main_arg7 : FVec F S16x512 .f32) (main_arg8 : FVec F S9025x2 .f32) (main_arg9 : IVec S5308416 32) (main_v33 : IVec S_ 1) : IVec S_ 1 :=
  let main_v34 : FVec F S16x512 .f32 := Host.absf main_arg7
  let main_cst_12 : FVec F S_ .f32 := constant S_ .f32 0x7F800000#32
  let main_v35 : FVec F S16x512 .f32 := broadcastInDim S16x512 ![] bcast_S_S16x512 main_cst_12
  let main_v36 : IVec S16x512 1 := cmpf .olt main_v34 main_v35
  let main_c_13 : IVec S_ 1 := constantI S_ 1 1#1
  let main_v37 : IVec S_ 1 := (fun x v => Host.reduce IntOp.andi x v reducesTo_S16x512_S_d0_1 h_S_) main_v36 main_c_13
  let main_v38 : IVec S_ 1 := andi main_v33 main_v37
  let main_v39 : FVec F S9025x2 .f32 := Host.absf main_arg8
  let main_cst_14 : FVec F S_ .f32 := constant S_ .f32 0x7F800000#32
  let main_v40 : FVec F S9025x2 .f32 := broadcastInDim S9025x2 ![] bcast_S_S9025x2 main_cst_14
  let main_v41 : IVec S9025x2 1 := cmpf .olt main_v39 main_v40
  let main_c_15 : IVec S_ 1 := constantI S_ 1 1#1
  let main_v42 : IVec S_ 1 := (fun x v => Host.reduce IntOp.andi x v reducesTo_S9025x2_S_d0_1 h_S_) main_v41 main_c_15
  let main_v43 : IVec S_ 1 := andi main_v38 main_v42
  let main_c_16 : IVec S_ 32 := constantI S_ 32 0#32
  let main_v44 : IVec S5308416 32 := broadcastInDim S5308416 ![] bcast_S_S5308416 main_c_16
  let main_v45 : IVec S5308416 1 := cmpi .slt main_arg9 main_v44
  let main_c_17 : IVec S_ 32 := constantI S_ 32 9025#32
  let main_v46 : IVec S5308416 32 := broadcastInDim S5308416 ![] bcast_S_S5308416 main_c_17
  let main_v47 : IVec S5308416 32 := addi main_arg9 main_v46
  let main_v48 : IVec S5308416 32 := select main_v45 main_v47 main_arg9
  let main_c_18 : IVec S_ 32 := constantI S_ 32 0#32
  let main_v49 : IVec S5308416 32 := broadcastInDim S5308416 ![] bcast_S_S5308416 main_c_18
  let main_v50 : IVec S5308416 1 := cmpi .sge main_v48 main_v49
  fn_part3 (F := F) main_arg9 main_v43 main_v50

def fn_part1 {F : FTy → Type} [FloatOps F] (main_arg4 : FVec F S1024 .f32) (main_arg5 : FVec F S512x2 .f32) (main_arg6 : FVec F S512 .f32) (main_arg7 : FVec F S16x512 .f32) (main_arg8 : FVec F S9025x2 .f32) (main_arg9 : IVec S5308416 32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x2 .f32 := Host.absf main_arg5
  let main_cst_8 : FVec F S_ .f32 := constant S_ .f32 0x7F800000#32
  let main_v25 : FVec F S512x2 .f32 := broadcastInDim S512x2 ![] bcast_S_S512x2 main_cst_8
  let main_v26 : IVec S512x2 1 := cmpf .olt main_v24 main_v25
  let main_c_9 : IVec S_ 1 := constantI S_ 1 1#1
  let main_v27 : IVec S_ 1 := (fun x v => Host.reduce IntOp.andi x v reducesTo_S512x2_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S2304x1024 .f32) (main_arg1 : FVec F S3072x1024 .f32) (main_arg2 : FVec F S3072 .f32) (main_arg3 : FVec F S1024x1024 .f32) (main_arg4 : FVec F S1024 .f32) (main_arg5 : FVec F S512x2 .f32) (main_arg6 : FVec F S512 .f32) (main_arg7 : FVec F S16x512 .f32) (main_arg8 : FVec F S9025x2 .f32) (main_arg9 : IVec S5308416 32) : IVec S_ 1 :=
  let main_v0 : FVec F S2304x1024 .f32 := Host.absf main_arg0
  let main_cst : FVec F S_ .f32 := constant S_ .f32 0x7F800000#32
  let main_v1 : FVec F S2304x1024 .f32 := broadcastInDim S2304x1024 ![] bcast_S_S2304x1024 main_cst
  let main_v2 : IVec S2304x1024 1 := cmpf .olt main_v0 main_v1
  let main_c : IVec S_ 1 := constantI S_ 1 1#1
  let main_v3 : IVec S_ 1 := (fun x v => Host.reduce IntOp.andi x v reducesTo_S2304x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S2304x1024 : Shape := ⟨2, ![2304, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S512x2 : Shape := ⟨2, ![512, 2]⟩
abbrev S512 : Shape := ⟨1, ![512]⟩
abbrev S16x512 : Shape := ⟨2, ![16, 512]⟩
abbrev S9025x2 : Shape := ⟨2, ![9025, 2]⟩
abbrev S5308416 : Shape := ⟨1, ![5308416]⟩
abbrev S1x3072 : Shape := ⟨2, ![1, 3072]⟩
abbrev S2304x3072 : Shape := ⟨2, ![2304, 3072]⟩
abbrev S256x1024 : Shape := ⟨2, ![256, 1024]⟩
abbrev S1x1024 : Shape := ⟨2, ![1, 1024]⟩
abbrev S2304x3x16x64 : Shape := ⟨4, ![2304, 3, 16, 64]⟩
abbrev S2304x1x16x64 : Shape := ⟨4, ![2304, 1, 16, 64]⟩
abbrev S2304x16x64 : Shape := ⟨3, ![2304, 16, 64]⟩
abbrev S16x2304x64 : Shape := ⟨3, ![16, 2304, 64]⟩
abbrev S2x512 : Shape := ⟨2, ![2, 512]⟩
abbrev S9025x512 : Shape := ⟨2, ![9025, 512]⟩
abbrev S1x512 : Shape := ⟨2, ![1, 512]⟩
abbrev S_ : Shape := ⟨0, ![]⟩
abbrev S512x16 : Shape := ⟨2, ![512, 16]⟩
abbrev S9025x16 : Shape := ⟨2, ![9025, 16]⟩
abbrev S16x9025 : Shape := ⟨2, ![16, 9025]⟩
abbrev S5308416x1 : Shape := ⟨2, ![5308416, 1]⟩
abbrev S1 : Shape := ⟨1, ![1]⟩
abbrev S1x1 : Shape := ⟨2, ![1, 1]⟩
abbrev S16x5308416 : Shape := ⟨2, ![16, 5308416]⟩
abbrev S16x2304x2304 : Shape := ⟨3, ![16, 2304, 2304]⟩
abbrev S1x2304x64 : Shape := ⟨3, ![1, 2304, 64]⟩
abbrev S1x384x64 : Shape := ⟨3, ![1, 384, 64]⟩
abbrev S1x2304x384 : Shape := ⟨3, ![1, 2304, 384]⟩
abbrev S2304x1 : Shape := ⟨2, ![2304, 1]⟩
abbrev S2304x64 : Shape := ⟨2, ![2304, 64]⟩
abbrev S384x64 : Shape := ⟨2, ![384, 64]⟩
abbrev S64x384 : Shape := ⟨2, ![64, 384]⟩
abbrev S2304x384 : Shape := ⟨2, ![2304, 384]⟩
abbrev S2304 : Shape := ⟨1, ![2304]⟩

abbrev nBuf : Space → Nat
  | .hbm => 76
  | .vmem => 27
  | .smem => 0
  | _ => 0

abbrev bufTy : (tb : Table) → Fin (tcTables nBuf tb) → BufTy
  | .hbm, ⟨0, _⟩ => ⟨S2304x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S512x2, .f32⟩
  | .hbm, ⟨6, _⟩ => ⟨S512, .f32⟩
  | .hbm, ⟨7, _⟩ => ⟨S16x512, .f32⟩
  | .hbm, ⟨8, _⟩ => ⟨S9025x2, .f32⟩
  | .hbm, ⟨9, _⟩ => ⟨S5308416, .i32⟩
  | .hbm, ⟨10, _⟩ => ⟨S3072x1024, .bf16⟩
  | .hbm, ⟨11, _⟩ => ⟨S1024x1024, .bf16⟩
  | .hbm, ⟨12, _⟩ => ⟨S2304x1024, .bf16⟩
  | .hbm, ⟨13, _⟩ => ⟨S1x3072, .f32⟩
  | .hbm, ⟨14, _⟩ => ⟨S2304x3072, .bf16⟩
  | .hbm, ⟨15, _⟩ => ⟨S2304x3x16x64, .bf16⟩
  | .hbm, ⟨16, _⟩ => ⟨S2304x1x16x64, .bf16⟩
  | .hbm, ⟨17, _⟩ => ⟨S2304x16x64, .bf16⟩
  | .hbm, ⟨18, _⟩ => ⟨S16x2304x64, .bf16⟩
  | .hbm, ⟨19, _⟩ => ⟨S2304x1x16x64, .bf16⟩
  | .hbm, ⟨20, _⟩ => ⟨S2304x16x64, .bf16⟩
  | .hbm, ⟨21, _⟩ => ⟨S16x2304x64, .bf16⟩
  | .hbm, ⟨22, _⟩ => ⟨S2304x1x16x64, .bf16⟩
  | .hbm, ⟨23, _⟩ => ⟨S2304x16x64, .bf16⟩
  | .hbm, ⟨24, _⟩ => ⟨S16x2304x64, .bf16⟩
  | .hbm, ⟨25, _⟩ => ⟨S2x512, .f32⟩
  | .hbm, ⟨26, _⟩ => ⟨S9025x512, .f32⟩
  | .hbm, ⟨27, _⟩ => ⟨S1x512, .f32⟩
  | .hbm, ⟨28, _⟩ => ⟨S9025x512, .f32⟩
  | .hbm, ⟨29, _⟩ => ⟨S9025x512, .f32⟩
  | .hbm, ⟨30, _⟩ => ⟨S_, .f32⟩
  | .hbm, ⟨31, _⟩ => ⟨S9025x512, .f32⟩
  | .hbm, ⟨32, _⟩ => ⟨S9025x512, .f32⟩
  | .hbm, ⟨33, _⟩ => ⟨S512x16, .f32⟩
  | .hbm, ⟨34, _⟩ => ⟨S9025x16, .f32⟩
  | .hbm, ⟨35, _⟩ => ⟨S9025x16, .f32⟩
  | .hbm, ⟨36, _⟩ => ⟨S9025x16, .f32⟩
  | .hbm, ⟨37, _⟩ => ⟨S_, .f32⟩
  | .hbm, ⟨38, _⟩ => ⟨S9025x16, .f32⟩
  | .hbm, ⟨39, _⟩ => ⟨S9025x16, .f32⟩
  | .hbm, ⟨40, _⟩ => ⟨S_, .f32⟩
  | .hbm, ⟨41, _⟩ => ⟨S9025x16, .f32⟩
  | .hbm, ⟨42, _⟩ => ⟨S9025x16, .f32⟩
  | .hbm, ⟨43, _⟩ => ⟨S_, .f32⟩
  | .hbm, ⟨44, _⟩ => ⟨S9025x16, .f32⟩
  | .hbm, ⟨45, _⟩ => ⟨S9025x16, .f32⟩
  | .hbm, ⟨46, _⟩ => ⟨S16x9025, .f32⟩
  | .hbm, ⟨47, _⟩ => ⟨S_, .i32⟩
  | .hbm, ⟨48, _⟩ => ⟨S5308416, .i32⟩
  | .hbm, ⟨49, _⟩ => ⟨S5308416, .i1⟩
  | .hbm, ⟨50, _⟩ => ⟨S_, .i32⟩
  | .hbm, ⟨51, _⟩ => ⟨S5308416, .i32⟩
  | .hbm, ⟨52, _⟩ => ⟨S5308416, .i32⟩
  | .hbm, ⟨53, _⟩ => ⟨S5308416, .i32⟩
  | .hbm, ⟨54, _⟩ => ⟨S5308416x1, .i32⟩
  | .hbm, ⟨55, _⟩ => ⟨S1, .i32⟩
  | .hbm, ⟨56, _⟩ => ⟨S_, .i32⟩
  | .hbm, ⟨57, _⟩ => ⟨S5308416x1, .i32⟩
  | .hbm, ⟨58, _⟩ => ⟨S5308416x1, .i1⟩
  | .hbm, ⟨59, _⟩ => ⟨S1x1, .i32⟩
  | .hbm, ⟨60, _⟩ => ⟨S5308416x1, .i32⟩
  | .hbm, ⟨61, _⟩ => ⟨S5308416x1, .i1⟩
  | .hbm, ⟨62, _⟩ => ⟨S5308416x1, .i1⟩
  | .hbm, ⟨63, _⟩ => ⟨S_, .i1⟩
  | .hbm, ⟨64, _⟩ => ⟨S5308416, .i1⟩
  | .hbm, ⟨65, _⟩ => ⟨S16x5308416, .f32⟩
  | .hbm, ⟨66, _⟩ => ⟨S16x5308416, .i1⟩
  | .hbm, ⟨67, _⟩ => ⟨S_, .f32⟩
  | .hbm, ⟨68, _⟩ => ⟨S16x5308416, .f32⟩
  | .hbm, ⟨69, _⟩ => ⟨S16x5308416, .f32⟩
  | .hbm, ⟨70, _⟩ => ⟨S16x2304x2304, .f32⟩
  | .hbm, ⟨71, _⟩ => ⟨S16x2304x64, .bf16⟩
  | .hbm, ⟨72, _⟩ => ⟨S2304x16x64, .bf16⟩
  | .hbm, ⟨73, _⟩ => ⟨S2304x1024, .bf16⟩
  | .hbm, ⟨74, _⟩ => ⟨S1x1024, .f32⟩
  | .hbm, ⟨75, _⟩ => ⟨S2304x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S1x2304x64, .bf16⟩
  | .local _ .vmem, ⟨9, _⟩ => ⟨S1x2304x64, .bf16⟩
  | .local _ .vmem, ⟨10, _⟩ => ⟨S1x384x64, .bf16⟩
  | .local _ .vmem, ⟨11, _⟩ => ⟨S1x384x64, .bf16⟩
  | .local _ .vmem, ⟨12, _⟩ => ⟨S1x384x64, .bf16⟩
  | .local _ .vmem, ⟨13, _⟩ => ⟨S1x384x64, .bf16⟩
  | .local _ .vmem, ⟨14, _⟩ => ⟨S1x2304x384, .f32⟩
  | .local _ .vmem, ⟨15, _⟩ => ⟨S1x2304x384, .f32⟩
  | .local _ .vmem, ⟨16, _⟩ => ⟨S1x2304x64, .bf16⟩
  | .local _ .vmem, ⟨17, _⟩ => ⟨S1x2304x64, .bf16⟩
  | .local _ .vmem, ⟨18, _⟩ => ⟨S2304x1, .f32⟩
  | .local _ .vmem, ⟨19, _⟩ => ⟨S2304x1, .f32⟩
  | .local _ .vmem, ⟨20, _⟩ => ⟨S2304x64, .f32⟩
  | .local _ .vmem, ⟨21, _⟩ => ⟨S256x1024, .bf16⟩
  | .local _ .vmem, ⟨22, _⟩ => ⟨S256x1024, .bf16⟩
  | .local _ .vmem, ⟨23, _⟩ => ⟨S1024x1024, .bf16⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![3, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 6], ![false, false]⟩

def k1_cond2 (i : grid1.Coords) : BitVec 1 :=
  let arg1 : BitVec 32 := BitVec.ofNat 32 (i 1).val
  let c5_i32 : BitVec 32 := 5#32
  let v46 : BitVec 1 := Scalar.cmpi .eq arg1 c5_i32
  let v47 : BitVec 32 := Scalar.extui v46
  let c0_i32_30 : BitVec 32 := 0#32
  let v48 : BitVec 1 := Scalar.cmpi .ne v47 c0_i32_30
  v48

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2304x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x384x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x384x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2304x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2304x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![1, 9], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  shapeCasts_S2304x3072_S2304x3x16x64 : S2304x3072.ShapeCasts S2304x3x16x64
  slices_S2304x3x16x64_S2304x1x16x64_0_0_0_0 : S2304x3x16x64.Slices ![0, 0, 0, 0] S2304x1x16x64
  shapeCasts_S2304x1x16x64_S2304x16x64 : S2304x1x16x64.ShapeCasts S2304x16x64
  transposes_S2304x16x64_S16x2304x64_1_0_2 : S2304x16x64.Transposes [1, 0, 2] S16x2304x64
  slices_S2304x3x16x64_S2304x1x16x64_0_1_0_0 : S2304x3x16x64.Slices ![0, 1, 0, 0] S2304x1x16x64
  slices_S2304x3x16x64_S2304x1x16x64_0_2_0_0 : S2304x3x16x64.Slices ![0, 2, 0, 0] S2304x1x16x64
  transposes_S512x2_S2x512_1_0 : S512x2.Transposes [1, 0] S2x512
  bcast_S512_S1x512_1 : S512.BroadcastsInDim S1x512 (![1] : Fin 1 → Fin S1x512.rank)
  bcast_S1x512_S9025x512_0_1 : S1x512.BroadcastsInDim S9025x512 (![0, 1] : Fin 2 → Fin S9025x512.rank)
  bcast_S_S9025x512 : S_.BroadcastsInDim S9025x512 (![] : Fin 0 → Fin S9025x512.rank)
  transposes_S16x512_S512x16_1_0 : S16x512.Transposes [1, 0] S512x16
  bcast_S_S9025x16 : S_.BroadcastsInDim S9025x16 (![] : Fin 0 → Fin S9025x16.rank)
  transposes_S9025x16_S16x9025_1_0 : S9025x16.Transposes [1, 0] S16x9025
  bcast_S_S5308416 : S_.BroadcastsInDim S5308416 (![] : Fin 0 → Fin S5308416.rank)
  bcast_S5308416_S5308416x1_0 : S5308416.BroadcastsInDim S5308416x1 (![0] : Fin 1 → Fin S5308416x1.rank)
  bcast_S_S5308416x1 : S_.BroadcastsInDim S5308416x1 (![] : Fin 0 → Fin S5308416x1.rank)
  bcast_S1_S1x1_1 : S1.BroadcastsInDim S1x1 (![1] : Fin 1 → Fin S1x1.rank)
  bcast_S1x1_S5308416x1_0_1 : S1x1.BroadcastsInDim S5308416x1 (![0, 1] : Fin 2 → Fin S5308416x1.rank)
  reducesTo_S5308416x1_S5308416_d1 : S5308416x1.ReducesTo [1] S5308416
  h_S_ : 0 < S_.numel
  bcast_S5308416_S16x5308416_1 : S5308416.BroadcastsInDim S16x5308416 (![1] : Fin 1 → Fin S16x5308416.rank)
  bcast_S_S16x5308416 : S_.BroadcastsInDim S16x5308416 (![] : Fin 0 → Fin S16x5308416.rank)
  shapeCasts_S16x5308416_S16x2304x2304 : S16x5308416.ShapeCasts S16x2304x2304
  inb_S2304x1_S2304x1_0_0 : ∀ a, (![0, 0] : Fin 2 → Nat) a + S2304x1.size a ≤ S2304x1.size a
  h_S2304x1 : 0 < S2304x1.numel
  shapeCasts_S2304x1_S2304x1 : S2304x1.ShapeCasts S2304x1
  inb_S2304x64_S2304x64_0_0 : ∀ a, (![0, 0] : Fin 2 → Nat) a + S2304x64.size a ≤ S2304x64.size a
  h_S2304x64 : 0 < S2304x64.numel
  shapeCasts_S2304x64_S2304x64 : S2304x64.ShapeCasts S2304x64
  inb_S1x2304x64_S1x2304x64_0_0_0 : ∀ a, (![0, 0, 0] : Fin 3 → Nat) a + S1x2304x64.size a ≤ S1x2304x64.size a
  h_S1x2304x64 : 0 < S1x2304x64.numel
  shapeCasts_S1x2304x64_S2304x64 : S1x2304x64.ShapeCasts S2304x64
  inb_S1x384x64_S1x384x64_0_0_0 : ∀ a, (![0, 0, 0] : Fin 3 → Nat) a + S1x384x64.size a ≤ S1x384x64.size a
  h_S1x384x64 : 0 < S1x384x64.numel
  shapeCasts_S1x384x64_S384x64 : S1x384x64.ShapeCasts S384x64
  transposes_S384x64_p1_0_S64x384 : S384x64.Transposes [1, 0] S64x384
  inb_S1x2304x384_S1x2304x384_0_0_0 : ∀ a, (![0, 0, 0] : Fin 3 → Nat) a + S1x2304x384.size a ≤ S1x2304x384.size a
  h_S1x2304x384 : 0 < S1x2304x384.numel
  shapeCasts_S1x2304x384_S2304x384 : S1x2304x384.ShapeCasts S2304x384
  reduces_S2304x384_S2304 : S2304x384.Reduces [1] S2304
  shapeCasts_S2304_S2304x1 : S2304.ShapeCasts S2304x1
  broadcasts_S2304x1_S2304x384 : S2304x1.Broadcasts S2304x384
  broadcasts_S2304x1_S2304x64 : S2304x1.Broadcasts S2304x64
  shapeCasts_S2304x64_S1x2304x64 : S2304x64.ShapeCasts S1x2304x64
  packedbf16_S1x2304x64_S1x2304x64_0_0_0 : (Rect.unit (s := S1x2304x64) ![0, 0, 0] S1x2304x64.size inb_S1x2304x64_S1x2304x64_0_0_0).PackedRows (EltTy.packing .bf16)
  transposes_S16x2304x64_S2304x16x64_1_0_2 : S16x2304x64.Transposes [1, 0, 2] S2304x16x64
  shapeCasts_S2304x16x64_S2304x1024 : S2304x16x64.ShapeCasts S2304x1024
  shapeCasts_S1024_S1x1024 : S1024.ShapeCasts S1x1024
  dot_S256x1024_S1024x1024_S256x1024_1_0_0_1_n_n_wf : DotDims.WF S256x1024 S1024x1024 S256x1024 [1] [0] [0] [1] [] []
  dot_S9025x2_S2x512_S9025x512_1_0_0_1_n_n_wf : DotDims.WF S9025x2 S2x512 S9025x512 [1] [0] [0] [1] [] []
  dot_S9025x512_S512x16_S9025x16_1_0_0_1_n_n_wf : DotDims.WF S9025x512 S512x16 S9025x16 [1] [0] [0] [1] [] []
  gather_S16x9025_S5308416x1_S16x5308416_0_1_n_n_1_1_161_wf : GatherDims.WF S16x9025 S5308416x1 S16x5308416 [0] [1] [] [1] [] 1 ![16, 1]
  dot_S2304x64_S64x384_S2304x384_1_0_0_1_n_n_wf : DotDims.WF S2304x64 S64x384 S2304x384 [1] [0] [0] [1] [] []
  dot_S2304x384_S384x64_S2304x64_1_0_0_1_n_n_wf : DotDims.WF S2304x384 S384x64 S2304x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2304x1024.size a
  hwx0_0 : ∀ i : grid0.Coords, EltTy.bits .bf16 = 32 ∨ (Rect.block (s := S2304x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2304x3072.size a
  hwx0_3 : ∀ i : grid0.Coords, EltTy.bits .bf16 = 32 ∨ (Rect.block (s := S2304x3072) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2304x64.size a ≤ S16x2304x64.size a
  hwx1_0 : ∀ i : grid1.Coords, EltTy.bits .bf16 = 32 ∨ (Rect.block (s := S16x2304x64) S1x2304x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x384x64.size a ≤ S16x2304x64.size a
  hwx1_1 : ∀ i : grid1.Coords, EltTy.bits .bf16 = 32 ∨ (Rect.block (s := S16x2304x64) S1x384x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x384x64.size a ≤ S16x2304x64.size a
  hwx1_2 : ∀ i : grid1.Coords, EltTy.bits .bf16 = 32 ∨ (Rect.block (s := S16x2304x64) S1x384x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2304x384.size a ≤ S16x2304x2304.size a
  hwx1_3 : ∀ i : grid1.Coords, EltTy.bits .f32 = 32 ∨ (Rect.block (s := S16x2304x2304) S1x2304x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2304x64.size a ≤ S16x2304x64.size a
  hwx1_4 : ∀ i : grid1.Coords, EltTy.bits .bf16 = 32 ∨ (Rect.block (s := S16x2304x64) S1x2304x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2304x1024.size a
  hwx2_0 : ∀ i : grid2.Coords, EltTy.bits .bf16 = 32 ∨ (Rect.block (s := S2304x1024) S256x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S2304x1024.size a
  hwx2_3 : ∀ i : grid2.Coords, EltTy.bits .f32 = 32 ∨ (Rect.block (s := S2304x1024) S256x1024.size (cc2_transform_3 i) (hinb2_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S9025x2_S2x512_S9025x512_1_0_0_1_n_n : DotDims S9025x2 S2x512 S9025x512 where
  lhsContracting := [1]
  rhsContracting := [0]
  lhsNonContracting := [0]
  rhsNonContracting := [1]
  lhsBatch := []
  rhsBatch := []
  wf := dot_S9025x2_S2x512_S9025x512_1_0_0_1_n_n_wf
def dot_S9025x512_S512x16_S9025x16_1_0_0_1_n_n : DotDims S9025x512 S512x16 S9025x16 where
  lhsContracting := [1]
  rhsContracting := [0]
  lhsNonContracting := [0]
  rhsNonContracting := [1]
  lhsBatch := []
  rhsBatch := []
  wf := dot_S9025x512_S512x16_S9025x16_1_0_0_1_n_n_wf
def gather_S16x9025_S5308416x1_S16x5308416_0_1_n_n_1_1_161 : GatherDims S16x9025 S5308416x1 S16x5308416 where
  offsetDims := [0]
  collapsedSliceDims := [1]
  operandBatchingDims := []
  startIndicesBatchingDims := []
  startIndexMap := [1]
  indexVectorDim := 1
  sliceSizes := ![16, 1]
  wf := gather_S16x9025_S5308416x1_S16x5308416_0_1_n_n_1_1_161_wf
def dot_S2304x64_S64x384_S2304x384_1_0_0_1_n_n : DotDims S2304x64 S64x384 S2304x384 where
  lhsContracting := [1]
  rhsContracting := [0]
  lhsNonContracting := [0]
  rhsNonContracting := [1]
  lhsBatch := []
  rhsBatch := []
  wf := dot_S2304x64_S64x384_S2304x384_1_0_0_1_n_n_wf
def dot_S2304x384_S384x64_S2304x64_1_0_0_1_n_n : DotDims S2304x384 S384x64 S2304x64 where
  lhsContracting := [1]
  rhsContracting := [0]
  lhsNonContracting := [0]
  rhsNonContracting := [1]
  lhsBatch := []
  rhsBatch := []
  wf := dot_S2304x384_S384x64_S2304x64_1_0_0_1_n_n_wf

abbrev win0_0 : Pipeline.Window sig grid0 :=
  Pipeline.Window.ofSpec (Memref.whole main_v2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x2304x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x384x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x2304x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x2304x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v36) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2304x1024 : Shape := ⟨2, ![2304, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S512x2 : Shape := ⟨2, ![512, 2]⟩
abbrev S512 : Shape := ⟨1, ![512]⟩
abbrev S16x512 : Shape := ⟨2, ![16, 512]⟩
abbrev S9025x2 : Shape := ⟨2, ![9025, 2]⟩
abbrev S5308416 : Shape := ⟨1, ![5308416]⟩
abbrev S1024x3072 : Shape := ⟨2, ![1024, 3072]⟩
abbrev S2304x3072 : Shape := ⟨2, ![2304, 3072]⟩
abbrev S1x3072 : Shape := ⟨2, ![1, 3072]⟩
abbrev S2304x3x16x64 : Shape := ⟨4, ![2304, 3, 16, 64]⟩
abbrev S3x16x2304x64 : Shape := ⟨4, ![3, 16, 2304, 64]⟩
abbrev S1x16x2304x64 : Shape := ⟨4, ![1, 16, 2304, 64]⟩
abbrev S16x2304x64 : Shape := ⟨3, ![16, 2304, 64]⟩
abbrev S16x2304x2304 : Shape := ⟨3, ![16, 2304, 2304]⟩
abbrev S_ : Shape := ⟨0, ![]⟩
abbrev S2x512 : Shape := ⟨2, ![2, 512]⟩
abbrev S9025x512 : Shape := ⟨2, ![9025, 512]⟩
abbrev S1x512 : Shape := ⟨2, ![1, 512]⟩
abbrev S512x16 : Shape := ⟨2, ![512, 16]⟩
abbrev S9025x16 : Shape := ⟨2, ![9025, 16]⟩
abbrev S5308416x1 : Shape := ⟨2, ![5308416, 1]⟩
abbrev S5308416x16 : Shape := ⟨2, ![5308416, 16]⟩
abbrev S2304x2304x16 : Shape := ⟨3, ![2304, 2304, 16]⟩
abbrev S16x2304 : Shape := ⟨2, ![16, 2304]⟩
abbrev S16x2304x1 : Shape := ⟨3, ![16, 2304, 1]⟩
abbrev S2304x16x64 : Shape := ⟨3, ![2304, 16, 64]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S512x2, .f32⟩
  | .hbm, ⟨6, _⟩ => ⟨S512, .f32⟩
  | .hbm, ⟨7, _⟩ => ⟨S16x512, .f32⟩
  | .hbm, ⟨8, _⟩ => ⟨S9025x2, .f32⟩
  | .hbm, ⟨9, _⟩ => ⟨S5308416, .i32⟩
  | .hbm, ⟨10, _⟩ => ⟨S1024x3072, .f32⟩
  | .hbm, ⟨11, _⟩ => ⟨S2304x3072, .f32⟩
  | .hbm, ⟨12, _⟩ => ⟨S1x3072, .f32⟩
  | .hbm, ⟨13, _⟩ => ⟨S2304x3072, .f32⟩
  | .hbm, ⟨14, _⟩ => ⟨S2304x3072, .f32⟩
  | .hbm, ⟨15, _⟩ => ⟨S2304x3x16x64, .f32⟩
  | .hbm, ⟨16, _⟩ => ⟨S3x16x2304x64, .f32⟩
  | .hbm, ⟨17, _⟩ => ⟨S1x16x2304x64, .f32⟩
  | .hbm, ⟨18, _⟩ => ⟨S16x2304x64, .f32⟩
  | .hbm, ⟨19, _⟩ => ⟨S1x16x2304x64, .f32⟩
  | .hbm, ⟨20, _⟩ => ⟨S16x2304x64, .f32⟩
  | .hbm, ⟨21, _⟩ => ⟨S1x16x2304x64, .f32⟩
  | .hbm, ⟨22, _⟩ => ⟨S16x2304x64, .f32⟩
  | .hbm, ⟨23, _⟩ => ⟨S16x2304x2304, .f32⟩
  | .hbm, ⟨24, _⟩ => ⟨S_, .f32⟩
  | .hbm, ⟨25, _⟩ => ⟨S_, .f32⟩
  | .hbm, ⟨26, _⟩ => ⟨S16x2304x2304, .f32⟩
  | .hbm, ⟨27, _⟩ => ⟨S16x2304x2304, .f32⟩
  | .hbm, ⟨28, _⟩ => ⟨S2x512, .f32⟩
  | .hbm, ⟨29, _⟩ => ⟨S9025x512, .f32⟩
  | .hbm, ⟨30, _⟩ => ⟨S1x512, .f32⟩
  | .hbm, ⟨31, _⟩ => ⟨S9025x512, .f32⟩
  | .hbm, ⟨32, _⟩ => ⟨S9025x512, .f32⟩
  | .hbm, ⟨33, _⟩ => ⟨S_, .f32⟩
  | .hbm, ⟨34, _⟩ => ⟨S9025x512, .f32⟩
  | .hbm, ⟨35, _⟩ => ⟨S9025x512, .f32⟩
  | .hbm, ⟨36, _⟩ => ⟨S512x16, .f32⟩
  | .hbm, ⟨37, _⟩ => ⟨S9025x16, .f32⟩
  | .hbm, ⟨38, _⟩ => ⟨S_, .i32⟩
  | .hbm, ⟨39, _⟩ => ⟨S5308416, .i32⟩
  | .hbm, ⟨40, _⟩ => ⟨S5308416, .i1⟩
  | .hbm, ⟨41, _⟩ => ⟨S_, .i32⟩
  | .hbm, ⟨42, _⟩ => ⟨S5308416, .i32⟩
  | .hbm, ⟨43, _⟩ => ⟨S5308416, .i32⟩
  | .hbm, ⟨44, _⟩ => ⟨S5308416, .i32⟩
  | .hbm, ⟨45, _⟩ => ⟨S5308416x1, .i32⟩
  | .hbm, ⟨46, _⟩ => ⟨S5308416x16, .f32⟩
  | .hbm, ⟨47, _⟩ => ⟨S2304x2304x16, .f32⟩
  | .hbm, ⟨48, _⟩ => ⟨S16x2304x2304, .f32⟩
  | .hbm, ⟨49, _⟩ => ⟨S16x2304x2304, .f32⟩
  | .hbm, ⟨50, _⟩ => ⟨S16x2304x2304, .f32⟩
  | .hbm, ⟨51, _⟩ => ⟨S_, .f32⟩
  | .hbm, ⟨52, _⟩ => ⟨S16x2304x2304, .f32⟩
  | .hbm, ⟨53, _⟩ => ⟨S16x2304x2304, .f32⟩
  | .hbm, ⟨54, _⟩ => ⟨S_, .f32⟩
  | .hbm, ⟨55, _⟩ => ⟨S16x2304x2304, .f32⟩
  | .hbm, ⟨56, _⟩ => ⟨S16x2304x2304, .f32⟩
  | .hbm, ⟨57, _⟩ => ⟨S_, .f32⟩
  | .hbm, ⟨58, _⟩ => ⟨S16x2304x2304, .f32⟩
  | .hbm, ⟨59, _⟩ => ⟨S16x2304x2304, .f32⟩
  | .hbm, ⟨60, _⟩ => ⟨S16x2304x2304, .f32⟩
  | .hbm, ⟨61, _⟩ => ⟨S_, .f32⟩
  | .hbm, ⟨62, _⟩ => ⟨S16x2304, .f32⟩
  | .hbm, ⟨63, _⟩ => ⟨S_, .f32⟩
  | .hbm, ⟨64, _⟩ => ⟨S16x2304, .f32⟩
  | .hbm, ⟨65, _⟩ => ⟨S16x2304, .f32⟩
  | .hbm, ⟨66, _⟩ => ⟨S16x2304x1, .f32⟩
  | .hbm, ⟨67, _⟩ => ⟨S16x2304x2304, .f32⟩
  | .hbm, ⟨68, _⟩ => ⟨S16x2304x2304, .f32⟩
  | .hbm, ⟨69, _⟩ => ⟨S16x2304x2304, .f32⟩
  | .hbm, ⟨70, _⟩ => ⟨S_, .f32⟩
  | .hbm, ⟨71, _⟩ => ⟨S16x2304, .f32⟩
  | .hbm, ⟨72, _⟩ => ⟨S16x2304x1, .f32⟩
  | .hbm, ⟨73, _⟩ => ⟨S16x2304x2304, .f32⟩
  | .hbm, ⟨74, _⟩ => ⟨S16x2304x2304, .f32⟩
  | .hbm, ⟨75, _⟩ => ⟨S16x2304x64, .f32⟩
  | .hbm, ⟨76, _⟩ => ⟨S2304x16x64, .f32⟩
  | .hbm, ⟨77, _⟩ => ⟨S2304x1024, .f32⟩
  | .hbm, ⟨78, _⟩ => ⟨S1024x1024, .f32⟩
  | .hbm, ⟨79, _⟩ => ⟨S2304x1024, .f32⟩
  | .hbm, ⟨80, _⟩ => ⟨S1x1024, .f32⟩
  | .hbm, ⟨81, _⟩ => ⟨S2304x1024, .f32⟩
  | .hbm, ⟨82, _⟩ => ⟨S2304x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S2304x3072_0_1 : S1x3072.BroadcastsInDim S2304x3072 (![0, 1] : Fin 2 → Fin S2304x3072.rank)
  shapeCasts_S2304x3072_S2304x3x16x64 : S2304x3072.ShapeCasts S2304x3x16x64
  transposes_S2304x3x16x64_S3x16x2304x64_1_2_0_3 : S2304x3x16x64.Transposes [1, 2, 0, 3] S3x16x2304x64
  slices_S3x16x2304x64_S1x16x2304x64_0_0_0_0 : S3x16x2304x64.Slices ![0, 0, 0, 0] S1x16x2304x64
  shapeCasts_S1x16x2304x64_S16x2304x64 : S1x16x2304x64.ShapeCasts S16x2304x64
  slices_S3x16x2304x64_S1x16x2304x64_1_0_0_0 : S3x16x2304x64.Slices ![1, 0, 0, 0] S1x16x2304x64
  slices_S3x16x2304x64_S1x16x2304x64_2_0_0_0 : S3x16x2304x64.Slices ![2, 0, 0, 0] S1x16x2304x64
  bcast_S_S16x2304x2304 : S_.BroadcastsInDim S16x2304x2304 (![] : Fin 0 → Fin S16x2304x2304.rank)
  transposes_S512x2_S2x512_1_0 : S512x2.Transposes [1, 0] S2x512
  bcast_S512_S1x512_1 : S512.BroadcastsInDim S1x512 (![1] : Fin 1 → Fin S1x512.rank)
  bcast_S1x512_S9025x512_0_1 : S1x512.BroadcastsInDim S9025x512 (![0, 1] : Fin 2 → Fin S9025x512.rank)
  bcast_S_S9025x512 : S_.BroadcastsInDim S9025x512 (![] : Fin 0 → Fin S9025x512.rank)
  transposes_S16x512_S512x16_1_0 : S16x512.Transposes [1, 0] S512x16
  bcast_S_S5308416 : S_.BroadcastsInDim S5308416 (![] : Fin 0 → Fin S5308416.rank)
  bcast_S5308416_S5308416x1_0 : S5308416.BroadcastsInDim S5308416x1 (![0] : Fin 1 → Fin S5308416x1.rank)
  shapeCasts_S5308416x16_S2304x2304x16 : S5308416x16.ShapeCasts S2304x2304x16
  transposes_S2304x2304x16_S16x2304x2304_2_0_1 : S2304x2304x16.Transposes [2, 0, 1] S16x2304x2304
  reducesTo_S16x2304x2304_S16x2304_d2 : S16x2304x2304.ReducesTo [2] S16x2304
  h_S_ : 0 < S_.numel
  bcast_S_S16x2304 : S_.BroadcastsInDim S16x2304 (![] : Fin 0 → Fin S16x2304.rank)
  bcast_S16x2304_S16x2304x1_0_1 : S16x2304.BroadcastsInDim S16x2304x1 (![0, 1] : Fin 2 → Fin S16x2304x1.rank)
  bcast_S16x2304x1_S16x2304x2304_0_1_2 : S16x2304x1.BroadcastsInDim S16x2304x2304 (![0, 1, 2] : Fin 3 → Fin S16x2304x2304.rank)
  transposes_S16x2304x64_S2304x16x64_1_0_2 : S16x2304x64.Transposes [1, 0, 2] S2304x16x64
  shapeCasts_S2304x16x64_S2304x1024 : S2304x16x64.ShapeCasts S2304x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S2304x1024_0_1 : S1x1024.BroadcastsInDim S2304x1024 (![0, 1] : Fin 2 → Fin S2304x1024.rank)
  dot_S2304x1024_S1024x3072_S2304x3072_1_0_0_1_n_n_wf : DotDims.WF S2304x1024 S1024x3072 S2304x3072 [1] [0] [0] [1] [] []
  dot_S16x2304x64_S16x2304x64_S16x2304x2304_2_2_1_1_0_0_wf : DotDims.WF S16x2304x64 S16x2304x64 S16x2304x2304 [2] [2] [1] [1] [0] [0]
  dot_S9025x2_S2x512_S9025x512_1_0_0_1_n_n_wf : DotDims.WF S9025x2 S2x512 S9025x512 [1] [0] [0] [1] [] []
  dot_S9025x512_S512x16_S9025x16_1_0_0_1_n_n_wf : DotDims.WF S9025x512 S512x16 S9025x16 [1] [0] [0] [1] [] []
  gather_S9025x16_S5308416x1_S5308416x16_1_0_n_n_0_1_116_wf : GatherDims.WF S9025x16 S5308416x1 S5308416x16 [1] [0] [] [0] [] 1 ![1, 16]
  dot_S16x2304x2304_S16x2304x64_S16x2304x64_2_1_1_2_0_0_wf : DotDims.WF S16x2304x2304 S16x2304x64 S16x2304x64 [2] [1] [1] [2] [0] [0]
  dot_S2304x1024_S1024x1024_S2304x1024_1_0_0_1_n_n_wf : DotDims.WF S2304x1024 S1024x1024 S2304x1024 [1] [0] [0] [1] [] []

variable [Facts₀]

def dot_S2304x1024_S1024x3072_S2304x3072_1_0_0_1_n_n : DotDims S2304x1024 S1024x3072 S2304x3072 where
  lhsContracting := [1]
  rhsContracting := [0]
  lhsNonContracting := [0]
  rhsNonContracting := [1]
  lhsBatch := []
  rhsBatch := []
  wf := dot_S2304x1024_S1024x3072_S2304x3072_1_0_0_1_n_n_wf
def dot_S16x2304x64_S16x2304x64_S16x2304x2304_2_2_1_1_0_0 : DotDims S16x2304x64 S16x2304x64 S16x2304x2304 where
  lhsContracting := [2]
  rhsContracting := [2]
  lhsNonContracting := [1]
  rhsNonContracting := [1]
  lhsBatch := [0]
  rhsBatch := [0]
  wf := dot_S16x2304x64_S16x2304x64_S16x2304x2304_2_2_1_1_0_0_wf
def dot_S9025x2_S2x512_S9025x512_1_0_0_1_n_n : DotDims S9025x2 S2x512 S9025x512 where
  lhsContracting := [1]
  rhsContracting := [0]
  lhsNonContracting := [0]
  rhsNonContracting := [1]
  lhsBatch := []
  rhsBatch := []
  wf := dot_S9025x2_S2x512_S9025x512_1_0_0_1_n_n_wf
def dot_S9025x512_S512x16_S9025x16_1_0_0_1_n_n : DotDims S9025x512 S512x16 S9025x16 where
  lhsContracting := [1]
  rhsContracting := [0]
  lhsNonContracting := [0]
  rhsNonContracting := [1]
  lhsBatch := []
  rhsBatch := []
  wf := dot_S9025x512_S512x16_S9025x16_1_0_0_1_n_n_wf
def gather_S9025x16_S5308416x1_S5308416x16_1_0_n_n_0_1_116 : GatherDims S9025x16 S5308416x1 S5308416x16 where
  offsetDims := [1]
  collapsedSliceDims := [0]
  operandBatchingDims := []
  startIndicesBatchingDims := []
  startIndexMap := [0]
  indexVectorDim := 1
  sliceSizes := ![1, 16]
  wf := gather_S9025x16_S5308416x1_S5308416x16_1_0_n_n_0_1_116_wf
def dot_S16x2304x2304_S16x2304x64_S16x2304x64_2_1_1_2_0_0 : DotDims S16x2304x2304 S16x2304x64 S16x2304x64 where
  lhsContracting := [2]
  rhsContracting := [1]
  lhsNonContracting := [1]
  rhsNonContracting := [2]
  lhsBatch := [0]
  rhsBatch := [0]
  wf := dot_S16x2304x2304_S16x2304x64_S16x2304x64_2_1_1_2_0_0_wf
def dot_S2304x1024_S1024x1024_S2304x1024_1_0_0_1_n_n : DotDims S2304x1024 S1024x1024 S2304x1024 where
  lhsContracting := [1]
  rhsContracting := [0]
  lhsNonContracting := [0]
  rhsNonContracting := [1]
  lhsBatch := []
  rhsBatch := []
  wf := dot_S2304x1024_S1024x1024_S2304x1024_1_0_0_1_n_n_wf

class Facts : Prop extends Facts₀ where

variable [Facts]
-- ==== Proof.K_Lin0.lean ====
/-
  The first linear layer's launch (launch 0 of the program) as a pipeline over blocks, at any float instance and at any
  contents `V` of the buffers when the launch is entered. A grid point holds a block of 256 rows of the left
  operand, a block of 1024 rows of the weight and the matching 1024 bias entries; the body stores, into the whole
  256×1024 output block, one value computed from the three blocks. This module states what each window's staging
  buffer holds after the body at each point (an input keeps its block; the output holds the stored value), proves
  the body's triple by symbolic execution, and packs the proof data the launch theorem takes.
-/
import proofs.«423628_j37984690766439_2_alg».proof.Proof.Gen.Kernel.Launch
import proofs.«423628_j37984690766439_2_alg».proof.Proof.Gen.Kernel.Skeleton
import proofs.«423628_j37984690766439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept it
    from the point before (its block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev rX0 : Rect S256x1024 := Rect.unit (s := S256x1024) ![0, 0] S256x1024.size inb_S256x1024_S256x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- What the body leaves in the output block: its one whole-block store, of the value computed from the three input blocks. -/
def out0_3 (x0 : Vec F S256x1024 .bf16) (x1 : Vec F S1024x1024 .bf16) (x2 : Vec F S1x1024 .f32) : Vec F S256x1024 .bf16 :=
  View.canon [⟨rX0, k0_pay1 (View.ld x0 rX0) (View.ld x1 rW0) (View.ld x2 rB0)⟩]

/-- The one store covers the block. -/
theorem cover0_3 (p0 : Vec F S256x1024 .bf16) (y : S256x1024.Idx) :
    ∃ pc ∈ ([⟨rX0, p0⟩] : List (View.Piece (Elt F) S256x1024 .bf16)), y ∈ pc.1.set :=
  View.cover_of_tiled [⟨rX0, p0⟩] S256x1024.size (by rfl) y

/-! ## The body's triple -/

set_option maxHeartbeats 4000000 in
/-- On whole staging buffers, the inputs' at contents `x0 x1 x2` and the output's at anything, the body runs to the end
    holding the inputs' as they were and the output's at `out0_3 x0 x1 x2`. -/
theorem sound_kernel0 (c : Dev nD) (E : Set ℕ) (i : grid0.Coords)
    (arg2 : Memref sig .tc .vmem S256x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S256x1024 .bf16) (harg5 : arg5.IsWhole)
    (x0 : Vec F S256x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The launch's proof data on core `c`: the arrays as the launch finds them; after the body at point `t` each input's
    buffer at its block and the output's at `out0_3` of the three blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Lin2.lean ====
/-
  The last linear layer's launch (launch 0 of the program) as a pipeline over blocks, at any float instance and at any
  contents `V` of the buffers when the launch is entered. A grid point holds a block of 256 rows of the left
  operand, a block of 1024 rows of the weight and the matching 1024 bias entries; the body stores, into the whole
  256×1024 output block, one value computed from the three blocks. This module states what each window's staging
  buffer holds after the body at each point (an input keeps its block; the output holds the stored value), proves
  the body's triple by symbolic execution, and packs the proof data the launch theorem takes.
-/
import proofs.«423628_j37984690766439_2_alg».proof.Proof.Gen.Kernel.Launch
import proofs.«423628_j37984690766439_2_alg».proof.Proof.Gen.Kernel.Skeleton
import proofs.«423628_j37984690766439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept it
    from the point before (its block index has not moved then). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev rX2 : Rect S256x1024 := Rect.unit (s := S256x1024) ![0, 0] S256x1024.size inb_S256x1024_S256x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- What the body leaves in the output block: its one whole-block store, of the value computed from the three input blocks. -/
def out2_3 (x0 : Vec F S256x1024 .bf16) (x1 : Vec F S1024x1024 .bf16) (x2 : Vec F S1x1024 .f32) : Vec F S256x1024 .f32 :=
  View.canon [⟨rX2, k2_pay1 (View.ld x0 rX2) (View.ld x1 rW2) (View.ld x2 rB2)⟩]

/-- The one store covers the block. -/
theorem cover2_3 (p0 : Vec F S256x1024 .f32) (y : S256x1024.Idx) :
    ∃ pc ∈ ([⟨rX2, p0⟩] : List (View.Piece (Elt F) S256x1024 .f32)), y ∈ pc.1.set :=
  View.cover_of_tiled [⟨rX2, p0⟩] S256x1024.size (by rfl) y

/-! ## The body's triple -/

set_option maxHeartbeats 4000000 in
/-- On whole staging buffers, the inputs' at contents `x0 x1 x2` and the output's at anything, the body runs to the end
    holding the inputs' as they were and the output's at `out2_3 x0 x1 x2`. -/
theorem sound_kernel2 (c : Dev nD) (E : Set ℕ) (i : grid2.Coords)
    (arg2 : Memref sig .tc .vmem S256x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S256x1024 .f32) (harg5 : arg5.IsWhole)
    (x0 : Vec F S256x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The launch's proof data on core `c`: the arrays as the launch finds them; after the body at point `t` each input's
    buffer at its block and the output's at `out2_3` of the three blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_AttnRuns.lean ====
/-
  The attention launch's body (launch 1 of the program), run symbolically in each of its three control cases, at any float
  instance. A grid point is a head and one of six tiles of 384 keys. The body keeps three scratch buffers between the
  points of a head: a running row maximum, a running denominator and a running numerator. At a head's first tile it
  first resets them (−∞, 0, 0); at every tile it updates them from the query block, the tile's key and value blocks and
  the tile's bias block; at a head's last tile it also stores numerator over denominator into the output block.
  Case A: first tile (reset, update). Case B: a middle tile (update only). Case C: last tile (update, store).
  Each run is stated as a subtype: the pieces the body's stores leave in each buffer are found by the symbolic
  execution itself, and the triple says the buffers end with those pieces written.
-/
import proofs.«423628_j37984690766439_2_alg».proof.Proof.Gen.Kernel.Launch
import proofs.«423628_j37984690766439_2_alg».proof.Proof.Gen.Kernel.Skeleton
import proofs.«423628_j37984690766439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "This is the head's first tile": the condition of the body's first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 6). -/
theorem hcond1_0 : ∀ t : Fin cfg1.N, cond1_0 (grid1.coords t) ↔ t.val % 6 = 0 :=
  (by decide +kernel : ∀ t : Fin grid1.N, cond1_0 (grid1.coords t) ↔ t.val % 6 = 0)
/-- "This is the head's last tile": the condition of the body's second conditional. -/
abbrev cond1_1 (i : grid1.Coords) : Prop := k1_cond2 i = 1#1
/-- It holds at the points ≡ 5 (mod 6). -/
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a head's last tile the body stores nothing into the output block, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At a head's last tile the output block is live. -/
theorem liveAt1_4 : ∀ t : Fin cfg1.N, cond1_1 (grid1.coords t) → cfg1.idle 4 (grid1.coords t) = false := by decide +kernel

/-! ## The staging and scratch buffers the pipeline passes the body -/

abbrev ms1_0 (t : Fin cfg1.N) : Memref sig .tc .vmem S1x2304x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x384x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2304x384 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2304x64 .bf16 := win1_4.stage (cfg1.slots t 4)
abbrev hs1_4 (t : Fin cfg1.N) : (ms1_4 t).IsWhole := hstage1_4 ((cfg1.slots t 4).cast nbuf1_4)
/-- The three scratch buffers: the running maximum, the running denominator, the running numerator. -/
abbrev scM1_0 : Memref sig .tc .vmem S2304x1 .f32 := Memref.whole cc1_scratch0
abbrev scM1_1 : Memref sig .tc .vmem S2304x1 .f32 := Memref.whole cc1_scratch1
abbrev scM1_2 : Memref sig .tc .vmem S2304x64 .f32 := Memref.whole cc1_scratch2
abbrev VS1_0 : View sig .tc .vmem S2304x1 .f32 := scM1_0.view
abbrev VS1_1 : View sig .tc .vmem S2304x1 .f32 := scM1_1.view
abbrev VS1_2 : View sig .tc .vmem S2304x64 .f32 := scM1_2.view
/-- One staging buffer of the output window, through which its contents are stated. -/
abbrev VO1_4 : View sig .tc .vmem S1x2304x64 .bf16 := (Memref.whole cc1_stg4_0 : Memref sig .tc .vmem S1x2304x64 .bf16).view

/-- The scoped buffers of the other two launches (their staging buffers), each whole at some contents: they ride through
    this launch untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The three scratch buffers, each whole at some contents. -/
def Scr1 (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d))

/-- The launch's invariant, opened: the three scratch buffers, the other launches' staging buffers, the generator register. -/
theorem PhiA1_split (c : Dev nD) :
    (Pipeline.ΦA spec1 c : sProp 𝕄) ⊢ iprop(Scr1 (F := F) c ∗ Rest1 (F := F) c ∗ (∃ r, prngReg c r)) := by
  unfold Pipeline.ΦA; rw [scopedRest1_eq]; unfold Scr1 Rest1; simp only [scM1_0, scM1_1, scM1_2, owns_whole]
  iintro ⟨⟨A0, A1, A2, A3, A4, A5, A6, A7, S0, S1, S2, B0, B1, B2, B3, B4, B5⟩, P⟩
  isplitl [S0 S1 S2]
  · isplitl [S0]; · iexact S0
    isplitl [S1]; · iexact S1
    iexact S2
  isplitr [P]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    iexact B5
  iexact P

/-- And closed again. -/
theorem PhiA1_join (c : Dev nD) :
    iprop(Scr1 (F := F) c ∗ Rest1 (F := F) c ∗ (∃ r, prngReg c r)) ⊢ (Pipeline.ΦA spec1 c : sProp 𝕄) := by
  unfold Pipeline.ΦA; rw [scopedRest1_eq]; unfold Scr1 Rest1; simp only [scM1_0, scM1_1, scM1_2, owns_whole]
  iintro ⟨⟨S0, S1, S2⟩, ⟨A0, A1, A2, A3, A4, A5, A6, A7, B0, B1, B2, B3, B4, B5⟩, P⟩
  isplitr [P]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    iexact B5
  iexact P

/-! ## The three runs -/

set_option maxHeartbeats 8000000 in
/-- Case A, a head's first tile: the scratch buffers come in at anything and leave with the pieces of the reset and of
    the update; the output block is handed back untouched. -/
noncomputable def kernelRun1_A (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) :
    Σ' (LS0 : List (View.Piece (Elt F) S2304x1 .f32)) (LS1 : List (View.Piece (Elt F) S2304x1 .f32)), { LS2 : List (View.Piece (Elt F) S2304x64 .f32) //
      ∀ (xi4 : Vec F S1x2304x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 8000000 in
/-- Case B, a middle tile: the scratch buffers come in at what the tile before left (`xs0 xs1 xs2`) and leave with the
    pieces of the update; the output block is handed back untouched. -/
noncomputable def kernelRun1_B (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    Σ' (LS0 : List (View.Piece (Elt F) S2304x1 .f32)) (LS1 : List (View.Piece (Elt F) S2304x1 .f32)), { LS2 : List (View.Piece (Elt F) S2304x64 .f32) //
      ∀ (xi4 : Vec F S1x2304x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 8000000 in
/-- Case C, a head's last tile: the scratch buffers come in at what the tile before left and leave with the pieces of the
    update; the output block comes in at anything and leaves with the piece of the final store. -/
noncomputable def kernelRun1_C (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    Σ' (L4 : List (View.Piece (Elt F) S1x2304x64 .bf16)) (LS0 : List (View.Piece (Elt F) S2304x1 .f32)) (LS1 : List (View.Piece (Elt F) S2304x1 .f32)), { LS2 : List (View.Piece (Elt F) S2304x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K_AttnDat.lean ====
/-
  The attention launch (launch 1 of the program) as a pipeline with three scratch buffers carried between the grid points: what
  the buffers hold after each point, the launch's invariant, its proof data and its body obligation, at any float
  instance and at any contents `V` of the buffers when the launch is entered. After point n the scratch buffers hold
  what the point's case leaves in them over what point n − 1 left (nothing is read from before a head's first tile);
  the output block holds the final store at a head's last tile and is idle elsewhere.
-/
import proofs.«423628_j37984690766439_2_alg».proof.Proof.K_AttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

/-- The three scratch buffers after case A (first tile): the run's pieces read back over anything. -/
def souts1_A (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) : Vec F S2304x1 .f32 × Vec F S2304x1 .f32 × Vec F S2304x64 .f32 :=
  (VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1),
   VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1),
   VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.1))
/-- After case B (a middle tile), over what the tile before left. -/
def souts1_B (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) : Vec F S2304x1 .f32 × Vec F S2304x1 .f32 × Vec F S2304x64 .f32 :=
  (VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).1),
   VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.1),
   VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.1))
/-- After case C (last tile), over what the tile before left. -/
def souts1_C (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) : Vec F S2304x1 .f32 × Vec F S2304x1 .f32 × Vec F S2304x64 .f32 :=
  (VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1),
   VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1),
   VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1))
/-- The output block after case C: the final store read back. -/
def out1_C_4 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) : Vec F S1x2304x64 .bf16 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)
/-- Where the output block is idle nothing consults its contents: a placeholder. -/
def out1_idle : Vec F S1x2304x64 .bf16 := VO1_4.read (Elt F) (VO1_4.writes (Elt F) VO1_4.junk [])

/-! ## Each case's pieces cover their buffers -/

theorem scoverA_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) (y : S2304x1.Idx) :
    ∃ pc ∈ (kernelRun1_A (F := F) c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S2304x1.size (by sl_kernel_rfl) y
theorem scoverA_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) (y : S2304x1.Idx) :
    ∃ pc ∈ (kernelRun1_A (F := F) c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S2304x1.size (by sl_kernel_rfl) y
theorem scoverA_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) (y : S2304x64.Idx) :
    ∃ pc ∈ (kernelRun1_A (F := F) c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S2304x64.size (by sl_kernel_rfl) y
theorem scoverB_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1 S2304x1.size (by sl_kernel_rfl) y
theorem scoverB_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S2304x1.size (by sl_kernel_rfl) y
theorem scoverB_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x64.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S2304x64.size (by sl_kernel_rfl) y
theorem scoverC_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S2304x1.size (by sl_kernel_rfl) y
theorem scoverC_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S2304x1.size (by sl_kernel_rfl) y
theorem scoverC_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x64.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S2304x64.size (by sl_kernel_rfl) y
theorem coverC_4 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S1x2304x64.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1x2304x64.size (by sl_kernel_rfl) y

/-! ## What the buffers hold after each point -/

/-- After the body at position `n`: the output block's staging buffer, then the three scratch buffers. The case is read off
    the position: first tile (n ≡ 0 mod 6), last tile (n ≡ 5), a middle tile otherwise; cases B and C start from the scratch
    contents position n − 1 left. -/
def outsAt1 (c : Dev nD) : (n : ℕ) → n < cfg1.N → Vec F S1x2304x64 .bf16 × Vec F S2304x1 .f32 × Vec F S2304x1 .f32 × Vec F S2304x64 .f32
  | 0, hn => (out1_idle, souts1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 6 = 0 then
      (out1_idle, souts1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 6 = 5 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
         souts1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_idle, souts1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- What position t − 1 left in the scratch buffers (for t > 0). -/
abbrev prev1 (c : Dev nD) (t : Fin cfg1.N) : Vec F S1x2304x64 .bf16 × Vec F S2304x1 .f32 × Vec F S2304x1 .f32 × Vec F S2304x64 .f32 :=
  outsAt1 V c (t.val - 1) (Nat.lt_of_le_of_lt (Nat.sub_le _ _) t.isLt)

/-- At a first tile: case A's contents. -/
theorem outsAt1_A (c : Dev nD) (t : Fin cfg1.N) (h0 : t.val % 6 = 0) (h1 : ¬t.val % 6 = 5) :
    outsAt1 V c t.val t.isLt = (out1_idle, souts1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- At a middle tile: case B's contents, over what the tile before left. -/
theorem outsAt1_B (c : Dev nD) (t : Fin cfg1.N) (h0 : ¬t.val % 6 = 0) (h1 : ¬t.val % 6 = 5) :
    outsAt1 V c t.val t.isLt = (out1_idle, souts1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_neg h1).trans rfl)

/-- At a last tile: case C's contents, over what the tile before left. -/
theorem outsAt1_C (c : Dev nD) (t : Fin cfg1.N) (h0 : ¬t.val % 6 = 0) (h1 : t.val % 6 = 5) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (prev1 V c t).2.1 (prev1 V c t).2.2.1 (prev1 V c t).2.2.2,
      souts1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before position `n`: before the first point what the launch hands over (every scoped buffer at anything); afterwards
    the three scratch buffers at what position n − 1 left, the other launches' staging buffers and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
      ∗ Rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
      ∗ Rest1 (F := F) c ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2))
      ∗ Rest1 (F := F) c ∗ (∃ r, prngReg c r)) := by
  cases n with
  | zero => exact absurd rfl hz
  | succ n => rfl

/-! ## The proof data -/

/-- The launch's proof data on core `c`: the arrays as the launch finds them; after the body at point `t` each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]; try rfl

set_option maxHeartbeats 8000000 in
/-- The body at any point: the position says which case the point is in; the inputs' buffers hold their blocks; the
    invariant hands the body the scratch buffers at what the point before left (at anything at a first tile) and takes them
    back at this point's contents; the output block is handed back untouched except at a last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 96 := lt_of_lt_of_eq t.isLt (show cfg1.N = 96 from N_1)
  by_cases h0 : t.val % 6 = 0
  · have h1 : ¬t.val % 6 = 5 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold souts1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split (F := F) c) $$ HΦ
      unfold Scr1
      icases HΦ' with ⟨⟨HS0, HS1, HS2⟩, Hr, Hg⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HS1, HS2⟩, Hr, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro h; rw [h] at h0; exact h0 (Nat.zero_mod _)
    by_cases h1 : t.val % 6 = 5
    · rw [show (dat1 V c).leavesExact 4 t = owns (c : Thread nD τ) (ms1_4 t) fullShare ((dat1 V c).after 4 t) from by
      unfold Dat.leavesExact; rw [liveAt1_4 t ((hcond1_1 t).mpr h1)]; try rfl, after1_4]
      rw [outsAt1_C V c t h0 h1]
      unfold out1_C_4 souts1_C; (try dsimp only)
      rw [PhiS1_castSucc V c t, PhiS1_pos V c _ _ hz]
      iintro ⟨⟨⟨HS0, HS1, HS2⟩, Hr, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          unfold owns; iexists _; isplitr
          swap; · iexact HS2
          ipureintro; exact View.read_writes_of_cover _ _ _ _ _ (scoverC_2 c _ _ _ _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold souts1_B; (try dsimp only)
      rw [PhiS1_castSucc V c t, PhiS1_pos V c _ _ hz]
      iintro ⟨⟨⟨HS0, HS1, HS2⟩, Hr, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over, the scratch contents forgotten. -/
theorem hout1 (c : Dev nD) : (dat1 V c).Φ (Fin.last cfg1.N) ⊢ Pipeline.ΦA spec1 c := by
  have ht : (Fin.last cfg1.N).val ≠ 0 := by rw [Fin.val_last]; have : cfg1.N = 96 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_join (F := F) c)
  unfold Scr1
  iintro ⟨⟨HS0, HS1, HS2⟩, Hr, Hg⟩
  isplitl [HS0 HS1 HS2]
  · isplitl [HS0]; · iexists _; iexact HS0
    isplitl [HS1]; · iexists _; iexact HS1
    iexists _; iexact HS2
  isplitl [Hr]; · iexact Hr
  iexact Hg

end Cert.Kernel.Hand

end
-- ==== Proof.K_Run.lean ====
/-
  The whole program as a run: host operations, the first linear launch, host operations, the attention launch, host
  operations, the last linear launch. Between two items every unscoped buffer holds named contents: the launch memory,
  then the host operations applied one after another, with each launch's output array replaced by what that launch's
  write-backs leave (`o0`, `o1`, `o2`). Each launch enters from the contents before it and leaves at the contents
  after it; the several-launch theorem then gives: every weakly fair execution terminates without a fault, the result
  buffer ends at `o2` and every argument array ends as launched.
-/
import proofs.«423628_j37984690766439_2_alg».proof.Proof.K_Lin0
import proofs.«423628_j37984690766439_2_alg».proof.Proof.K_Lin2
import proofs.«423628_j37984690766439_2_alg».proof.Proof.K_AttnDat
import proofs.«423628_j37984690766439_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launches leave, and the contents between the items -/

/-- A valuation read at the TensorCore's references (what a launch's proof data take). -/
abbrev rd (W : Dev nD → Valuation τ sig (Elt F)) : (c : Dev nD) → (b : Ref sig .tc) → Buf (Elt F) ((c : Thread nD τ).loc b) := fun c b => W c b

/-- What the first linear launch leaves in its output array. -/
def o0 (c : Dev nD) : Buf (Elt F) ((c : Thread nD τ).loc main_v4) := (dat0 (rd (V1 m)) c).arrAt 3 cfg0.N
/-- The launches' outputs known so far: the first. -/
def outsA : Outs (F := F) := fun _ r c => if h : r = main_v4 then h ▸ o0 m c else m ((c : Thread nD τ).loc r)
/-- What the attention launch leaves in its output array. -/
def o1 (c : Dev nD) : Buf (Elt F) ((c : Thread nD τ).loc main_v34) := (dat1 (rd (V7 m (outsA m))) c).arrAt 4 cfg1.N
/-- The first two. -/
def outsB : Outs (F := F) := fun _ r c => if h : r = main_v4 then h ▸ o0 m c else if h' : r = main_v34 then h' ▸ o1 m c else m ((c : Thread nD τ).loc r)
/-- What the last linear launch leaves in its output array: the program's result. -/
def o2 (c : Dev nD) : Buf (Elt F) ((c : Thread nD τ).loc main_v38) := (dat2 (rd (V9 m (outsB m))) c).arrAt 3 cfg2.N
/-- All three. -/
def outs : Outs (F := F) := fun _ r c => if h : r = main_v4 then h ▸ o0 m c else if h' : r = main_v34 then h' ▸ o1 m c
  else if h'' : r = main_v38 then h'' ▸ o2 m c else m ((c : Thread nD τ).loc r)

theorem outsA_v4 (J : ℕ) (c : Dev nD) : outsA m J main_v4 c = o0 m c := by unfold outsA; rw [dif_pos rfl]
theorem outsB_v4 (J : ℕ) (c : Dev nD) : outsB m J main_v4 c = o0 m c := by unfold outsB; rw [dif_pos rfl]
theorem outsB_v34 (J : ℕ) (c : Dev nD) : outsB m J main_v34 c = o1 m c := by
  unfold outsB; rw [dif_neg (by decide), dif_pos rfl]
theorem outs_v4 (J : ℕ) (c : Dev nD) : outs m J main_v4 c = o0 m c := by unfold outs; rw [dif_pos rfl]
theorem outs_v34 (J : ℕ) (c : Dev nD) : outs m J main_v34 c = o1 m c := by
  unfold outs; rw [dif_neg (by decide), dif_pos rfl]
theorem outs_v38 (J : ℕ) (c : Dev nD) : outs m J main_v38 c = o2 m c := by
  unfold outs; rw [dif_neg (by decide), dif_neg (by decide), dif_pos rfl]

/-- The contents up to the attention launch depend on the output family only through the first launch's output. -/
theorem V7_congr (o o' : Outs (F := F)) (c : Dev nD) (h : o 2 main_v4 c = o' 2 main_v4 c) : V7 m o c = V7 m o' c := by
  show StableHlo.after hostOps1_4 (StableHlo.after hostOps1_3 (StableHlo.after hostOps1_2 (StableHlo.after hostOps1_1 (StableHlo.after hostOps1
    (Function.update (V1 m c) main_v4 (o 2 main_v4 c)))))) = _
  rw [h]
/-- And up to the last launch through the first two. -/
theorem V9_congr (o o' : Outs (F := F)) (c : Dev nD) (h : o 2 main_v4 c = o' 2 main_v4 c) (h' : o 8 main_v34 c = o' 8 main_v34 c) : V9 m o c = V9 m o' c := by
  show StableHlo.after hostOps2 (Function.update (V7 m o c) main_v34 (o 8 main_v34 c)) = _
  rw [V7_congr m o o' c h, h']
theorem V7_outs (c : Dev nD) : V7 m (outs m) c = V7 m (outsA m) c := V7_congr m _ _ c ((outs_v4 m 2 c).trans (outsA_v4 m 2 c).symm)
theorem V9_outs (c : Dev nD) : V9 m (outs m) c = V9 m (outsB m) c :=
  V9_congr m _ _ c ((outs_v4 m 2 c).trans (outsB_v4 m 2 c).symm) ((outs_v34 m 8 c).trans (outsB_v34 m 8 c).symm)

/-! ## The proof data family and what rides beside the buffers -/

/-- Every launch's proof data, each at the contents its launch is entered from. -/
def pdats : (p : Fin 3) → (c : Dev nD) → Dat τ (Elt F) Unit ℕ (UR sig nD τ) ℕ (cfgs p) c
  | ⟨0, _⟩ => fun c => dat0 (rd (V1 m)) c
  | ⟨1, _⟩ => fun c => dat1 (rd (V7 m (outsA m))) c
  | ⟨2, _⟩ => fun c => dat2 (rd (V9 m (outsB m))) c
abbrev 𝒱₀ : Variants := Variants.none
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R (F := F) c

/-! ## The launches' arrays at entry and at exit -/

theorem hA0 (c : Dev nD) (w : Fin cfg0.W) : (pdats m 0 c).A w = V1 m c (Pipeline.arrRef spec0 w) := rfl
theorem hA1 (c : Dev nD) (w : Fin cfg1.W) : (pdats m 1 c).A w = V7 m (outs m) c (Pipeline.arrRef spec1 w) := by
  rw [V7_outs]; rfl
theorem hA2 (c : Dev nD) (w : Fin cfg2.W) : (pdats m 2 c).A w = V9 m (outs m) c (Pipeline.arrRef spec2 w) := by
  rw [V9_outs]; rfl

/-- After the first launch each of its arrays holds what the pipeline leaves: an input as entered, the output `o0`. -/
theorem hF0 (c : Dev nD) (w : Fin cfg0.W) : (pdats m 0 c).arrAt w cfg0.N = V2 m (outs m) c (Pipeline.arrRef spec0 w) := by
  match w with
  | ⟨0, _⟩ => exact ((pdats m 0 c).arrAt_in 0 rfl _).trans ((hA0 m c 0).trans (V2_of m (outs m) c _ (by decide)).symm)
  | ⟨1, _⟩ => exact ((pdats m 0 c).arrAt_in 1 rfl _).trans ((hA0 m c 1).trans (V2_of m (outs m) c _ (by decide)).symm)
  | ⟨2, _⟩ => exact ((pdats m 0 c).arrAt_in 2 rfl _).trans ((hA0 m c 2).trans (V2_of m (outs m) c _ (by decide)).symm)
  | ⟨3, _⟩ => exact ((outs_v4 m 2 c).symm.trans (by simp only [V2, Function.update_self]))
theorem hrest0 (c : Dev nD) : ∀ b, b ∉ Finset.univ.image (Pipeline.arrRef spec0) → V2 m (outs m) c b = V1 m c b :=
  fun b hb => V2_of m (outs m) c b (by
    intro hmem; rw [List.mem_singleton] at hmem; subst hmem
    exact hb (Finset.mem_image.mpr ⟨3, Finset.mem_univ _, rfl⟩))
theorem hF1 (c : Dev nD) (w : Fin cfg1.W) : (pdats m 1 c).arrAt w cfg1.N = V8 m (outs m) c (Pipeline.arrRef spec1 w) := by
  match w with
  | ⟨0, _⟩ => exact ((pdats m 1 c).arrAt_in 0 rfl _).trans ((hA1 m c 0).trans (V8_of m (outs m) c _ (by decide)).symm)
  | ⟨1, _⟩ => exact ((pdats m 1 c).arrAt_in 1 rfl _).trans ((hA1 m c 1).trans (V8_of m (outs m) c _ (by decide)).symm)
  | ⟨2, _⟩ => exact ((pdats m 1 c).arrAt_in 2 rfl _).trans ((hA1 m c 2).trans (V8_of m (outs m) c _ (by decide)).symm)
  | ⟨3, _⟩ => exact ((pdats m 1 c).arrAt_in 3 rfl _).trans ((hA1 m c 3).trans (V8_of m (outs m) c _ (by decide)).symm)
  | ⟨4, _⟩ => exact ((outs_v34 m 8 c).symm.trans (by simp only [V8, Function.update_self]))
theorem hrest1 (c : Dev nD) : ∀ b, b ∉ Finset.univ.image (Pipeline.arrRef spec1) → V8 m (outs m) c b = V7 m (outs m) c b :=
  fun b hb => V8_of m (outs m) c b (by
    intro hmem; rw [List.mem_singleton] at hmem; subst hmem
    exact hb (Finset.mem_image.mpr ⟨4, Finset.mem_univ _, rfl⟩))
theorem hF2 (c : Dev nD) (w : Fin cfg2.W) : (pdats m 2 c).arrAt w cfg2.N = V10 m (outs m) c (Pipeline.arrRef spec2 w) := by
  match w with
  | ⟨0, _⟩ => exact ((pdats m 2 c).arrAt_in 0 rfl _).trans ((hA2 m c 0).trans (V10_of m (outs m) c _ (by decide)).symm)
  | ⟨1, _⟩ => exact ((pdats m 2 c).arrAt_in 1 rfl _).trans ((hA2 m c 1).trans (V10_of m (outs m) c _ (by decide)).symm)
  | ⟨2, _⟩ => exact ((pdats m 2 c).arrAt_in 2 rfl _).trans ((hA2 m c 2).trans (V10_of m (outs m) c _ (by decide)).symm)
  | ⟨3, _⟩ => exact ((outs_v38 m 10 c).symm.trans (by simp only [V10, Function.update_self]))
theorem hrest2 (c : Dev nD) : ∀ b, b ∉ Finset.univ.image (Pipeline.arrRef spec2) → V10 m (outs m) c b = V9 m (outs m) c b :=
  fun b hb => V10_of m (outs m) c b (by
    intro hmem; rw [List.mem_singleton] at hmem; subst hmem
    exact hb (Finset.mem_image.mpr ⟨3, Finset.mem_univ _, rfl⟩))

/-! ## The launches as segments -/

set_option backward.isDefEq.respectTransparency.types false in
/-- Launch 0 as a segment of the program: entered with every unscoped buffer at the contents before it, left with them at
    the contents after it; its arrays are split out of the unscoped buffers on entry and put back on exit; the generator
    register goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V1 m)) c).loose
  hwaits := Pipeline.hwaits_of_owed_zero _ _ _ _ L lv 0 fun _ _ => rfl
  pre c := iprop(StableHlo.held (c : Thread nD τ) (Pipeline.ucRefs τ sig) (V1 m c) ∗ R (F := F) c)
  post c := iprop(StableHlo.held (c : Thread nD τ) (Pipeline.ucRefs τ sig) (V2 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the program: entered with every unscoped buffer at the contents before it, left with them at
    the contents after it; its arrays are split out of the unscoped buffers on entry and put back on exit; the generator
    register goes into the launch's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V7 m (outsA m))) c).loose
  hwaits := Pipeline.hwaits_of_owed_zero _ _ _ _ L lv 1 fun _ _ => rfl
  pre c := iprop(StableHlo.held (c : Thread nD τ) (Pipeline.ucRefs τ sig) (V7 m (outs m) c) ∗ R (F := F) c)
  post c := iprop(StableHlo.held (c : Thread nD τ) (Pipeline.ucRefs τ sig) (V8 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (rd (V7 m (outsA m))) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment of the program: entered with every unscoped buffer at the contents before it, left with them at
    the contents after it; its arrays are split out of the unscoped buffers on entry and put back on exit; the generator
    register goes into the launch's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V9 m (outsB m))) c).loose
  hwaits := Pipeline.hwaits_of_owed_zero _ _ _ _ L lv 2 fun _ _ => rfl
  pre c := iprop(StableHlo.held (c : Thread nD τ) (Pipeline.ucRefs τ sig) (V9 m (outs m) c) ∗ R (F := F) c)
  post c := iprop(StableHlo.held (c : Thread nD τ) (Pipeline.ucRefs τ sig) (V10 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec2 c (fun b => V9 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V9 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V9 m (outs m) c b) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What rides beside the buffers ends with the core owing nothing. -/
theorem hR_owes (c : Dev nD) : R (F := F) c ⊢ (iprop(∃ W, owes (c : Thread nD τ) (0 : CellTallies nD τ sig Unit) W) : sProp 𝕄) := by
  iintro ⟨-, HO⟩
  iexact HO

/-! ## The run -/

set_option backward.isDefEq.respectTransparency.types false in
/-- At the compiled mesh, from any memory with zero counters: every weakly fair execution of the program terminates without a
    fault; the result buffer ends at `o2` and every argument array ends as launched. -/
theorem run_all : θ_run defs (onTc (τ := τ) (main (F := F))) ⟨m, fun _ => 0, ρ⟩ (fun r => ∀ c : Dev nD,
      r.2.mem ((c.tc : Thread nD τ).loc main_v38) = o2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m) (reg2 m))
    (fun c Q => by
      rewrite [main_chain c, Seg.run_eq_chain,
        show (segs m (outs m) 𝒱₀ L lv (E (F := F)) () (pdats m) (reg0 m) (reg1 m) (reg2 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl (hR_owes (F := F) c)⟩)
    (hinit := ?_) (QY := fun c s => s.mem ((c.tc : Thread nD τ).loc main_v38) = o2 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: on every core the unscoped buffers are held at the launch contents, the generator register and the core's dues beside them
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨(h (Proc.devRef .tc main_v38) (Finset.mem_filter.mpr ⟨StableHlo.devRef_mem_tcRefs main_v38, by decide⟩)).trans
          ((show V10 m (outs m) c main_v38 = outs m 10 main_v38 c from by simp only [V10, Function.update_self]).trans (outs_v38 m 10 c)),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c),
        (h (Proc.devRef .tc main_arg4) (Finset.mem_filter.mpr ⟨StableHlo.devRef_mem_tcRefs main_arg4, by decide⟩)).trans (V10_main_arg4 m (outs m) c),
        (h (Proc.devRef .tc main_arg5) (Finset.mem_filter.mpr ⟨StableHlo.devRef_mem_tcRefs main_arg5, by decide⟩)).trans (V10_main_arg5 m (outs m) c),
        (h (Proc.devRef .tc main_arg6) (Finset.mem_filter.mpr ⟨StableHlo.devRef_mem_tcRefs main_arg6, by decide⟩)).trans (V10_main_arg6 m (outs m) c),
        (h (Proc.devRef .tc main_arg7) (Finset.mem_filter.mpr ⟨StableHlo.devRef_mem_tcRefs main_arg7, by decide⟩)).trans (V10_main_arg7 m (outs m) c),
        (h (Proc.devRef .tc main_arg8) (Finset.mem_filter.mpr ⟨StableHlo.devRef_mem_tcRefs main_arg8, by decide⟩)).trans (V10_main_arg8 m (outs m) c),
        (h (Proc.devRef .tc main_arg9) (Finset.mem_filter.mpr ⟨StableHlo.devRef_mem_tcRefs main_arg9, by decide⟩)).trans (V10_main_arg9 m (outs m) c)⟩
    · iexact HSI

/-- The frame claim's post: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_all m ρ)

end Cert.Kernel.Hand

end
-- ==== Proof.KI_Lin0.lean ====
/-
  The first linear layer's launch (launch 0 of the program) as a pipeline over blocks, at any float instance and at any
  contents `V` of the buffers when the launch is entered. A grid point holds a block of 256 rows of the left
  operand, a block of 1024 rows of the weight and the matching 1024 bias entries; the body stores, into the whole
  256×1024 output block, one value computed from the three blocks. This module states what each window's staging
  buffer holds after the body at each point (an input keeps its block; the output holds the stored value), proves
  the body's triple by symbolic execution, and packs the proof data the launch theorem takes.
-/
import proofs.«423628_j37984690766439_2_alg».proof.Proof.Gen.KernelIdeal.Launch
import proofs.«423628_j37984690766439_2_alg».proof.Proof.Gen.KernelIdeal.Skeleton
import proofs.«423628_j37984690766439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept it
    from the point before (its block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev rX0 : Rect S256x1024 := Rect.unit (s := S256x1024) ![0, 0] S256x1024.size inb_S256x1024_S256x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- What the body leaves in the output block: its one whole-block store, of the value computed from the three input blocks. -/
def out0_3 (x0 : Vec F S256x1024 .bf16) (x1 : Vec F S1024x1024 .bf16) (x2 : Vec F S1x1024 .f32) : Vec F S256x1024 .bf16 :=
  View.canon [⟨rX0, k0_pay1 (View.ld x0 rX0) (View.ld x1 rW0) (View.ld x2 rB0)⟩]

/-- The one store covers the block. -/
theorem cover0_3 (p0 : Vec F S256x1024 .bf16) (y : S256x1024.Idx) :
    ∃ pc ∈ ([⟨rX0, p0⟩] : List (View.Piece (Elt F) S256x1024 .bf16)), y ∈ pc.1.set :=
  View.cover_of_tiled [⟨rX0, p0⟩] S256x1024.size (by rfl) y

/-! ## The body's triple -/

set_option maxHeartbeats 4000000 in
/-- On whole staging buffers, the inputs' at contents `x0 x1 x2` and the output's at anything, the body runs to the end
    holding the inputs' as they were and the output's at `out0_3 x0 x1 x2`. -/
theorem sound_kernel0 (c : Dev nD) (E : Set ℕ) (i : grid0.Coords)
    (arg2 : Memref sig .tc .vmem S256x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S256x1024 .bf16) (harg5 : arg5.IsWhole)
    (x0 : Vec F S256x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The launch's proof data on core `c`: the arrays as the launch finds them; after the body at point `t` each input's
    buffer at its block and the output's at `out0_3` of the three blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Lin2.lean ====
/-
  The last linear layer's launch (launch 0 of the program) as a pipeline over blocks, at any float instance and at any
  contents `V` of the buffers when the launch is entered. A grid point holds a block of 256 rows of the left
  operand, a block of 1024 rows of the weight and the matching 1024 bias entries; the body stores, into the whole
  256×1024 output block, one value computed from the three blocks. This module states what each window's staging
  buffer holds after the body at each point (an input keeps its block; the output holds the stored value), proves
  the body's triple by symbolic execution, and packs the proof data the launch theorem takes.
-/
import proofs.«423628_j37984690766439_2_alg».proof.Proof.Gen.KernelIdeal.Launch
import proofs.«423628_j37984690766439_2_alg».proof.Proof.Gen.KernelIdeal.Skeleton
import proofs.«423628_j37984690766439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept it
    from the point before (its block index has not moved then). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev rX2 : Rect S256x1024 := Rect.unit (s := S256x1024) ![0, 0] S256x1024.size inb_S256x1024_S256x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- What the body leaves in the output block: its one whole-block store, of the value computed from the three input blocks. -/
def out2_3 (x0 : Vec F S256x1024 .bf16) (x1 : Vec F S1024x1024 .bf16) (x2 : Vec F S1x1024 .f32) : Vec F S256x1024 .f32 :=
  View.canon [⟨rX2, k2_pay1 (View.ld x0 rX2) (View.ld x1 rW2) (View.ld x2 rB2)⟩]

/-- The one store covers the block. -/
theorem cover2_3 (p0 : Vec F S256x1024 .f32) (y : S256x1024.Idx) :
    ∃ pc ∈ ([⟨rX2, p0⟩] : List (View.Piece (Elt F) S256x1024 .f32)), y ∈ pc.1.set :=
  View.cover_of_tiled [⟨rX2, p0⟩] S256x1024.size (by rfl) y

/-! ## The body's triple -/

set_option maxHeartbeats 4000000 in
/-- On whole staging buffers, the inputs' at contents `x0 x1 x2` and the output's at anything, the body runs to the end
    holding the inputs' as they were and the output's at `out2_3 x0 x1 x2`. -/
theorem sound_kernel2 (c : Dev nD) (E : Set ℕ) (i : grid2.Coords)
    (arg2 : Memref sig .tc .vmem S256x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S256x1024 .f32) (harg5 : arg5.IsWhole)
    (x0 : Vec F S256x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The launch's proof data on core `c`: the arrays as the launch finds them; after the body at point `t` each input's
    buffer at its block and the output's at `out2_3` of the three blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_AttnRuns.lean ====
/-
  The attention launch's body (launch 1 of the program), run symbolically in each of its three control cases, at any float
  instance. A grid point is a head and one of six tiles of 384 keys. The body keeps three scratch buffers between the
  points of a head: a running row maximum, a running denominator and a running numerator. At a head's first tile it
  first resets them (−∞, 0, 0); at every tile it updates them from the query block, the tile's key and value blocks and
  the tile's bias block; at a head's last tile it also stores numerator over denominator into the output block.
  Case A: first tile (reset, update). Case B: a middle tile (update only). Case C: last tile (update, store).
  Each run is stated as a subtype: the pieces the body's stores leave in each buffer are found by the symbolic
  execution itself, and the triple says the buffers end with those pieces written.
-/
import proofs.«423628_j37984690766439_2_alg».proof.Proof.Gen.KernelIdeal.Launch
import proofs.«423628_j37984690766439_2_alg».proof.Proof.Gen.KernelIdeal.Skeleton
import proofs.«423628_j37984690766439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "This is the head's first tile": the condition of the body's first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 6). -/
theorem hcond1_0 : ∀ t : Fin cfg1.N, cond1_0 (grid1.coords t) ↔ t.val % 6 = 0 :=
  (by decide +kernel : ∀ t : Fin grid1.N, cond1_0 (grid1.coords t) ↔ t.val % 6 = 0)
/-- "This is the head's last tile": the condition of the body's second conditional. -/
abbrev cond1_1 (i : grid1.Coords) : Prop := k1_cond2 i = 1#1
/-- It holds at the points ≡ 5 (mod 6). -/
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a head's last tile the body stores nothing into the output block, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At a head's last tile the output block is live. -/
theorem liveAt1_4 : ∀ t : Fin cfg1.N, cond1_1 (grid1.coords t) → cfg1.idle 4 (grid1.coords t) = false := by decide +kernel

/-! ## The staging and scratch buffers the pipeline passes the body -/

abbrev ms1_0 (t : Fin cfg1.N) : Memref sig .tc .vmem S1x2304x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x384x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2304x384 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2304x64 .bf16 := win1_4.stage (cfg1.slots t 4)
abbrev hs1_4 (t : Fin cfg1.N) : (ms1_4 t).IsWhole := hstage1_4 ((cfg1.slots t 4).cast nbuf1_4)
/-- The three scratch buffers: the running maximum, the running denominator, the running numerator. -/
abbrev scM1_0 : Memref sig .tc .vmem S2304x1 .f32 := Memref.whole cc1_scratch0
abbrev scM1_1 : Memref sig .tc .vmem S2304x1 .f32 := Memref.whole cc1_scratch1
abbrev scM1_2 : Memref sig .tc .vmem S2304x64 .f32 := Memref.whole cc1_scratch2
abbrev VS1_0 : View sig .tc .vmem S2304x1 .f32 := scM1_0.view
abbrev VS1_1 : View sig .tc .vmem S2304x1 .f32 := scM1_1.view
abbrev VS1_2 : View sig .tc .vmem S2304x64 .f32 := scM1_2.view
/-- One staging buffer of the output window, through which its contents are stated. -/
abbrev VO1_4 : View sig .tc .vmem S1x2304x64 .bf16 := (Memref.whole cc1_stg4_0 : Memref sig .tc .vmem S1x2304x64 .bf16).view

/-- The scoped buffers of the other two launches (their staging buffers), each whole at some contents: they ride through
    this launch untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The three scratch buffers, each whole at some contents. -/
def Scr1 (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d))

/-- The launch's invariant, opened: the three scratch buffers, the other launches' staging buffers, the generator register. -/
theorem PhiA1_split (c : Dev nD) :
    (Pipeline.ΦA spec1 c : sProp 𝕄) ⊢ iprop(Scr1 (F := F) c ∗ Rest1 (F := F) c ∗ (∃ r, prngReg c r)) := by
  unfold Pipeline.ΦA; rw [scopedRest1_eq]; unfold Scr1 Rest1; simp only [scM1_0, scM1_1, scM1_2, owns_whole]
  iintro ⟨⟨A0, A1, A2, A3, A4, A5, A6, A7, S0, S1, S2, B0, B1, B2, B3, B4, B5⟩, P⟩
  isplitl [S0 S1 S2]
  · isplitl [S0]; · iexact S0
    isplitl [S1]; · iexact S1
    iexact S2
  isplitr [P]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    iexact B5
  iexact P

/-- And closed again. -/
theorem PhiA1_join (c : Dev nD) :
    iprop(Scr1 (F := F) c ∗ Rest1 (F := F) c ∗ (∃ r, prngReg c r)) ⊢ (Pipeline.ΦA spec1 c : sProp 𝕄) := by
  unfold Pipeline.ΦA; rw [scopedRest1_eq]; unfold Scr1 Rest1; simp only [scM1_0, scM1_1, scM1_2, owns_whole]
  iintro ⟨⟨S0, S1, S2⟩, ⟨A0, A1, A2, A3, A4, A5, A6, A7, B0, B1, B2, B3, B4, B5⟩, P⟩
  isplitr [P]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    iexact B5
  iexact P

/-! ## The three runs -/

set_option maxHeartbeats 8000000 in
/-- Case A, a head's first tile: the scratch buffers come in at anything and leave with the pieces of the reset and of
    the update; the output block is handed back untouched. -/
noncomputable def kernelRun1_A (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) :
    Σ' (LS0 : List (View.Piece (Elt F) S2304x1 .f32)) (LS1 : List (View.Piece (Elt F) S2304x1 .f32)), { LS2 : List (View.Piece (Elt F) S2304x64 .f32) //
      ∀ (xi4 : Vec F S1x2304x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 8000000 in
/-- Case B, a middle tile: the scratch buffers come in at what the tile before left (`xs0 xs1 xs2`) and leave with the
    pieces of the update; the output block is handed back untouched. -/
noncomputable def kernelRun1_B (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    Σ' (LS0 : List (View.Piece (Elt F) S2304x1 .f32)) (LS1 : List (View.Piece (Elt F) S2304x1 .f32)), { LS2 : List (View.Piece (Elt F) S2304x64 .f32) //
      ∀ (xi4 : Vec F S1x2304x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 8000000 in
/-- Case C, a head's last tile: the scratch buffers come in at what the tile before left and leave with the pieces of the
    update; the output block comes in at anything and leaves with the piece of the final store. -/
noncomputable def kernelRun1_C (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    Σ' (L4 : List (View.Piece (Elt F) S1x2304x64 .bf16)) (LS0 : List (View.Piece (Elt F) S2304x1 .f32)) (LS1 : List (View.Piece (Elt F) S2304x1 .f32)), { LS2 : List (View.Piece (Elt F) S2304x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI_AttnDat.lean ====
/-
  The attention launch (launch 1 of the program) as a pipeline with three scratch buffers carried between the grid points: what
  the buffers hold after each point, the launch's invariant, its proof data and its body obligation, at any float
  instance and at any contents `V` of the buffers when the launch is entered. After point n the scratch buffers hold
  what the point's case leaves in them over what point n − 1 left (nothing is read from before a head's first tile);
  the output block holds the final store at a head's last tile and is idle elsewhere.
-/
import proofs.«423628_j37984690766439_2_alg».proof.Proof.KI_AttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

/-- The three scratch buffers after case A (first tile): the run's pieces read back over anything. -/
def souts1_A (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) : Vec F S2304x1 .f32 × Vec F S2304x1 .f32 × Vec F S2304x64 .f32 :=
  (VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1),
   VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1),
   VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.1))
/-- After case B (a middle tile), over what the tile before left. -/
def souts1_B (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) : Vec F S2304x1 .f32 × Vec F S2304x1 .f32 × Vec F S2304x64 .f32 :=
  (VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).1),
   VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.1),
   VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.1))
/-- After case C (last tile), over what the tile before left. -/
def souts1_C (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) : Vec F S2304x1 .f32 × Vec F S2304x1 .f32 × Vec F S2304x64 .f32 :=
  (VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1),
   VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1),
   VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1))
/-- The output block after case C: the final store read back. -/
def out1_C_4 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) : Vec F S1x2304x64 .bf16 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)
/-- Where the output block is idle nothing consults its contents: a placeholder. -/
def out1_idle : Vec F S1x2304x64 .bf16 := VO1_4.read (Elt F) (VO1_4.writes (Elt F) VO1_4.junk [])

/-! ## Each case's pieces cover their buffers -/

theorem scoverA_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) (y : S2304x1.Idx) :
    ∃ pc ∈ (kernelRun1_A (F := F) c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S2304x1.size (by sl_kernel_rfl) y
theorem scoverA_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) (y : S2304x1.Idx) :
    ∃ pc ∈ (kernelRun1_A (F := F) c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S2304x1.size (by sl_kernel_rfl) y
theorem scoverA_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : cond1_0 i) (hc1 : ¬cond1_1 i) (x0 : Vec F S1x2304x64 .bf16) (x1 : Vec F S1x384x64 .bf16) (x2 : Vec F S1x384x64 .bf16) (x3 : Vec F S1x2304x384 .f32) (y : S2304x64.Idx) :
    ∃ pc ∈ (kernelRun1_A (F := F) c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S2304x64.size (by sl_kernel_rfl) y
theorem scoverB_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1 S2304x1.size (by sl_kernel_rfl) y
theorem scoverB_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S2304x1.size (by sl_kernel_rfl) y
theorem scoverB_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x64.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S2304x64.size (by sl_kernel_rfl) y
theorem scoverC_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S2304x1.size (by sl_kernel_rfl) y
theorem scoverC_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x1.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S2304x1.size (by sl_kernel_rfl) y
theorem scoverC_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S2304x64.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S2304x64.size (by sl_kernel_rfl) y
theorem coverC_4 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (arg7 : Memref sig .tc .vmem S2304x1 .f32) (harg7 : arg7.IsWhole) (arg8 : Memref sig .tc .vmem S2304x1 .f32) (harg8 : arg8.IsWhole) (arg9 : Memref sig .tc .vmem S2304x64 .f32) (harg9 : arg9.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) (y : S1x2304x64.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1x2304x64.size (by sl_kernel_rfl) y

/-! ## What the buffers hold after each point -/

/-- After the body at position `n`: the output block's staging buffer, then the three scratch buffers. The case is read off
    the position: first tile (n ≡ 0 mod 6), last tile (n ≡ 5), a middle tile otherwise; cases B and C start from the scratch
    contents position n − 1 left. -/
def outsAt1 (c : Dev nD) : (n : ℕ) → n < cfg1.N → Vec F S1x2304x64 .bf16 × Vec F S2304x1 .f32 × Vec F S2304x1 .f32 × Vec F S2304x64 .f32
  | 0, hn => (out1_idle, souts1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 6 = 0 then
      (out1_idle, souts1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 6 = 5 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
         souts1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_idle, souts1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- What position t − 1 left in the scratch buffers (for t > 0). -/
abbrev prev1 (c : Dev nD) (t : Fin cfg1.N) : Vec F S1x2304x64 .bf16 × Vec F S2304x1 .f32 × Vec F S2304x1 .f32 × Vec F S2304x64 .f32 :=
  outsAt1 V c (t.val - 1) (Nat.lt_of_le_of_lt (Nat.sub_le _ _) t.isLt)

/-- At a first tile: case A's contents. -/
theorem outsAt1_A (c : Dev nD) (t : Fin cfg1.N) (h0 : t.val % 6 = 0) (h1 : ¬t.val % 6 = 5) :
    outsAt1 V c t.val t.isLt = (out1_idle, souts1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- At a middle tile: case B's contents, over what the tile before left. -/
theorem outsAt1_B (c : Dev nD) (t : Fin cfg1.N) (h0 : ¬t.val % 6 = 0) (h1 : ¬t.val % 6 = 5) :
    outsAt1 V c t.val t.isLt = (out1_idle, souts1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_neg h1).trans rfl)

/-- At a last tile: case C's contents, over what the tile before left. -/
theorem outsAt1_C (c : Dev nD) (t : Fin cfg1.N) (h0 : ¬t.val % 6 = 0) (h1 : t.val % 6 = 5) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (prev1 V c t).2.1 (prev1 V c t).2.2.1 (prev1 V c t).2.2.2,
      souts1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before position `n`: before the first point what the launch hands over (every scoped buffer at anything); afterwards
    the three scratch buffers at what position n − 1 left, the other launches' staging buffers and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
      ∗ Rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
      ∗ Rest1 (F := F) c ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2))
      ∗ Rest1 (F := F) c ∗ (∃ r, prngReg c r)) := by
  cases n with
  | zero => exact absurd rfl hz
  | succ n => rfl

/-! ## The proof data -/

/-- The launch's proof data on core `c`: the arrays as the launch finds them; after the body at point `t` each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]; try rfl

set_option maxHeartbeats 8000000 in
/-- The body at any point: the position says which case the point is in; the inputs' buffers hold their blocks; the
    invariant hands the body the scratch buffers at what the point before left (at anything at a first tile) and takes them
    back at this point's contents; the output block is handed back untouched except at a last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 96 := lt_of_lt_of_eq t.isLt (show cfg1.N = 96 from N_1)
  by_cases h0 : t.val % 6 = 0
  · have h1 : ¬t.val % 6 = 5 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold souts1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split (F := F) c) $$ HΦ
      unfold Scr1
      icases HΦ' with ⟨⟨HS0, HS1, HS2⟩, Hr, Hg⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HS1, HS2⟩, Hr, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro h; rw [h] at h0; exact h0 (Nat.zero_mod _)
    by_cases h1 : t.val % 6 = 5
    · rw [show (dat1 V c).leavesExact 4 t = owns (c : Thread nD τ) (ms1_4 t) fullShare ((dat1 V c).after 4 t) from by
      unfold Dat.leavesExact; rw [liveAt1_4 t ((hcond1_1 t).mpr h1)]; try rfl, after1_4]
      rw [outsAt1_C V c t h0 h1]
      unfold out1_C_4 souts1_C; (try dsimp only)
      rw [PhiS1_castSucc V c t, PhiS1_pos V c _ _ hz]
      iintro ⟨⟨⟨HS0, HS1, HS2⟩, Hr, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          unfold owns; iexists _; isplitr
          swap; · iexact HS2
          ipureintro; exact View.read_writes_of_cover _ _ _ _ _ (scoverC_2 c _ _ _ _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold souts1_B; (try dsimp only)
      rw [PhiS1_castSucc V c t, PhiS1_pos V c _ _ hz]
      iintro ⟨⟨⟨HS0, HS1, HS2⟩, Hr, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0 HS1 HS2]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over, the scratch contents forgotten. -/
theorem hout1 (c : Dev nD) : (dat1 V c).Φ (Fin.last cfg1.N) ⊢ Pipeline.ΦA spec1 c := by
  have ht : (Fin.last cfg1.N).val ≠ 0 := by rw [Fin.val_last]; have : cfg1.N = 96 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_join (F := F) c)
  unfold Scr1
  iintro ⟨⟨HS0, HS1, HS2⟩, Hr, Hg⟩
  isplitl [HS0 HS1 HS2]
  · isplitl [HS0]; · iexists _; iexact HS0
    isplitl [HS1]; · iexists _; iexact HS1
    iexists _; iexact HS2
  isplitl [Hr]; · iexact Hr
  iexact Hg

end Cert.KernelIdeal.Hand

end
-- ==== Proof.KI_Run.lean ====
/-
  The whole program as a run: host operations, the first linear launch, host operations, the attention launch, host
  operations, the last linear launch. Between two items every unscoped buffer holds named contents: the launch memory,
  then the host operations applied one after another, with each launch's output array replaced by what that launch's
  write-backs leave (`o0`, `o1`, `o2`). Each launch enters from the contents before it and leaves at the contents
  after it; the several-launch theorem then gives: every weakly fair execution terminates without a fault, the result
  buffer ends at `o2` and every argument array ends as launched.
-/
import proofs.«423628_j37984690766439_2_alg».proof.Proof.KI_Lin0
import proofs.«423628_j37984690766439_2_alg».proof.Proof.KI_Lin2
import proofs.«423628_j37984690766439_2_alg».proof.Proof.KI_AttnDat
import proofs.«423628_j37984690766439_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launches leave, and the contents between the items -/

/-- A valuation read at the TensorCore's references (what a launch's proof data take). -/
abbrev rd (W : Dev nD → Valuation τ sig (Elt F)) : (c : Dev nD) → (b : Ref sig .tc) → Buf (Elt F) ((c : Thread nD τ).loc b) := fun c b => W c b

/-- What the first linear launch leaves in its output array. -/
def o0 (c : Dev nD) : Buf (Elt F) ((c : Thread nD τ).loc main_v4) := (dat0 (rd (V1 m)) c).arrAt 3 cfg0.N
/-- The launches' outputs known so far: the first. -/
def outsA : Outs (F := F) := fun _ r c => if h : r = main_v4 then h ▸ o0 m c else m ((c : Thread nD τ).loc r)
/-- What the attention launch leaves in its output array. -/
def o1 (c : Dev nD) : Buf (Elt F) ((c : Thread nD τ).loc main_v34) := (dat1 (rd (V7 m (outsA m))) c).arrAt 4 cfg1.N
/-- The first two. -/
def outsB : Outs (F := F) := fun _ r c => if h : r = main_v4 then h ▸ o0 m c else if h' : r = main_v34 then h' ▸ o1 m c else m ((c : Thread nD τ).loc r)
/-- What the last linear launch leaves in its output array: the program's result. -/
def o2 (c : Dev nD) : Buf (Elt F) ((c : Thread nD τ).loc main_v38) := (dat2 (rd (V9 m (outsB m))) c).arrAt 3 cfg2.N
/-- All three. -/
def outs : Outs (F := F) := fun _ r c => if h : r = main_v4 then h ▸ o0 m c else if h' : r = main_v34 then h' ▸ o1 m c
  else if h'' : r = main_v38 then h'' ▸ o2 m c else m ((c : Thread nD τ).loc r)

theorem outsA_v4 (J : ℕ) (c : Dev nD) : outsA m J main_v4 c = o0 m c := by unfold outsA; rw [dif_pos rfl]
theorem outsB_v4 (J : ℕ) (c : Dev nD) : outsB m J main_v4 c = o0 m c := by unfold outsB; rw [dif_pos rfl]
theorem outsB_v34 (J : ℕ) (c : Dev nD) : outsB m J main_v34 c = o1 m c := by
  unfold outsB; rw [dif_neg (by decide), dif_pos rfl]
theorem outs_v4 (J : ℕ) (c : Dev nD) : outs m J main_v4 c = o0 m c := by unfold outs; rw [dif_pos rfl]
theorem outs_v34 (J : ℕ) (c : Dev nD) : outs m J main_v34 c = o1 m c := by
  unfold outs; rw [dif_neg (by decide), dif_pos rfl]
theorem outs_v38 (J : ℕ) (c : Dev nD) : outs m J main_v38 c = o2 m c := by
  unfold outs; rw [dif_neg (by decide), dif_neg (by decide), dif_pos rfl]

/-- The contents up to the attention launch depend on the output family only through the first launch's output. -/
theorem V7_congr (o o' : Outs (F := F)) (c : Dev nD) (h : o 2 main_v4 c = o' 2 main_v4 c) : V7 m o c = V7 m o' c := by
  show StableHlo.after hostOps1_4 (StableHlo.after hostOps1_3 (StableHlo.after hostOps1_2 (StableHlo.after hostOps1_1 (StableHlo.after hostOps1
    (Function.update (V1 m c) main_v4 (o 2 main_v4 c)))))) = _
  rw [h]
/-- And up to the last launch through the first two. -/
theorem V9_congr (o o' : Outs (F := F)) (c : Dev nD) (h : o 2 main_v4 c = o' 2 main_v4 c) (h' : o 8 main_v34 c = o' 8 main_v34 c) : V9 m o c = V9 m o' c := by
  show StableHlo.after hostOps2 (Function.update (V7 m o c) main_v34 (o 8 main_v34 c)) = _
  rw [V7_congr m o o' c h, h']
theorem V7_outs (c : Dev nD) : V7 m (outs m) c = V7 m (outsA m) c := V7_congr m _ _ c ((outs_v4 m 2 c).trans (outsA_v4 m 2 c).symm)
theorem V9_outs (c : Dev nD) : V9 m (outs m) c = V9 m (outsB m) c :=
  V9_congr m _ _ c ((outs_v4 m 2 c).trans (outsB_v4 m 2 c).symm) ((outs_v34 m 8 c).trans (outsB_v34 m 8 c).symm)

/-! ## The proof data family and what rides beside the buffers -/

/-- Every launch's proof data, each at the contents its launch is entered from. -/
def pdats : (p : Fin 3) → (c : Dev nD) → Dat τ (Elt F) Unit ℕ (UR sig nD τ) ℕ (cfgs p) c
  | ⟨0, _⟩ => fun c => dat0 (rd (V1 m)) c
  | ⟨1, _⟩ => fun c => dat1 (rd (V7 m (outsA m))) c
  | ⟨2, _⟩ => fun c => dat2 (rd (V9 m (outsB m))) c
abbrev 𝒱₀ : Variants := Variants.none
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R (F := F) c

/-! ## The launches' arrays at entry and at exit -/

theorem hA0 (c : Dev nD) (w : Fin cfg0.W) : (pdats m 0 c).A w = V1 m c (Pipeline.arrRef spec0 w) := rfl
theorem hA1 (c : Dev nD) (w : Fin cfg1.W) : (pdats m 1 c).A w = V7 m (outs m) c (Pipeline.arrRef spec1 w) := by
  rw [V7_outs]; rfl
theorem hA2 (c : Dev nD) (w : Fin cfg2.W) : (pdats m 2 c).A w = V9 m (outs m) c (Pipeline.arrRef spec2 w) := by
  rw [V9_outs]; rfl

/-- After the first launch each of its arrays holds what the pipeline leaves: an input as entered, the output `o0`. -/
theorem hF0 (c : Dev nD) (w : Fin cfg0.W) : (pdats m 0 c).arrAt w cfg0.N = V2 m (outs m) c (Pipeline.arrRef spec0 w) := by
  match w with
  | ⟨0, _⟩ => exact ((pdats m 0 c).arrAt_in 0 rfl _).trans ((hA0 m c 0).trans (V2_of m (outs m) c _ (by decide)).symm)
  | ⟨1, _⟩ => exact ((pdats m 0 c).arrAt_in 1 rfl _).trans ((hA0 m c 1).trans (V2_of m (outs m) c _ (by decide)).symm)
  | ⟨2, _⟩ => exact ((pdats m 0 c).arrAt_in 2 rfl _).trans ((hA0 m c 2).trans (V2_of m (outs m) c _ (by decide)).symm)
  | ⟨3, _⟩ => exact ((outs_v4 m 2 c).symm.trans (by simp only [V2, Function.update_self]))
theorem hrest0 (c : Dev nD) : ∀ b, b ∉ Finset.univ.image (Pipeline.arrRef spec0) → V2 m (outs m) c b = V1 m c b :=
  fun b hb => V2_of m (outs m) c b (by
    intro hmem; rw [List.mem_singleton] at hmem; subst hmem
    exact hb (Finset.mem_image.mpr ⟨3, Finset.mem_univ _, rfl⟩))
theorem hF1 (c : Dev nD) (w : Fin cfg1.W) : (pdats m 1 c).arrAt w cfg1.N = V8 m (outs m) c (Pipeline.arrRef spec1 w) := by
  match w with
  | ⟨0, _⟩ => exact ((pdats m 1 c).arrAt_in 0 rfl _).trans ((hA1 m c 0).trans (V8_of m (outs m) c _ (by decide)).symm)
  | ⟨1, _⟩ => exact ((pdats m 1 c).arrAt_in 1 rfl _).trans ((hA1 m c 1).trans (V8_of m (outs m) c _ (by decide)).symm)
  | ⟨2, _⟩ => exact ((pdats m 1 c).arrAt_in 2 rfl _).trans ((hA1 m c 2).trans (V8_of m (outs m) c _ (by decide)).symm)
  | ⟨3, _⟩ => exact ((pdats m 1 c).arrAt_in 3 rfl _).trans ((hA1 m c 3).trans (V8_of m (outs m) c _ (by decide)).symm)
  | ⟨4, _⟩ => exact ((outs_v34 m 8 c).symm.trans (by simp only [V8, Function.update_self]))
theorem hrest1 (c : Dev nD) : ∀ b, b ∉ Finset.univ.image (Pipeline.arrRef spec1) → V8 m (outs m) c b = V7 m (outs m) c b :=
  fun b hb => V8_of m (outs m) c b (by
    intro hmem; rw [List.mem_singleton] at hmem; subst hmem
    exact hb (Finset.mem_image.mpr ⟨4, Finset.mem_univ _, rfl⟩))
theorem hF2 (c : Dev nD) (w : Fin cfg2.W) : (pdats m 2 c).arrAt w cfg2.N = V10 m (outs m) c (Pipeline.arrRef spec2 w) := by
  match w with
  | ⟨0, _⟩ => exact ((pdats m 2 c).arrAt_in 0 rfl _).trans ((hA2 m c 0).trans (V10_of m (outs m) c _ (by decide)).symm)
  | ⟨1, _⟩ => exact ((pdats m 2 c).arrAt_in 1 rfl _).trans ((hA2 m c 1).trans (V10_of m (outs m) c _ (by decide)).symm)
  | ⟨2, _⟩ => exact ((pdats m 2 c).arrAt_in 2 rfl _).trans ((hA2 m c 2).trans (V10_of m (outs m) c _ (by decide)).symm)
  | ⟨3, _⟩ => exact ((outs_v38 m 10 c).symm.trans (by simp only [V10, Function.update_self]))
theorem hrest2 (c : Dev nD) : ∀ b, b ∉ Finset.univ.image (Pipeline.arrRef spec2) → V10 m (outs m) c b = V9 m (outs m) c b :=
  fun b hb => V10_of m (outs m) c b (by
    intro hmem; rw [List.mem_singleton] at hmem; subst hmem
    exact hb (Finset.mem_image.mpr ⟨3, Finset.mem_univ _, rfl⟩))

/-! ## The launches as segments -/

set_option backward.isDefEq.respectTransparency.types false in
/-- Launch 0 as a segment of the program: entered with every unscoped buffer at the contents before it, left with them at
    the contents after it; its arrays are split out of the unscoped buffers on entry and put back on exit; the generator
    register goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V1 m)) c).loose
  hwaits := Pipeline.hwaits_of_owed_zero _ _ _ _ L lv 0 fun _ _ => rfl
  pre c := iprop(StableHlo.held (c : Thread nD τ) (Pipeline.ucRefs τ sig) (V1 m c) ∗ R (F := F) c)
  post c := iprop(StableHlo.held (c : Thread nD τ) (Pipeline.ucRefs τ sig) (V2 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the program: entered with every unscoped buffer at the contents before it, left with them at
    the contents after it; its arrays are split out of the unscoped buffers on entry and put back on exit; the generator
    register goes into the launch's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V7 m (outsA m))) c).loose
  hwaits := Pipeline.hwaits_of_owed_zero _ _ _ _ L lv 1 fun _ _ => rfl
  pre c := iprop(StableHlo.held (c : Thread nD τ) (Pipeline.ucRefs τ sig) (V7 m (outs m) c) ∗ R (F := F) c)
  post c := iprop(StableHlo.held (c : Thread nD τ) (Pipeline.ucRefs τ sig) (V8 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (rd (V7 m (outsA m))) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment of the program: entered with every unscoped buffer at the contents before it, left with them at
    the contents after it; its arrays are split out of the unscoped buffers on entry and put back on exit; the generator
    register goes into the launch's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V9 m (outsB m))) c).loose
  hwaits := Pipeline.hwaits_of_owed_zero _ _ _ _ L lv 2 fun _ _ => rfl
  pre c := iprop(StableHlo.held (c : Thread nD τ) (Pipeline.ucRefs τ sig) (V9 m (outs m) c) ∗ R (F := F) c)
  post c := iprop(StableHlo.held (c : Thread nD τ) (Pipeline.ucRefs τ sig) (V10 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec2 c (fun b => V9 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V9 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V9 m (outs m) c b) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What rides beside the buffers ends with the core owing nothing. -/
theorem hR_owes (c : Dev nD) : R (F := F) c ⊢ (iprop(∃ W, owes (c : Thread nD τ) (0 : CellTallies nD τ sig Unit) W) : sProp 𝕄) := by
  iintro ⟨-, HO⟩
  iexact HO

/-! ## The run -/

set_option backward.isDefEq.respectTransparency.types false in
/-- At the compiled mesh, from any memory with zero counters: every weakly fair execution of the program terminates without a
    fault; the result buffer ends at `o2` and every argument array ends as launched. -/
theorem run_all : θ_run defs (onTc (τ := τ) (main (F := F))) ⟨m, fun _ => 0, ρ⟩ (fun r => ∀ c : Dev nD,
      r.2.mem ((c.tc : Thread nD τ).loc main_v38) = o2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m) (reg2 m))
    (fun c Q => by
      rewrite [main_chain c, Seg.run_eq_chain,
        show (segs m (outs m) 𝒱₀ L lv (E (F := F)) () (pdats m) (reg0 m) (reg1 m) (reg2 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl (hR_owes (F := F) c)⟩)
    (hinit := ?_) (QY := fun c s => s.mem ((c.tc : Thread nD τ).loc main_v38) = o2 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: on every core the unscoped buffers are held at the launch contents, the generator register and the core's dues beside them
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨(h (Proc.devRef .tc main_v38) (Finset.mem_filter.mpr ⟨StableHlo.devRef_mem_tcRefs main_v38, by decide⟩)).trans
          ((show V10 m (outs m) c main_v38 = outs m 10 main_v38 c from by simp only [V10, Function.update_self]).trans (outs_v38 m 10 c)),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c),
        (h (Proc.devRef .tc main_arg4) (Finset.mem_filter.mpr ⟨StableHlo.devRef_mem_tcRefs main_arg4, by decide⟩)).trans (V10_main_arg4 m (outs m) c),
        (h (Proc.devRef .tc main_arg5) (Finset.mem_filter.mpr ⟨StableHlo.devRef_mem_tcRefs main_arg5, by decide⟩)).trans (V10_main_arg5 m (outs m) c),
        (h (Proc.devRef .tc main_arg6) (Finset.mem_filter.mpr ⟨StableHlo.devRef_mem_tcRefs main_arg6, by decide⟩)).trans (V10_main_arg6 m (outs m) c),
        (h (Proc.devRef .tc main_arg7) (Finset.mem_filter.mpr ⟨StableHlo.devRef_mem_tcRefs main_arg7, by decide⟩)).trans (V10_main_arg7 m (outs m) c),
        (h (Proc.devRef .tc main_arg8) (Finset.mem_filter.mpr ⟨StableHlo.devRef_mem_tcRefs main_arg8, by decide⟩)).trans (V10_main_arg8 m (outs m) c),
        (h (Proc.devRef .tc main_arg9) (Finset.mem_filter.mpr ⟨StableHlo.devRef_mem_tcRefs main_arg9, by decide⟩)).trans (V10_main_arg9 m (outs m) c)⟩
    · iexact HSI

/-- The frame claim's post: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_all m ρ)

end Cert.KernelIdeal.Hand

end
-- ==== Proof.Spec.lean ====
/-
  The mathematics both programs compute, as plain functions of the argument arrays read by coordinates.
  A token row is a point of `Fin 2304`, a model feature of `Fin 1024`, a head of `Fin 16`, a head feature of `Fin 64`.
  * `lin x w b` is the affine map  x·wᵀ + b  (row i, column j: the sum over k of x i k · w j k, plus b j).
  * The packed projection has 3072 columns: part p (query, key, value), head h, head feature d sit at column
    p·1024 + h·64 + d (`col`); the merged attention output has head h, feature d at column h·64 + d.
  * The relative-position table: a two-layer perceptron `mlp` on each of the 9025 coordinate rows, one output per head;
    the additive bias of head h at (query i, key j) is 16·σ of that, read at the row the index array names for the
    pair (i, j) — a negative index counting from the table's end, and the row clamped into the table (`rowOf`).
  * `scores` are the scaled dot products plus that bias; `softmaxRow` the row softmax in its shifted form
    (every exponent taken relative to the row maximum); `attn` the softmax-weighted sum of the value rows; `result` the output projection.
  * `osRun` is the running form of the same softmax-weighted sum over the keys taken tile by tile: a running maximum,
    a running denominator and a running numerator, each rescaled when the maximum moves.
-/
import Idealize.ShloMosaic.PureOps.Ideal
import Mathlib.Data.EReal.Operations
import Mathlib.Data.Finset.Fold
import Mathlib.Algebra.BigOperators.Group.Finset.Basic

noncomputable section

namespace Cert.Spec

open Idealize.ShloMosaic
open scoped BigOperators

/-- The affine map x·wᵀ + b, entry (i, j). -/
def lin {M N K : ℕ} (x : Fin M → Fin K → EReal) (w : Fin N → Fin K → EReal) (b : Fin N → EReal)
    (i : Fin M) (j : Fin N) : EReal :=
  (∑ k : Fin K, x i k * w j k) + b j

/-- Column of the packed projection holding part `p` (0 query, 1 key, 2 value), head `h`, head feature `d`. -/
def col (p : Fin 3) (h : Fin 16) (d : Fin 64) : Fin 3072 :=
  ⟨p.val * 1024 + h.val * 64 + d.val, by have := p.isLt; have := h.isLt; have := d.isLt; omega⟩

/-- Column of the merged attention output holding head `h`, head feature `d`. -/
def colA (h : Fin 16) (d : Fin 64) : Fin 1024 :=
  ⟨h.val * 64 + d.val, by have := h.isLt; have := d.isLt; omega⟩

/-- The head of a merged column. -/
def headOf (c : Fin 1024) : Fin 16 := ⟨c.val / 64, by have := c.isLt; omega⟩
/-- The head feature of a merged column. -/
def featOf (c : Fin 1024) : Fin 64 := ⟨c.val % 64, Nat.mod_lt _ (by decide)⟩

/-- The position of the pair (query i, key j) in the flat index array. -/
def pairPos (i j : Fin 2304) : Fin 5308416 :=
  ⟨i.val * 2304 + j.val, by have := i.isLt; have := j.isLt; omega⟩

/-- An index word with a negative value counted from the end of the 9025-row table. -/
def wrapIdx (w : BitVec 32) : BitVec 32 :=
  Scalar.select (IntOp.cmpi .slt w 0#32) (IntOp.addi w 9025#32) w

/-- The table row an index word names: wrapped, read signed, clamped into the table. -/
def rowOf (w : BitVec 32) : Fin 9025 :=
  ⟨min (wrapIdx w).toInt.toNat 9024, by omega⟩

/-- The wrapped index lies inside the table (what the added precondition says of every entry of the index array). -/
def InTable (w : BitVec 32) : Prop :=
  IntOp.cmpi .sge (wrapIdx w) 0#32 = 1#1 ∧ IntOp.cmpi .sle (wrapIdx w) 9024#32 = 1#1

/-- The position-bias perceptron: row r of the coordinate table through a 512-wide hidden layer with a rectifier, output h. -/
def mlp (tab : Fin 9025 → Fin 2 → EReal) (w1 : Fin 512 → Fin 2 → EReal) (b1 : Fin 512 → EReal)
    (w2 : Fin 16 → Fin 512 → EReal) (r : Fin 9025) (h : Fin 16) : EReal :=
  ∑ c : Fin 512, max ((∑ a : Fin 2, tab r a * w1 c a) + b1 c) 0 * w2 h c

/-- Sixteen times the logistic function, in the form 16 · (1 / (1 + e^(−t))). -/
def sig16 (t : EReal) : EReal := 16 * Ideal.div 1 (1 + Ideal.exp (-t))

/-- The additive attention bias of head h at (query i, key j). -/
def biasOf (T : Fin 9025 → Fin 16 → EReal) (idx : Fin 5308416 → BitVec 32) (h : Fin 16) (i j : Fin 2304) : EReal :=
  sig16 (T (rowOf (idx (pairPos i j))) h)

/-- The attention logits of head h: query row i against key row j over the 64 head features, divided by 8 = √64, plus the bias. -/
def scores (qkv : Fin 2304 → Fin 3072 → EReal) (bias : Fin 16 → Fin 2304 → Fin 2304 → EReal)
    (h : Fin 16) (i j : Fin 2304) : EReal :=
  Ideal.div (∑ d : Fin 64, qkv i (col 0 h d) * qkv j (col 1 h d)) ((8 : ℝ) : EReal) + bias h i j

/-- The maximum of a row, folded from −∞. -/
def rowMax {n : ℕ} (s : Fin n → EReal) : EReal := (Finset.univ : Finset (Fin n)).fold max ⊥ s

/-- The row softmax in its shifted form: e^(s j − max) over the sum of those. -/
def softmaxRow {n : ℕ} (s : Fin n → EReal) (j : Fin n) : EReal :=
  Ideal.div (Ideal.exp (s j - rowMax s)) (∑ j' : Fin n, Ideal.exp (s j' - rowMax s))

/-- Attention of head h at query row i, head feature d: the softmax-weighted sum of the value rows. -/
def attn (qkv : Fin 2304 → Fin 3072 → EReal) (bias : Fin 16 → Fin 2304 → Fin 2304 → EReal)
    (h : Fin 16) (i : Fin 2304) (d : Fin 64) : EReal :=
  ∑ j : Fin 2304, softmaxRow (scores qkv bias h i) j * qkv j (col 2 h d)

/-- The heads merged back into model features. -/
def merged (qkv : Fin 2304 → Fin 3072 → EReal) (bias : Fin 16 → Fin 2304 → Fin 2304 → EReal)
    (i : Fin 2304) (c : Fin 1024) : EReal :=
  attn qkv bias (headOf c) i (featOf c)

/-- The whole layer: projection, attention with the position bias, output projection. -/
def result (x : Fin 2304 → Fin 1024 → EReal) (wqkv : Fin 3072 → Fin 1024 → EReal) (bqkv : Fin 3072 → EReal)
    (wproj : Fin 1024 → Fin 1024 → EReal) (bproj : Fin 1024 → EReal)
    (bias : Fin 16 → Fin 2304 → Fin 2304 → EReal) (i : Fin 2304) (j : Fin 1024) : EReal :=
  lin (merged (lin x wqkv bqkv) bias) wproj bproj i j

/-! ## The running form over tiles of keys -/

/-- Key `r` of tile `t` (six tiles of 384 keys). -/
def tileIdx (t : Fin 6) (r : Fin 384) : Fin 2304 :=
  ⟨t.val * 384 + r.val, by have := t.isLt; have := r.isLt; omega⟩

/-- One tile's update of (running maximum, running denominator, running numerator): the maximum takes in the tile's
    maximum; the old sums are rescaled by e^(old max − new max) and the tile's terms e^(s r − new max) added. -/
def osStep {n : ℕ} (s v : Fin n → EReal) (st : EReal × EReal × EReal) : EReal × EReal × EReal :=
  (max st.1 (rowMax s),
   Ideal.exp (st.1 - max st.1 (rowMax s)) * st.2.1 + ∑ r : Fin n, Ideal.exp (s r - max st.1 (rowMax s)),
   Ideal.exp (st.1 - max st.1 (rowMax s)) * st.2.2 + ∑ r : Fin n, Ideal.exp (s r - max st.1 (rowMax s)) * v r)

/-- The state after the first `t` tiles, from (−∞, 0, 0). -/
def osRun {T n : ℕ} (s v : Fin T → Fin n → EReal) : (t : ℕ) → t ≤ T → EReal × EReal × EReal
  | 0, _ => (⊥, 0, 0)
  | t + 1, h => osStep (s ⟨t, h⟩) (v ⟨t, h⟩) (osRun s v t (Nat.le_of_succ_le h))

end Cert.Spec

end
-- ==== Proof.KI_Lin0Value.lean ====
/-
  The value of the first linear launch of the kernel program at the extended reals: after the launch the output
  array holds, at row i and column j, the sum over k of x i k · w j k plus b j, where x, w and b are the launch's
  three input arrays as the launch finds them.
  The body's stored value at an index of the 256×1024 block is the contraction of the left block's row with the
  weight block's row (the weight block enters transposed) plus the bias block's one row; the block of the output at
  grid point (column tile, row tile) sits at rows 256·(row tile) and columns 1024·(column tile), and the three input
  blocks sit at the matching rows of x, rows of w and columns of b; the 27 output blocks tile the array.
-/
import proofs.«423628_j37984690766439_2_alg».proof.Proof.KI_Lin0
import proofs.«423628_j37984690766439_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! ## The body's value at an index -/

/-- The contraction's left index keeps the output's row. -/
theorem lhs_mm0_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The contraction's left index runs over the columns. -/
theorem lhs_mm0_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The contraction's right index runs over the rows. -/
theorem rhs_mm0_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The contraction's right index keeps the output's column. -/
theorem rhs_mm0_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a 256×1024 block with a 1024×1024 block into the zero accumulator, entry (p, q): the sum over k of
    the left block at (p, k) times the right block at (k, q). -/
theorem mm0_apply (l : FVec Ideal S256x1024 .bf16) (r : FVec Ideal S1024x1024 .bf16) (p : Fin 256) (q : Fin 1024) :
    matmul (F := Ideal) dot_S256x1024_S1024x1024_S256x1024_1_0_0_1_n_n none l r (constant S256x1024 .f32 0x00000000#32) (ix2 p q)
      = ∑ k : Fin 1024, l (ix2 p k) * r (ix2 k q) := by
  unfold matmul
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_mm0_0 _ _
    | ⟨1, _⟩ => exact (lhs_mm0_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_mm0_0 _ _).trans hk
    | ⟨1, _⟩ => exact rhs_mm0_1 _ _)
  rw [el, er]

/-- The body's stored value at (p, q): the left block's row p against the weight block's row q, plus the bias row at q.
    (The weight block enters the product transposed; the change of format at the end is the identity on the extended reals.) -/
theorem pay0_apply (x0 : Vec Ideal S256x1024 .bf16) (x1 : Vec Ideal S1024x1024 .bf16) (x2 : Vec Ideal S1x1024 .f32)
    (p : Fin 256) (q : Fin 1024) :
    k0_pay1 (F := Ideal) x0 x1 x2 (ix2 p q) = (∑ k : Fin 1024, x0 (ix2 p k) * x1 (ix2 q k)) + x2 (ix2 (0 : Fin 1) q) := by
  unfold k0_pay1
  simp only [shapeCast_self]
  rw [truncf_apply, addf_apply, broadcastTo_1b_ab_apply, mm0_apply]
  refine congrArg (· + x2 (ix2 (0 : Fin 1) q)) (Finset.sum_congr rfl fun k _ => ?_)
  exact congrArg (x0 (ix2 p k) * ·) (transpose_ix2_apply x1 transposes_S1024x1024_p1_0_S1024x1024 k q)

/-- The same at any index of the block, by its coordinates. -/
theorem pay0_at (x0 : Vec Ideal S256x1024 .bf16) (x1 : Vec Ideal S1024x1024 .bf16) (x2 : Vec Ideal S1x1024 .f32)
    (j : S256x1024.Idx) :
    k0_pay1 (F := Ideal) x0 x1 x2 j = (∑ k : Fin 1024, x0 (ix2 (j 0) k) * x1 (ix2 (j 1) k)) + x2 (ix2 (0 : Fin 1) (j 1)) := by
  obtain ⟨p, q, rfl⟩ : ∃ (p : Fin 256) (q : Fin 1024), j = ix2 p q := ⟨j 0, j 1, eq_ix2 j⟩
  exact pay0_apply x0 x1 x2 p q

/-! ## From the blocks to the array -/

theorem hz0 : (![0, 0] : Fin 2 → Nat) = fun _ => 0 := funext fun a => by fin_cases a <;> rfl

/-- The affine map of three whole arrays, as one array read by index. -/
def linArr0 (X : S2304x1024.Idx → EReal) (W : S3072x1024.Idx → EReal) (B : S1x3072.Idx → EReal) : S2304x3072.Idx → EReal :=
  fun i => Cert.Spec.lin (fun a b => X (ix2 a b)) (fun a b => W (ix2 a b)) (fun a => B (ix2 (0 : Fin 1) a)) (i 0) (i 1)

/-- The block indices over the grid: the left operand's block follows the output's row tile, the weight's and the
    bias row's follow the output's column tile, every other block index is 0; there are 9 row tiles and 3 column tiles. -/
theorem idx_facts0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 8 ∧ win0_3.index t (1 : Fin 2) ≤ 2 :=
  (by decide +kernel : ∀ t : Fin grid0.N, _)

/-- Every (row tile, column tile) is some grid point's output block. -/
theorem idx_onto0 : ∀ (q0 : Fin 9) (q1 : Fin 3), ∃ t : Fin cfg0.N, win0_3.index t = ![q0.val, q1.val] :=
  (by decide +kernel : ∀ (q0 : Fin 9) (q1 : Fin 3), ∃ t : Fin grid0.N, win0_3.index t = ![q0.val, q1.val])

variable (V : (c : Dev nD) → (b : Ref sig .tc) → Buf (Elt Ideal) ((c : Thread nD τ).loc b))

/-- What grid point `t` writes back is its block of the affine map of the three arrays. -/
theorem flushed0_eq (c : Dev nD) (t : Fin cfg0.N) :
    (dat0 (F := Ideal) V c).flushed 3 t
      = ((cfg0.win 3).blk t).view.read (Elt Ideal) (linArr0 (V c main_v2) (V c main_v0) (V c main_v3)) := by
  show (cfg0.win 3).cut (grid0.coords t) ((dat0 (F := Ideal) V c).after 3 t) = _
  rw [after0_3]
  unfold out0_3
  rw [View.canon_unit_zero hz0]
  simp only [View.ld_unit_zero (S := S256x1024) hz0, View.ld_unit_zero (S := S1024x1024) hz0, View.ld_unit_zero (S := S1x1024) hz0]
  funext j
  show k0_pay1 (F := Ideal) (iblk0 V c 0 t) (iblk0 V c 1 t) (iblk0 V c 2 t) (win0_3.xinj (grid0.coords t) j)
      = linArr0 (V c main_v2) (V c main_v0) (V c main_v3) (((cfg0.win 3).blk t).view.emb j)
  rw [pay0_at]
  unfold linArr0 Cert.Spec.lin
  obtain ⟨e0, e1, e2, e3, e4, e5, e6, e7⟩ := idx_facts0 t
  have hx : ∀ k : Fin 1024, iblk0 V c 0 t (ix2 (win0_3.xinj (grid0.coords t) j 0) k)
      = (V c main_v2 : S2304x1024.Idx → EReal) (ix2 ((((cfg0.win 3).blk t).view.emb j) 0) k) := fun k => by
    show (V c main_v2 : S2304x1024.Idx → EReal) (((cfg0.win 0).blk t).view.emb (ix2 (win0_3.xinj (grid0.coords t) j 0) k)) = _
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 1024 + 1 * k.val = k.val; omega
  have hw : ∀ k : Fin 1024, iblk0 V c 1 t (ix2 (win0_3.xinj (grid0.coords t) j 1) k)
      = (V c main_v0 : S3072x1024.Idx → EReal) (ix2 ((((cfg0.win 3).blk t).view.emb j) 1) k) := fun k => by
    show (V c main_v0 : S3072x1024.Idx → EReal) (((cfg0.win 1).blk t).view.emb (ix2 (win0_3.xinj (grid0.coords t) j 1) k)) = _
    refine congrArg _ (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 1024 + 1 * k.val = k.val; omega
  have hb : iblk0 V c 2 t (ix2 (0 : Fin 1) (win0_3.xinj (grid0.coords t) j 1))
      = (V c main_v3 : S1x3072.Idx → EReal) (ix2 (0 : Fin 1) ((((cfg0.win 3).blk t).view.emb j) 1)) := by
    show (V c main_v3 : S1x3072.Idx → EReal) (((cfg0.win 2).blk t).view.emb (ix2 (0 : Fin 1) (win0_3.xinj (grid0.coords t) j 1))) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega
  exact congrArg₂ (· + ·) (Finset.sum_congr rfl fun k _ => by rw [hx k, hw k]) hb

/-- An index of the output array is in grid point `t`'s block iff each coordinate is in the block's range on its axis. -/
theorem mem_blk0 (t : Fin cfg0.N) (i : S2304x3072.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v4).slice (win0_3.rect t)).set ↔ _
  rw [View.set_slice_whole, Rect.mem_set_unit]
  exact Iff.rfl

/-- The output blocks tile the array: row r, column s is in the block of row tile r / 256 and column tile s / 1024. -/
theorem cover0 (i : S2304x3072.Idx) :
    ∃ t : Fin cfg0.N, (cfg0.win 3).flush t = true ∧ i ∈ ((cfg0.win 3).blk t).view.set := by
  have hi0 : (i 0).val < 2304 := (i 0).isLt
  have hi1 : (i 1).val < 3072 := (i 1).isLt
  obtain ⟨t, ht⟩ := idx_onto0 ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The output array after the launch is the affine map of the three input arrays. -/
theorem lin0_array (c : Dev nD) :
    (dat0 (F := Ideal) V c).arrAt 3 cfg0.N = linArr0 (V c main_v2) (V c main_v0) (V c main_v3) :=
  (dat0 (F := Ideal) V c).arrAt_eq_of_cover 3 _ (fun t _ => flushed0_eq V c t) cover0

/-- Entry (i, j) of the output array after the launch: the sum over k of x i k · w j k, plus b j. -/
theorem lin0_value (c : Dev nD) (i : Fin 2304) (j : Fin 3072) :
    ((dat0 (F := Ideal) V c).arrAt 3 cfg0.N : S2304x3072.Idx → EReal) (ix2 i j)
      = Cert.Spec.lin (fun a b => (V c main_v2 : S2304x1024.Idx → EReal) (ix2 a b))
          (fun a b => (V c main_v0 : S3072x1024.Idx → EReal) (ix2 a b))
          (fun a => (V c main_v3 : S1x3072.Idx → EReal) (ix2 (0 : Fin 1) a)) i j := by
  rw [lin0_array]; rfl

end Cert.KernelIdeal.LinValue

end
-- ==== Proof.KI_Lin2Value.lean ====
/-
  The value of the last linear launch of the kernel program at the extended reals: after the launch the output
  array holds, at row i and column j, the sum over k of x i k · w j k plus b j, where x, w and b are the launch's
  three input arrays as the launch finds them.
  The body's stored value at an index of the 256×1024 block is the contraction of the left block's row with the
  weight block's row (the weight block enters transposed) plus the bias block's one row; the block of the output at
  grid point (column tile, row tile) sits at rows 256·(row tile) and columns 1024·(column tile), and the three input
  blocks sit at the matching rows of x, rows of w and columns of b; the 9 output blocks tile the array.
-/
import proofs.«423628_j37984690766439_2_alg».proof.Proof.KI_Lin2
import proofs.«423628_j37984690766439_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! ## The body's value at an index -/

/-- The contraction's left index keeps the output's row. -/
theorem lhs_mm2_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The contraction's left index runs over the columns. -/
theorem lhs_mm2_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The contraction's right index runs over the rows. -/
theorem rhs_mm2_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The contraction's right index keeps the output's column. -/
theorem rhs_mm2_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a 256×1024 block with a 1024×1024 block into the zero accumulator, entry (p, q): the sum over k of
    the left block at (p, k) times the right block at (k, q). -/
theorem mm2_apply (l : FVec Ideal S256x1024 .bf16) (r : FVec Ideal S1024x1024 .bf16) (p : Fin 256) (q : Fin 1024) :
    matmul (F := Ideal) dot_S256x1024_S1024x1024_S256x1024_1_0_0_1_n_n none l r (constant S256x1024 .f32 0x00000000#32) (ix2 p q)
      = ∑ k : Fin 1024, l (ix2 p k) * r (ix2 k q) := by
  unfold matmul
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_mm2_0 _ _
    | ⟨1, _⟩ => exact (lhs_mm2_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_mm2_0 _ _).trans hk
    | ⟨1, _⟩ => exact rhs_mm2_1 _ _)
  rw [el, er]

/-- The body's stored value at (p, q): the left block's row p against the weight block's row q, plus the bias row at q.
    (The weight block enters the product transposed.) -/
theorem pay2_apply (x0 : Vec Ideal S256x1024 .bf16) (x1 : Vec Ideal S1024x1024 .bf16) (x2 : Vec Ideal S1x1024 .f32)
    (p : Fin 256) (q : Fin 1024) :
    k2_pay1 (F := Ideal) x0 x1 x2 (ix2 p q) = (∑ k : Fin 1024, x0 (ix2 p k) * x1 (ix2 q k)) + x2 (ix2 (0 : Fin 1) q) := by
  unfold k2_pay1
  simp only [shapeCast_self]
  rw [addf_apply, broadcastTo_1b_ab_apply, mm2_apply]
  refine congrArg (· + x2 (ix2 (0 : Fin 1) q)) (Finset.sum_congr rfl fun k _ => ?_)
  exact congrArg (x0 (ix2 p k) * ·) (transpose_ix2_apply x1 transposes_S1024x1024_p1_0_S1024x1024 k q)

/-- The same at any index of the block, by its coordinates. -/
theorem pay2_at (x0 : Vec Ideal S256x1024 .bf16) (x1 : Vec Ideal S1024x1024 .bf16) (x2 : Vec Ideal S1x1024 .f32)
    (j : S256x1024.Idx) :
    k2_pay1 (F := Ideal) x0 x1 x2 j = (∑ k : Fin 1024, x0 (ix2 (j 0) k) * x1 (ix2 (j 1) k)) + x2 (ix2 (0 : Fin 1) (j 1)) := by
  obtain ⟨p, q, rfl⟩ : ∃ (p : Fin 256) (q : Fin 1024), j = ix2 p q := ⟨j 0, j 1, eq_ix2 j⟩
  exact pay2_apply x0 x1 x2 p q

/-! ## From the blocks to the array -/

theorem hz2 : (![0, 0] : Fin 2 → Nat) = fun _ => 0 := funext fun a => by fin_cases a <;> rfl

/-- The affine map of three whole arrays, as one array read by index. -/
def linArr2 (X : S2304x1024.Idx → EReal) (W : S1024x1024.Idx → EReal) (B : S1x1024.Idx → EReal) : S2304x1024.Idx → EReal :=
  fun i => Cert.Spec.lin (fun a b => X (ix2 a b)) (fun a b => W (ix2 a b)) (fun a => B (ix2 (0 : Fin 1) a)) (i 0) (i 1)

/-- The block indices over the grid: the left operand's block follows the output's row tile, the weight's and the
    bias row's follow the output's column tile, every other block index is 0; there are 9 row tiles and 1 column tile. -/
theorem idx_facts2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 8 ∧ win2_3.index t (1 : Fin 2) ≤ 0 :=
  (by decide +kernel : ∀ t : Fin grid2.N, _)

/-- Every (row tile, column tile) is some grid point's output block. -/
theorem idx_onto2 : ∀ (q0 : Fin 9) (q1 : Fin 1), ∃ t : Fin cfg2.N, win2_3.index t = ![q0.val, q1.val] :=
  (by decide +kernel : ∀ (q0 : Fin 9) (q1 : Fin 1), ∃ t : Fin grid2.N, win2_3.index t = ![q0.val, q1.val])

variable (V : (c : Dev nD) → (b : Ref sig .tc) → Buf (Elt Ideal) ((c : Thread nD τ).loc b))

/-- What grid point `t` writes back is its block of the affine map of the three arrays. -/
theorem flushed2_eq (c : Dev nD) (t : Fin cfg2.N) :
    (dat2 (F := Ideal) V c).flushed 3 t
      = ((cfg2.win 3).blk t).view.read (Elt Ideal) (linArr2 (V c main_v36) (V c main_v1) (V c main_v37)) := by
  show (cfg2.win 3).cut (grid2.coords t) ((dat2 (F := Ideal) V c).after 3 t) = _
  rw [after2_3]
  unfold out2_3
  rw [View.canon_unit_zero hz2]
  simp only [View.ld_unit_zero (S := S256x1024) hz2, View.ld_unit_zero (S := S1024x1024) hz2, View.ld_unit_zero (S := S1x1024) hz2]
  funext j
  show k2_pay1 (F := Ideal) (iblk2 V c 0 t) (iblk2 V c 1 t) (iblk2 V c 2 t) (win2_3.xinj (grid2.coords t) j)
      = linArr2 (V c main_v36) (V c main_v1) (V c main_v37) (((cfg2.win 3).blk t).view.emb j)
  rw [pay2_at]
  unfold linArr2 Cert.Spec.lin
  obtain ⟨e0, e1, e2, e3, e4, e5, e6, e7⟩ := idx_facts2 t
  have hx : ∀ k : Fin 1024, iblk2 V c 0 t (ix2 (win2_3.xinj (grid2.coords t) j 0) k)
      = (V c main_v36 : S2304x1024.Idx → EReal) (ix2 ((((cfg2.win 3).blk t).view.emb j) 0) k) := fun k => by
    show (V c main_v36 : S2304x1024.Idx → EReal) (((cfg2.win 0).blk t).view.emb (ix2 (win2_3.xinj (grid2.coords t) j 0) k)) = _
    refine congrArg _ (funext fun a => Fin.ext ?_)
    match a with
    | ⟨0, _⟩ => show win2_0.index t (0 : Fin 2) * 256 + 1 * (j 0).val = win2_3.index t (0 : Fin 2) * 256 + 1 * (j 0).val; omega
    | ⟨1, _⟩ => show win2_0.index t (1 : Fin 2) * 1024 + 1 * k.val = k.val; omega
  have hw : ∀ k : Fin 1024, iblk2 V c 1 t (ix2 (win2_3.xinj (grid2.coords t) j 1) k)
      = (V c main_v1 : S1024x1024.Idx → EReal) (ix2 ((((cfg2.win 3).blk t).view.emb j) 1) k) := fun k => by
    show (V c main_v1 : S1024x1024.Idx → EReal) (((cfg2.win 1).blk t).view.emb (ix2 (win2_3.xinj (grid2.coords t) j 1) k)) = _
    refine congrArg _ (funext fun a => Fin.ext ?_)
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 1024 + 1 * k.val = k.val; omega
  have hb : iblk2 V c 2 t (ix2 (0 : Fin 1) (win2_3.xinj (grid2.coords t) j 1))
      = (V c main_v37 : S1x1024.Idx → EReal) (ix2 (0 : Fin 1) ((((cfg2.win 3).blk t).view.emb j) 1)) := by
    show (V c main_v37 : S1x1024.Idx → EReal) (((cfg2.win 2).blk t).view.emb (ix2 (0 : Fin 1) (win2_3.xinj (grid2.coords t) j 1))) = _
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega
  exact congrArg₂ (· + ·) (Finset.sum_congr rfl fun k _ => by rw [hx k, hw k]) hb

/-- An index of the output array is in grid point `t`'s block iff each coordinate is in the block's range on its axis. -/
theorem mem_blk2 (t : Fin cfg2.N) (i : S2304x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v38).slice (win2_3.rect t)).set ↔ _
  rw [View.set_slice_whole, Rect.mem_set_unit]
  exact Iff.rfl

/-- The output blocks tile the array: row r, column s is in the block of row tile r / 256 and column tile s / 1024. -/
theorem cover2 (i : S2304x1024.Idx) :
    ∃ t : Fin cfg2.N, (cfg2.win 3).flush t = true ∧ i ∈ ((cfg2.win 3).blk t).view.set := by
  have hi0 : (i 0).val < 2304 := (i 0).isLt
  have hi1 : (i 1).val < 1024 := (i 1).isLt
  obtain ⟨t, ht⟩ := idx_onto2 ⟨(i 0).val / 256, by omega⟩ ⟨(i 1).val / 1024, by omega⟩
  have q0 : win2_3.index t (0 : Fin 2) = (i 0).val / 256 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- The output array after the launch is the affine map of the three input arrays. -/
theorem lin2_array (c : Dev nD) :
    (dat2 (F := Ideal) V c).arrAt 3 cfg2.N = linArr2 (V c main_v36) (V c main_v1) (V c main_v37) :=
  (dat2 (F := Ideal) V c).arrAt_eq_of_cover 3 _ (fun t _ => flushed2_eq V c t) cover2

/-- Entry (i, j) of the output array after the launch: the sum over k of x i k · w j k, plus b j. -/
theorem lin2_value (c : Dev nD) (i : Fin 2304) (j : Fin 1024) :
    ((dat2 (F := Ideal) V c).arrAt 3 cfg2.N : S2304x1024.Idx → EReal) (ix2 i j)
      = Cert.Spec.lin (fun a b => (V c main_v36 : S2304x1024.Idx → EReal) (ix2 a b))
          (fun a b => (V c main_v1 : S1024x1024.Idx → EReal) (ix2 a b))
          (fun a => (V c main_v37 : S1x1024.Idx → EReal) (ix2 (0 : Fin 1) a)) i j := by
  rw [lin2_array]; rfl

end Cert.KernelIdeal.LinValue

end
-- ==== Proof.HostLayout.lean ====
/-
  What the layout operations of the host leave in the buffers the three launches read, index by index.
  * The three matrix operands of the two linear layers are the argument arrays with their format changed, which at
    extended reals changes nothing; the two bias rows are the bias vectors laid out as one row.
  * The packed projection [2304, 3072] is viewed as [2304, 3, 16, 64], part p cut out, the unit axis dropped and the
    token and head axes exchanged: head h, token i, head feature d of part p is the packed entry at row i and
    column p·1024 + h·64 + d.
  * The attention output [16, 2304, 64] has the head and token axes exchanged and the last two axes merged:
    row i, column cc of the merged array is head cc / 64, token i, head feature cc % 64.
-/
import proofs.«423628_j37984690766439_2_alg».proof.Proof.Gen.KernelIdeal.Regions
import proofs.«423628_j37984690766439_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.HostLayout

open Cert.KernelIdeal Cert.KernelIdeal.Gen Idealize.ShloMosaic Idealize.ShloMosaic.TcCoe Idealize.ShloMosaic.ValueIdx

variable (m : (ℓ : Loc nD τ sig) → Buf (Elt Ideal) ℓ) (outs : Outs (F := Ideal)) (c : Dev nD)

/-! ## The operands of the first linear layer -/

/-- The left operand of the first layer is the input array. -/
theorem x_read (i : Fin 2304) (k : Fin 1024) :
    (V1 m c main_v2 : S2304x1024.Idx → EReal) (ix2 i k) = (m ((c : Thread nD τ).loc main_arg0) : S2304x1024.Idx → EReal) (ix2 i k) := by
  show StableHlo.after hostOps0 (V0 m c) (Proc.devRef .tc main_v2) (ix2 i k) = _
  after_results
  rfl

/-- The weight of the first layer is its argument array. -/
theorem wqkv_read (j : Fin 3072) (k : Fin 1024) :
    (V1 m c main_v0 : S3072x1024.Idx → EReal) (ix2 j k) = (m ((c : Thread nD τ).loc main_arg1) : S3072x1024.Idx → EReal) (ix2 j k) := by
  show StableHlo.after hostOps0 (V0 m c) (Proc.devRef .tc main_v0) (ix2 j k) = _
  after_results
  rfl

/-- The bias row of the first layer is the bias vector laid out as one row. -/
theorem bqkv_read (j : Fin 3072) :
    (V1 m c main_v3 : S1x3072.Idx → EReal) (ix2 (0 : Fin 1) j) = (m ((c : Thread nD τ).loc main_arg2) : S3072.Idx → EReal) (ix1 j) := by
  show StableHlo.after hostOps0 (V0 m c) (Proc.devRef .tc main_v3) (ix2 (0 : Fin 1) j) = _
  after_results
  exact shapeCast_a_1a_apply (V0 m c main_arg2 : S3072.Idx → EReal) shapeCasts_S3072_S1x3072 0 j

/-! ## The three parts of the packed projection -/

/-- The packed array viewed as [2304, 3, 16, 64], part p cut out, its unit axis dropped, token and head axes
    exchanged: at (h, i, d) it is the packed entry at row i, column p·1024 + h·64 + d. -/
theorem part_read {α : Type} (y : S2304x3072.Idx → α) (p : Fin 3)
    (hs : S2304x3x16x64.Slices ![0, p.val, 0, 0] S2304x1x16x64) (h : Fin 16) (i : Fin 2304) (d : Fin 64) :
    transpose S16x2304x64 [1, 0, 2]
      (shapeCast S2304x16x64
        (extractStridedSlice S2304x1x16x64 ![0, p.val, 0, 0] (shapeCast S2304x3x16x64 y shapeCasts_S2304x3072_S2304x3x16x64) hs)
        shapeCasts_S2304x1x16x64_S2304x16x64)
      transposes_S2304x16x64_S16x2304x64_1_0_2 (ix3 h i d) = y (ix2 i (Cert.Spec.col p h d)) := by
  have hp := p.isLt; have hh := h.isLt; have hi := i.isLt; have hd := d.isLt
  rw [transpose_apply [1, 0, 2] _ transposes_S2304x16x64_S16x2304x64_1_0_2 (ix3 h i d) (ix3 i h d) (fun b => match b with
    | ⟨0, _⟩ => rfl
    | ⟨1, _⟩ => rfl
    | ⟨2, _⟩ => rfl)]
  rw [shapeCast_apply _ shapeCasts_S2304x1x16x64_S2304x16x64 (ix3 i h d) (ix4 i (0 : Fin 1) h d)
    (by rewrite [Shape.rowMajor_val_four, Shape.rowMajor_val_three]
        show ((i.val * 1 + 0) * 16 + h.val) * 64 + d.val = (i.val * 16 + h.val) * 64 + d.val
        omega)]
  rw [extractStridedSlice_apply ![0, p.val, 0, 0] _ hs (ix4 i (0 : Fin 1) h d) (ix4 i p h d) (fun a => match a with
    | ⟨0, _⟩ => by show i.val = 0 + i.val; omega
    | ⟨1, _⟩ => by show p.val = p.val + 0; omega
    | ⟨2, _⟩ => by show h.val = 0 + h.val; omega
    | ⟨3, _⟩ => by show d.val = 0 + d.val; omega)]
  exact shapeCast_apply y shapeCasts_S2304x3072_S2304x3x16x64 (ix4 i p h d) (ix2 i (Cert.Spec.col p h d))
    (by rewrite [Shape.rowMajor_val_two, Shape.rowMajor_val_four]
        show i.val * 3072 + (p.val * 1024 + h.val * 64 + d.val) = ((i.val * 3 + p.val) * 16 + h.val) * 64 + d.val
        omega)

/-- The queries: head h, token i, head feature d is the packed entry at row i, column h·64 + d. -/
theorem q_read (h : Fin 16) (i : Fin 2304) (d : Fin 64) :
    (V7 m outs c main_v8 : S16x2304x64.Idx → EReal) (ix3 h i d) = (outs 2 main_v4 c : S2304x3072.Idx → EReal) (ix2 i (Cert.Spec.col 0 h d)) := by
  rw [V7_of m outs c main_v8 (by decide), V6_of m outs c main_v8 (by decide), V5_of m outs c main_v8 (by decide), V4_of m outs c main_v8 (by decide)]
  show StableHlo.after hostOps1 (V2 m outs c) (Proc.devRef .tc main_v8) (ix3 h i d) = _
  after_results
  simp only [V2, Function.update_self]
  exact part_read (outs 2 main_v4 c : S2304x3072.Idx → EReal) 0 slices_S2304x3x16x64_S2304x1x16x64_0_0_0_0 h i d

/-- The keys: head h, token i, head feature d is the packed entry at row i, column 1024 + h·64 + d. -/
theorem k_read (h : Fin 16) (i : Fin 2304) (d : Fin 64) :
    (V7 m outs c main_v11 : S16x2304x64.Idx → EReal) (ix3 h i d) = (outs 2 main_v4 c : S2304x3072.Idx → EReal) (ix2 i (Cert.Spec.col 1 h d)) := by
  rw [V7_of m outs c main_v11 (by decide), V6_of m outs c main_v11 (by decide), V5_of m outs c main_v11 (by decide), V4_of m outs c main_v11 (by decide)]
  show StableHlo.after hostOps1 (V2 m outs c) (Proc.devRef .tc main_v11) (ix3 h i d) = _
  after_results
  simp only [V2, Function.update_self]
  exact part_read (outs 2 main_v4 c : S2304x3072.Idx → EReal) 1 slices_S2304x3x16x64_S2304x1x16x64_0_1_0_0 h i d

/-- The values: head h, token i, head feature d is the packed entry at row i, column 2048 + h·64 + d. -/
theorem v_read (h : Fin 16) (i : Fin 2304) (d : Fin 64) :
    (V7 m outs c main_v14 : S16x2304x64.Idx → EReal) (ix3 h i d) = (outs 2 main_v4 c : S2304x3072.Idx → EReal) (ix2 i (Cert.Spec.col 2 h d)) := by
  rw [V7_of m outs c main_v14 (by decide), V6_of m outs c main_v14 (by decide), V5_of m outs c main_v14 (by decide), V4_of m outs c main_v14 (by decide)]
  show StableHlo.after hostOps1 (V2 m outs c) (Proc.devRef .tc main_v14) (ix3 h i d) = _
  after_results
  simp only [V2, Function.update_self]
  exact part_read (outs 2 main_v4 c : S2304x3072.Idx → EReal) 2 slices_S2304x3x16x64_S2304x1x16x64_0_2_0_0 h i d

/-! ## The operands of the output projection -/

/-- Head and token axes exchanged, then the last two axes merged: at (i, cc) the array is the operand at
    head cc / 64, token i, head feature cc % 64. -/
theorem merge_read {α : Type} (y : S16x2304x64.Idx → α) (i : Fin 2304) (cc : Fin 1024) :
    shapeCast S2304x1024 (transpose S2304x16x64 [1, 0, 2] y transposes_S16x2304x64_S2304x16x64_1_0_2) shapeCasts_S2304x16x64_S2304x1024 (ix2 i cc)
      = y (ix3 (Cert.Spec.headOf cc) i (Cert.Spec.featOf cc)) := by
  have hi := i.isLt; have hc := cc.isLt
  rw [shapeCast_apply _ shapeCasts_S2304x16x64_S2304x1024 (ix2 i cc) (ix3 i (Cert.Spec.headOf cc) (Cert.Spec.featOf cc))
    (by rewrite [Shape.rowMajor_val_three, Shape.rowMajor_val_two]
        show (i.val * 16 + cc.val / 64) * 64 + cc.val % 64 = i.val * 1024 + cc.val
        omega)]
  exact transpose_apply [1, 0, 2] y transposes_S16x2304x64_S2304x16x64_1_0_2 (ix3 i (Cert.Spec.headOf cc) (Cert.Spec.featOf cc))
    (ix3 (Cert.Spec.headOf cc) i (Cert.Spec.featOf cc)) (fun b => match b with
    | ⟨0, _⟩ => rfl
    | ⟨1, _⟩ => rfl
    | ⟨2, _⟩ => rfl)

/-- The left operand of the output projection: the attention output with its heads merged back into model features. -/
theorem merged_read (i : Fin 2304) (cc : Fin 1024) :
    (V9 m outs c main_v36 : S2304x1024.Idx → EReal) (ix2 i cc) = (outs 8 main_v34 c : S16x2304x64.Idx → EReal) (ix3 (Cert.Spec.headOf cc) i (Cert.Spec.featOf cc)) := by
  show StableHlo.after hostOps2 (V8 m outs c) (Proc.devRef .tc main_v36) (ix2 i cc) = _
  after_results
  simp only [V8, Function.update_self]
  exact merge_read (outs 8 main_v34 c : S16x2304x64.Idx → EReal) i cc

/-- The weight of the output projection is its argument array, untouched by everything after the first host stretch. -/
theorem wproj_read (j k : Fin 1024) :
    (V9 m outs c main_v1 : S1024x1024.Idx → EReal) (ix2 j k) = (m ((c : Thread nD τ).loc main_arg3) : S1024x1024.Idx → EReal) (ix2 j k) := by
  rw [V9_of m outs c main_v1 (by decide), V8_of m outs c main_v1 (by decide), V7_of m outs c main_v1 (by decide), V6_of m outs c main_v1 (by decide),
    V5_of m outs c main_v1 (by decide), V4_of m outs c main_v1 (by decide), V3_of m outs c main_v1 (by decide), V2_of m outs c main_v1 (by decide)]
  show StableHlo.after hostOps0 (V0 m c) (Proc.devRef .tc main_v1) (ix2 j k) = _
  after_results
  rfl

/-- The bias row of the output projection is the bias vector laid out as one row. -/
theorem bproj_read (j : Fin 1024) :
    (V9 m outs c main_v37 : S1x1024.Idx → EReal) (ix2 (0 : Fin 1) j) = (m ((c : Thread nD τ).loc main_arg4) : S1024.Idx → EReal) (ix1 j) := by
  show StableHlo.after hostOps2 (V8 m outs c) (Proc.devRef .tc main_v37) (ix2 (0 : Fin 1) j) = _
  after_results
  rw [V8_of m outs c main_arg4 (by decide), V7_of m outs c main_arg4 (by decide), V6_of m outs c main_arg4 (by decide),
    V5_of m outs c main_arg4 (by decide), V4_of m outs c main_arg4 (by decide), V3_of m outs c main_arg4 (by decide), V2_of m outs c main_arg4 (by decide),
    V1_of m c main_arg4 (by decide)]
  exact shapeCast_a_1a_apply (V0 m c main_arg4 : S1024.Idx → EReal) shapeCasts_S1024_S1x1024 0 j

end Cert.KernelIdeal.HostLayout

end
-- ==== Proof.HostBias.lean ====
/-
  What the kernel program's host code leaves in the additive attention bias that the attention launch reads
  (a [16, 2304, 2304] array: head, query, key), entry by entry, when every word of the index array lies in the table.

  The host code computes, for each of the 9025 rows r of the coordinate table and each of the 16 heads h,
      T(r, h) = 16 · (1 / (1 + e^(−y(r, h)))),   y(r, h) = Σ_c max((Σ_a tab(r, a) · w1(c, a)) + b1(c), 0) · w2(h, c),
  stores it transposed (head, row), and then takes, for every flat position p of a (query, key) pair, the column at the
  row the index word idx(p) names: a negative word counts from the table's end, the word is read signed and clamped
  into [0, 9024]; a mask (0 ≤ word ≤ 9024 after wrapping) guards the take, and under the precondition it is 1 everywhere,
  so the guarded value is the taken one. A final reshape sends (head, query i, key j) to the flat position i·2304 + j.

  The module names each stage as an array (a function of the argument arrays), shows that the host stretches write
  exactly those arrays, reads each stage at an index, and puts the readings together.
-/
import proofs.«423628_j37984690766439_2_alg».proof.Proof.Gen.KernelIdeal.Regions
import proofs.«423628_j37984690766439_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.ReduceAll
import Idealize.ShloMosaic.PureOps.Ideal.Laws
import Idealize.ShloMosaic.Lib.IdealHost

set_option maxRecDepth 16384

noncomputable section

namespace Cert.KernelIdeal.HostBias

open Cert.KernelIdeal Cert.KernelIdeal.Gen Idealize.ShloMosaic Idealize.ShloMosaic.TcCoe Idealize.ShloMosaic.ValueIdx
open scoped BigOperators

/-! ## The stages as arrays -/

section Arrays
variable {F : FTy → Type} [FloatOps F]
/-- the hidden layer before the rectifier, as an array -/
def hidA (x5 : (⟨S512x2, .f32⟩ : BufTy).Contents (Elt F)) (x6 : (⟨S512, .f32⟩ : BufTy).Contents (Elt F))
    (x8 : (⟨S9025x2, .f32⟩ : BufTy).Contents (Elt F)) : (⟨S9025x512, .f32⟩ : BufTy).Contents (Elt F) :=
  addf (Host.dotGeneral dot_S9025x2_S2x512_S9025x512_1_0_0_1_n_n none x8 (transpose S2x512 [1, 0] x5 transposes_S512x2_S2x512_1_0))
    (broadcastInDim S9025x512 ![0, 1] bcast_S1x512_S9025x512_0_1 (broadcastInDim S1x512 ![1] bcast_S512_S1x512_1 x6))

/-- the rectifier -/
def reluA (h : (⟨S9025x512, .f32⟩ : BufTy).Contents (Elt F)) : (⟨S9025x512, .f32⟩ : BufTy).Contents (Elt F) :=
  maximumf h (broadcastInDim S9025x512 ![] bcast_S_S9025x512 (constant S_ .f32 0x00000000#32))

/-- the transposed table of sixteen times the logistic of the second layer -/
def tabA (h : (⟨S9025x512, .f32⟩ : BufTy).Contents (Elt F)) (x7 : (⟨S16x512, .f32⟩ : BufTy).Contents (Elt F)) :
    (⟨S16x9025, .f32⟩ : BufTy).Contents (Elt F) :=
  transpose S16x9025 [1, 0]
    (mulf (broadcastInDim S9025x16 ![] bcast_S_S9025x16 (constant S_ .f32 0x41800000#32))
      (Host.divf (broadcastInDim S9025x16 ![] bcast_S_S9025x16 (constant S_ .f32 0x3F800000#32))
        (addf (broadcastInDim S9025x16 ![] bcast_S_S9025x16 (constant S_ .f32 0x3F800000#32))
          (Host.exp (Host.negf (Host.dotGeneral dot_S9025x512_S512x16_S9025x16_1_0_0_1_n_n none h
            (transpose S512x16 [1, 0] x7 transposes_S16x512_S512x16_1_0)))))))
    transposes_S9025x16_S16x9025_1_0

/-- the index array with negative entries counted from the table's end -/
def wrapA (x9 : (⟨S5308416, .i32⟩ : BufTy).Contents (Elt F)) : (⟨S5308416, .i32⟩ : BufTy).Contents (Elt F) :=
  select (cmpi .slt x9 (broadcastInDim S5308416 ![] bcast_S_S5308416 (constantI S_ 32 0#32)))
    (addi x9 (broadcastInDim S5308416 ![] bcast_S_S5308416 (constantI S_ 32 9025#32))) x9

/-- the same as a one-column matrix -/
def colA (w : (⟨S5308416, .i32⟩ : BufTy).Contents (Elt F)) : (⟨S5308416x1, .i32⟩ : BufTy).Contents (Elt F) :=
  broadcastInDim S5308416x1 ![0] bcast_S5308416_S5308416x1_0 w

/-- which positions name a row inside the table -/
def maskA (v5 : (⟨S5308416x1, .i32⟩ : BufTy).Contents (Elt F)) : (⟨S5308416, .i1⟩ : BufTy).Contents (Elt F) :=
  Host.reduce IntOp.andi
    (andi (cmpi .sge v5 (broadcastInDim S5308416x1 ![] bcast_S_S5308416x1 (constantI S_ 32 0#32)))
      (cmpi .sle v5 (broadcastInDim S5308416x1 ![0, 1] bcast_S1x1_S5308416x1_0_1
        (broadcastInDim S1x1 ![1] bcast_S1_S1x1_1 (constantI S1 32 9024#32)))))
    (constantI S_ 1 1#1) reducesTo_S5308416x1_S5308416_d1 h_S_

/-- the table's columns taken at the index array -/
def takeA (t : (⟨S16x9025, .f32⟩ : BufTy).Contents (Elt F)) (x9 : (⟨S5308416, .i32⟩ : BufTy).Contents (Elt F)) :
    (⟨S16x5308416, .f32⟩ : BufTy).Contents (Elt F) :=
  select (broadcastInDim S16x5308416 ![1] bcast_S5308416_S16x5308416_1 (maskA (F := F) (colA (F := F) (wrapA (F := F) x9))))
    (Host.gather gather_S16x9025_S5308416x1_S16x5308416_0_1_n_n_1_1_161 t (colA (F := F) (wrapA (F := F) x9)))
    (broadcastInDim S16x5308416 ![] bcast_S_S16x5308416 (constant S_ .f32 0x7FC00000#32))

end Arrays

/-! ## The stages read at an index -/
theorem d1_lhs0 (i : S9025x512.Idx) (q : dot_S9025x2_S2x512_S9025x512_1_0_0_1_n_n.contr.Idx) : (dot_S9025x2_S2x512_S9025x512_1_0_0_1_n_n.lhsIdx i q 0).val = (i 0).val := by
  unfold DotDims.lhsIdx
  rw [dif_neg (show ¬(0 : Fin S9025x2.rank) ∈ dot_S9025x2_S2x512_S9025x512_1_0_0_1_n_n.lhsBatch by decide), dif_pos (show (0 : Fin S9025x2.rank) ∈ dot_S9025x2_S2x512_S9025x512_1_0_0_1_n_n.lhsNonContracting by decide)]
  rfl
theorem d1_rhs1 (i : S9025x512.Idx) (q : dot_S9025x2_S2x512_S9025x512_1_0_0_1_n_n.contr.Idx) : (dot_S9025x2_S2x512_S9025x512_1_0_0_1_n_n.rhsIdx i q 1).val = (i 1).val := by
  unfold DotDims.rhsIdx
  rw [dif_neg (show ¬(1 : Fin S2x512.rank) ∈ dot_S9025x2_S2x512_S9025x512_1_0_0_1_n_n.rhsBatch by decide), dif_pos (show (1 : Fin S2x512.rank) ∈ dot_S9025x2_S2x512_S9025x512_1_0_0_1_n_n.rhsNonContracting by decide)]
  rfl
/-- a product of two matrices at (r, k): the sum over the shared axis -/
theorem d1_apply (x : FVec Ideal S9025x2 .f32) (y : FVec Ideal S2x512 .f32) (i : S9025x512.Idx) :
    (Host.dotGeneral (F := Ideal) (φ₁ := .f32) (φ₂ := .f32) dot_S9025x2_S2x512_S9025x512_1_0_0_1_n_n none x y : S9025x512.Idx → EReal) i
      = ∑ a : Fin 2, (x : S9025x2.Idx → EReal) (ix2 (i 0) a) * (y : S2x512.Idx → EReal) (ix2 a (i 1)) := by
  simp only [Host.dotGeneral]
  rw [Ideal.dotGeneral_apply, ← Equiv.sum_comp (ValueIdx.contrEquiv1 dot_S9025x2_S2x512_S9025x512_1_0_0_1_n_n 2 rfl rfl).symm]
  refine Finset.sum_congr rfl fun a _ => ?_
  have hk := ValueIdx.contrEquiv1_symm_val dot_S9025x2_S2x512_S9025x512_1_0_0_1_n_n 2 rfl rfl a
  have el : dot_S9025x2_S2x512_S9025x512_1_0_0_1_n_n.lhsIdx i ((ValueIdx.contrEquiv1 dot_S9025x2_S2x512_S9025x512_1_0_0_1_n_n 2 rfl rfl).symm a) = ix2 (i 0) a := funext fun b => Fin.ext (by
    match b with
    | ⟨0, _⟩ => exact d1_lhs0 _ _
    | ⟨1, _⟩ => exact (dot_S9025x2_S2x512_S9025x512_1_0_0_1_n_n.lhsIdx_val_of_single rfl _ _).trans hk)
  have er : dot_S9025x2_S2x512_S9025x512_1_0_0_1_n_n.rhsIdx i ((ValueIdx.contrEquiv1 dot_S9025x2_S2x512_S9025x512_1_0_0_1_n_n 2 rfl rfl).symm a) = ix2 a (i 1) := funext fun b => Fin.ext (by
    match b with
    | ⟨0, _⟩ => exact (dot_S9025x2_S2x512_S9025x512_1_0_0_1_n_n.rhsIdx_val_of_single rfl _ _).trans hk
    | ⟨1, _⟩ => exact d1_rhs1 _ _)
  rw [el, er]
  rfl
theorem d2_lhs0 (i : S9025x16.Idx) (q : dot_S9025x512_S512x16_S9025x16_1_0_0_1_n_n.contr.Idx) : (dot_S9025x512_S512x16_S9025x16_1_0_0_1_n_n.lhsIdx i q 0).val = (i 0).val := by
  unfold DotDims.lhsIdx
  rw [dif_neg (show ¬(0 : Fin S9025x512.rank) ∈ dot_S9025x512_S512x16_S9025x16_1_0_0_1_n_n.lhsBatch by decide), dif_pos (show (0 : Fin S9025x512.rank) ∈ dot_S9025x512_S512x16_S9025x16_1_0_0_1_n_n.lhsNonContracting by decide)]
  rfl
theorem d2_rhs1 (i : S9025x16.Idx) (q : dot_S9025x512_S512x16_S9025x16_1_0_0_1_n_n.contr.Idx) : (dot_S9025x512_S512x16_S9025x16_1_0_0_1_n_n.rhsIdx i q 1).val = (i 1).val := by
  unfold DotDims.rhsIdx
  rw [dif_neg (show ¬(1 : Fin S512x16.rank) ∈ dot_S9025x512_S512x16_S9025x16_1_0_0_1_n_n.rhsBatch by decide), dif_pos (show (1 : Fin S512x16.rank) ∈ dot_S9025x512_S512x16_S9025x16_1_0_0_1_n_n.rhsNonContracting by decide)]
  rfl
/-- a product of two matrices at (r, k): the sum over the shared axis -/
theorem d2_apply (x : FVec Ideal S9025x512 .f32) (y : FVec Ideal S512x16 .f32) (i : S9025x16.Idx) :
    (Host.dotGeneral (F := Ideal) (φ₁ := .f32) (φ₂ := .f32) dot_S9025x512_S512x16_S9025x16_1_0_0_1_n_n none x y : S9025x16.Idx → EReal) i
      = ∑ a : Fin 512, (x : S9025x512.Idx → EReal) (ix2 (i 0) a) * (y : S512x16.Idx → EReal) (ix2 a (i 1)) := by
  simp only [Host.dotGeneral]
  rw [Ideal.dotGeneral_apply, ← Equiv.sum_comp (ValueIdx.contrEquiv1 dot_S9025x512_S512x16_S9025x16_1_0_0_1_n_n 512 rfl rfl).symm]
  refine Finset.sum_congr rfl fun a _ => ?_
  have hk := ValueIdx.contrEquiv1_symm_val dot_S9025x512_S512x16_S9025x16_1_0_0_1_n_n 512 rfl rfl a
  have el : dot_S9025x512_S512x16_S9025x16_1_0_0_1_n_n.lhsIdx i ((ValueIdx.contrEquiv1 dot_S9025x512_S512x16_S9025x16_1_0_0_1_n_n 512 rfl rfl).symm a) = ix2 (i 0) a := funext fun b => Fin.ext (by
    match b with
    | ⟨0, _⟩ => exact d2_lhs0 _ _
    | ⟨1, _⟩ => exact (dot_S9025x512_S512x16_S9025x16_1_0_0_1_n_n.lhsIdx_val_of_single rfl _ _).trans hk)
  have er : dot_S9025x512_S512x16_S9025x16_1_0_0_1_n_n.rhsIdx i ((ValueIdx.contrEquiv1 dot_S9025x512_S512x16_S9025x16_1_0_0_1_n_n 512 rfl rfl).symm a) = ix2 a (i 1) := funext fun b => Fin.ext (by
    match b with
    | ⟨0, _⟩ => exact (dot_S9025x512_S512x16_S9025x16_1_0_0_1_n_n.rhsIdx_val_of_single rfl _ _).trans hk
    | ⟨1, _⟩ => exact d2_rhs1 _ _)
  rw [el, er]
  rfl

theorem ofBits_sixteen_f32 : Ideal.ofBits .f32 0x41800000#32 = 16 := by
  rw [show (16 : EReal) = ((16 : ℝ) : EReal) by norm_cast]
  simp [Ideal.ofBits, Ideal.ieee, -EReal.coe_mul]; norm_num

theorem ofBits_zero_f32 : Ideal.ofBits .f32 0x00000000#32 = 0 := by simp [Ideal.ofBits, Ideal.ieee]

theorem hidA_apply (x5 : (⟨S512x2, .f32⟩ : BufTy).Contents (Elt Ideal)) (x6 : (⟨S512, .f32⟩ : BufTy).Contents (Elt Ideal))
    (x8 : (⟨S9025x2, .f32⟩ : BufTy).Contents (Elt Ideal)) (r : Fin 9025) (k : Fin 512) :
    (hidA (F := Ideal) x5 x6 x8 : S9025x512.Idx → EReal) (ix2 r k) = (∑ a : Fin 2, (x8 : S9025x2.Idx → EReal) (ix2 r a) * (x5 : S512x2.Idx → EReal) (ix2 k a)) + (x6 : S512.Idx → EReal) (ix1 k) := by
  unfold hidA
  rw [addf_apply, d1_apply]
  congr 1
  · refine Finset.sum_congr rfl fun a _ => ?_
    congr 1
    exact transpose_apply [1, 0] x5 transposes_S512x2_S2x512_1_0 (ix2 a k) (ix2 k a) (fun b => match b with
      | ⟨0, _⟩ => rfl
      | ⟨1, _⟩ => rfl)
  · rw [broadcastInDim_apply _ bcast_S1x512_S9025x512_0_1 _ (ix2 r k) (ix2 (0 : Fin 1) k) (fun a => match a with
      | ⟨0, _⟩ => by show 0 = if (1 : Nat) = 1 then 0 else r.val; rw [if_pos rfl]
      | ⟨1, _⟩ => by show k.val = if (512 : Nat) = 1 then 0 else k.val; rw [if_neg (by decide)])]
    exact broadcastInDim_apply _ bcast_S512_S1x512_1 x6 (ix2 (0 : Fin 1) k) (ix1 k) (fun a => match a with
      | ⟨0, _⟩ => by show k.val = if (512 : Nat) = 1 then 0 else k.val; rw [if_neg (by decide)])

theorem reluA_apply (h : (⟨S9025x512, .f32⟩ : BufTy).Contents (Elt Ideal)) (i : S9025x512.Idx) :
    (reluA (F := Ideal) h : S9025x512.Idx → EReal) i = max ((h : S9025x512.Idx → EReal) i) 0 := by
  unfold reluA
  rw [maximumf_apply, broadcastInDim_scalar_apply, constant_apply, ofBits_zero_f32]

theorem tabA_apply (h : (⟨S9025x512, .f32⟩ : BufTy).Contents (Elt Ideal)) (x7 : (⟨S16x512, .f32⟩ : BufTy).Contents (Elt Ideal))
    (hd : Fin 16) (r : Fin 9025) :
    (tabA (F := Ideal) h x7 : S16x9025.Idx → EReal) (ix2 hd r)
      = Cert.Spec.sig16 (∑ k : Fin 512, (h : S9025x512.Idx → EReal) (ix2 r k) * (x7 : S16x512.Idx → EReal) (ix2 hd k)) := by
  unfold tabA Cert.Spec.sig16
  rw [transpose_apply [1, 0] _ transposes_S9025x16_S16x9025_1_0 (ix2 hd r) (ix2 r hd) (fun b => match b with
      | ⟨0, _⟩ => rfl
      | ⟨1, _⟩ => rfl)]
  rw [mulf_apply, hostDivf_apply, addf_apply, broadcastInDim_scalar_apply, broadcastInDim_scalar_apply,
    constant_apply, constant_apply, Ideal.ofBits_one_f32, ofBits_sixteen_f32]
  show (16 : EReal) * Ideal.div 1 (1 + Ideal.exp (-((Host.dotGeneral (F := Ideal) (φ₁ := .f32) (φ₂ := .f32) dot_S9025x512_S512x16_S9025x16_1_0_0_1_n_n none h (transpose S512x16 [1, 0] x7 transposes_S16x512_S512x16_1_0) : S9025x16.Idx → EReal) (ix2 r hd)))) = _
  rw [d2_apply]
  congr 5
  refine Finset.sum_congr rfl fun k _ => ?_
  congr 1
  exact transpose_apply [1, 0] x7 transposes_S16x512_S512x16_1_0 (ix2 k hd) (ix2 hd k) (fun b => match b with
    | ⟨0, _⟩ => rfl
    | ⟨1, _⟩ => rfl)

/-- the three stages together: the table at (head, row) is sixteen times the logistic of the perceptron -/
theorem tab_mlp (x5 : (⟨S512x2, .f32⟩ : BufTy).Contents (Elt Ideal)) (x6 : (⟨S512, .f32⟩ : BufTy).Contents (Elt Ideal))
    (x7 : (⟨S16x512, .f32⟩ : BufTy).Contents (Elt Ideal)) (x8 : (⟨S9025x2, .f32⟩ : BufTy).Contents (Elt Ideal))
    (hd : Fin 16) (r : Fin 9025) :
    (tabA (F := Ideal) (reluA (F := Ideal) (hidA (F := Ideal) x5 x6 x8)) x7 : S16x9025.Idx → EReal) (ix2 hd r)
      = Cert.Spec.sig16 (Cert.Spec.mlp (fun a b => (x8 : S9025x2.Idx → EReal) (ix2 a b)) (fun a b => (x5 : S512x2.Idx → EReal) (ix2 a b))
          (fun a => (x6 : S512.Idx → EReal) (ix1 a)) (fun a b => (x7 : S16x512.Idx → EReal) (ix2 a b)) r hd) := by
  rw [tabA_apply]
  unfold Cert.Spec.mlp
  congr 1
  refine Finset.sum_congr rfl fun k _ => ?_
  rw [reluA_apply, hidA_apply]

/-- a fold by "and" from 1 over entries that are all 1 is 1 -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

theorem wrapA_apply (x9 : (⟨S5308416, .i32⟩ : BufTy).Contents (Elt Ideal)) (i : S5308416.Idx) :
    (wrapA (F := Ideal) x9 : S5308416.Idx → BitVec 32) i = Cert.Spec.wrapIdx ((x9 : S5308416.Idx → BitVec 32) i) := rfl

theorem colA_apply (w : (⟨S5308416, .i32⟩ : BufTy).Contents (Elt Ideal)) (p : Fin 5308416) (z : Fin 1) :
    (colA (F := Ideal) w : S5308416x1.Idx → BitVec 32) (ix2 p z) = (w : S5308416.Idx → BitVec 32) (ix1 p) := by
  unfold colA
  exact broadcastInDim_apply _ bcast_S5308416_S5308416x1_0 w (ix2 p z) (ix1 p) (fun a => match a with
    | ⟨0, _⟩ => by show p.val = if (5308416 : Nat) = 1 then 0 else p.val; rw [if_neg (by decide)])

/-- under the precondition every position names a row inside the table -/
theorem maskA_one (x9 : (⟨S5308416, .i32⟩ : BufTy).Contents (Elt Ideal))
    (hin : ∀ p : Fin 5308416, Cert.Spec.InTable ((x9 : S5308416.Idx → BitVec 32) (ix1 p))) (j : S5308416.Idx) :
    (maskA (F := Ideal) (colA (F := Ideal) (wrapA (F := Ideal) x9)) : S5308416.Idx → BitVec 1) j = 1#1 := by
  unfold maskA
  rw [Host.reduce_eq_foldl]
  refine foldl_andi_one _ (fun i => ?_) _
  have hv : (colA (F := Ideal) (wrapA (F := Ideal) x9) : S5308416x1.Idx → BitVec 32) i
      = Cert.Spec.wrapIdx ((x9 : S5308416.Idx → BitVec 32) (ix1 (i 0))) := by
    exact (congrArg (colA (F := Ideal) (wrapA (F := Ideal) x9) : S5308416x1.Idx → BitVec 32) (eq_ix2 i)).trans
      ((colA_apply _ (i 0) (i 1)).trans (wrapA_apply _ _))
  show IntOp.andi (IntOp.cmpi .sge ((colA (F := Ideal) (wrapA (F := Ideal) x9) : S5308416x1.Idx → BitVec 32) i) 0#32)
      (IntOp.cmpi .sle ((colA (F := Ideal) (wrapA (F := Ideal) x9) : S5308416x1.Idx → BitVec 32) i) 9024#32) = 1#1
  rw [hv, (hin (i 0)).1, (hin (i 0)).2]
  decide

/-- the gather at (head, position): the table's column at the clamped start index -/
theorem gather_read (t : (⟨S16x9025, .f32⟩ : BufTy).Contents (Elt Ideal)) (idx : (⟨S5308416x1, .i32⟩ : BufTy).Contents (Elt Ideal))
    (hd : Fin 16) (p : Fin 5308416) (w : BitVec 32) (hw : (idx : S5308416x1.Idx → BitVec 32) (ix2 p (0 : Fin 1)) = w) :
    (Host.gather gather_S16x9025_S5308416x1_S16x5308416_0_1_n_n_1_1_161 t idx : S16x5308416.Idx → EReal) (ix2 hd p)
      = (t : S16x9025.Idx → EReal) (ix2 hd ⟨min w.toInt.toNat 9024, by omega⟩) := by
  subst hw
  unfold Host.gather
  refine congrArg t (funext fun a => Fin.ext ?_)
  match a with
  | ⟨0, _⟩ =>
    show gather_S16x9025_S5308416x1_S16x5308416_0_1_n_n_1_1_161.start (ix2 hd p) idx 0 + gather_S16x9025_S5308416x1_S16x5308416_0_1_n_n_1_1_161.batchCoord (ix2 hd p) 0 + gather_S16x9025_S5308416x1_S16x5308416_0_1_n_n_1_1_161.offCoord (ix2 hd p) 0 = hd.val
    rw [GatherDims.batchCoord_eq_zero _ _ _ (by decide)]
    unfold GatherDims.start GatherDims.offCoord
    rw [dif_neg (by decide), dif_pos (by decide)]
    simp only [Nat.zero_add]
    rfl
  | ⟨1, _⟩ =>
    show gather_S16x9025_S5308416x1_S16x5308416_0_1_n_n_1_1_161.start (ix2 hd p) idx 1 + gather_S16x9025_S5308416x1_S16x5308416_0_1_n_n_1_1_161.batchCoord (ix2 hd p) 1 + gather_S16x9025_S5308416x1_S16x5308416_0_1_n_n_1_1_161.offCoord (ix2 hd p) 1
      = min ((idx : S5308416x1.Idx → BitVec 32) (ix2 p (0 : Fin 1))).toInt.toNat 9024
    rw [GatherDims.batchCoord_eq_zero _ _ _ (by decide), GatherDims.offCoord_eq_zero _ _ _ (by decide)]
    unfold GatherDims.start
    rw [dif_pos (by decide)]
    have hsi : gather_S16x9025_S5308416x1_S16x5308416_0_1_n_n_1_1_161.siIdx (ix2 hd p) ⟨List.idxOf (1 : Fin 2) gather_S16x9025_S5308416x1_S16x5308416_0_1_n_n_1_1_161.startIndexMap,
        List.idxOf_lt_length_iff.2 (by decide)⟩ = ix2 p (0 : Fin 1) := by
      funext b; refine Fin.ext ?_
      match b with
      | ⟨0, _⟩ => rfl
      | ⟨1, _⟩ => rfl
    rw [hsi]
    rfl

theorem takeA_apply (t : (⟨S16x9025, .f32⟩ : BufTy).Contents (Elt Ideal)) (x9 : (⟨S5308416, .i32⟩ : BufTy).Contents (Elt Ideal))
    (hin : ∀ p : Fin 5308416, Cert.Spec.InTable ((x9 : S5308416.Idx → BitVec 32) (ix1 p))) (hd : Fin 16) (p : Fin 5308416) :
    (takeA (F := Ideal) t x9 : S16x5308416.Idx → EReal) (ix2 hd p)
      = (t : S16x9025.Idx → EReal) (ix2 hd (Cert.Spec.rowOf ((x9 : S5308416.Idx → BitVec 32) (ix1 p)))) := by
  unfold takeA
  rw [select_apply, broadcastInDim_apply _ bcast_S5308416_S16x5308416_1 _ (ix2 hd p) (ix1 p) (fun a => match a with
    | ⟨0, _⟩ => by show p.val = if (5308416 : Nat) = 1 then 0 else p.val; rw [if_neg (by decide)]),
    maskA_one x9 hin, select_one, gather_read _ _ hd p _ ((colA_apply _ p 0).trans (wrapA_apply _ _))]
  rfl

/-- the reshape: (head, query, key) reads the flat position of the pair -/
theorem cast_read (x : (⟨S16x5308416, .f32⟩ : BufTy).Contents (Elt Ideal)) (hd : Fin 16) (i j : Fin 2304) :
    (shapeCast S16x2304x2304 x shapeCasts_S16x5308416_S16x2304x2304 : S16x2304x2304.Idx → EReal) (ix3 hd i j)
      = (x : S16x5308416.Idx → EReal) (ix2 hd (Cert.Spec.pairPos i j)) :=
  shapeCast_apply x _ _ _ (by
    rw [Shape.rowMajor_val_two, Shape.rowMajor_val_three]
    show hd.val * 5308416 + (i.val * 2304 + j.val) = (hd.val * 2304 + i.val) * 2304 + j.val
    omega)

/-! ## What each host stretch writes -/

theorem hid_run (W : Valuation τ sig (Elt Ideal)) : StableHlo.after hostOps1 W (Proc.devRef .tc main_v19)
    = hidA (F := Ideal) (W main_arg5) (W main_arg6) (W main_arg8) := by
  after_results
  rfl

theorem relu_run (W : Valuation τ sig (Elt Ideal)) : StableHlo.after hostOps1_1 W (Proc.devRef .tc main_v20) = reluA (F := Ideal) (W main_v19) := by
  after_results
  rfl

theorem tab_run (W : Valuation τ sig (Elt Ideal)) : StableHlo.after hostOps1_2 W (Proc.devRef .tc main_v31) = tabA (F := Ideal) (W main_v20) (W main_arg7) := by
  after_results
  rfl

theorem ofBuf_toBuf {Val : EltTy → Type} {T : BufTy} (x : StableHlo.TRef sig T) (v : T.Contents Val) :
    x.ofBuf (Val := Val) (x.toBuf v) = v := by
  obtain ⟨r, rfl, _, _⟩ := x; rfl

theorem ofBuf_arg9 {Val : EltTy → Type} (h1 h2 h3) (v : main_arg9.ty.Contents Val) :
    (StableHlo.TRef.of main_arg9 h1 h2 h3 : StableHlo.TRef sig ⟨S5308416, .i32⟩).ofBuf (Val := Val) v = v := rfl
theorem ofBuf_v31 {Val : EltTy → Type} (h1 h2 h3) (v : main_v31.ty.Contents Val) :
    (StableHlo.TRef.of main_v31 h1 h2 h3 : StableHlo.TRef sig ⟨S16x9025, .f32⟩).ofBuf (Val := Val) v = v := rfl
theorem toBuf_v32 {Val : EltTy → Type} (h1 h2 h3) (v : (⟨S16x5308416, .f32⟩ : BufTy).Contents Val) :
    (StableHlo.TRef.of main_v32 h1 h2 h3 : StableHlo.TRef sig ⟨S16x5308416, .f32⟩).toBuf (Val := Val) v = v := rfl

set_option maxHeartbeats 4000000 in
theorem take_run {F : FTy → Type} [FloatOps F] (W : Valuation τ sig (Elt F)) : StableHlo.after hostOps1_3 W (Proc.devRef .tc main_v32) = takeA (F := F) (W main_v31) (W main_arg9) := by
  after_results_simp
  simp only [ofBuf_toBuf, ofBuf_arg9, ofBuf_v31, toBuf_v32]
  rfl

theorem cast_run (W : Valuation τ sig (Elt Ideal)) : StableHlo.after hostOps1_4 W (Proc.devRef .tc main_v33)
    = shapeCast S16x2304x2304 (W main_v32) shapeCasts_S16x5308416_S16x2304x2304 := by
  after_results
  rfl

/-! ## The bias launch 1 reads -/

variable (m : (ℓ : Loc nD τ sig) → Buf (Elt Ideal) ℓ) (outs : Outs (F := Ideal)) (c : Dev nD)

/-- an argument array reaches the second stretch as launched -/
theorem arg_V2 (r : Ref sig .tc) (h0 : r ∉ hostOps0_W) (h1 : r ∉ ([main_v4] : List (Ref sig .tc))) :
    V2 m outs c r = m ((c : Thread nD τ).loc r) :=
  (V2_of m outs c r h1).trans (V1_of m c r h0)

/-- The additive bias launch 1 reads, entry by entry: sixteen times the logistic of the perceptron's output for the
    table row the index array names for the pair (query, key), when every index word lies in the table. -/
theorem bias_read (hin : ∀ p : Fin 5308416, Cert.Spec.InTable ((m ((c : Thread nD τ).loc main_arg9) : S5308416.Idx → BitVec 32) (ix1 p)))
    (h : Fin 16) (i j : Fin 2304) :
    (V7 m outs c main_v33 : S16x2304x2304.Idx → EReal) (ix3 h i j)
      = Cert.Spec.biasOf (Cert.Spec.mlp (fun a b => (m ((c : Thread nD τ).loc main_arg8) : S9025x2.Idx → EReal) (ix2 a b))
            (fun a b => (m ((c : Thread nD τ).loc main_arg5) : S512x2.Idx → EReal) (ix2 a b))
            (fun a => (m ((c : Thread nD τ).loc main_arg6) : S512.Idx → EReal) (ix1 a))
            (fun a b => (m ((c : Thread nD τ).loc main_arg7) : S16x512.Idx → EReal) (ix2 a b)))
          (fun p => (m ((c : Thread nD τ).loc main_arg9) : S5308416.Idx → BitVec 32) (ix1 p)) h i j := by
  have a5 : V2 m outs c main_arg5 = (m ((c : Thread nD τ).loc main_arg5)) := arg_V2 m outs c main_arg5 (by decide) (by decide)
  have a6 : V2 m outs c main_arg6 = (m ((c : Thread nD τ).loc main_arg6)) := arg_V2 m outs c main_arg6 (by decide) (by decide)
  have a8 : V2 m outs c main_arg8 = (m ((c : Thread nD τ).loc main_arg8)) := arg_V2 m outs c main_arg8 (by decide) (by decide)
  have a7 : V4 m outs c main_arg7 = (m ((c : Thread nD τ).loc main_arg7)) :=
    (V4_of m outs c main_arg7 (by decide)).trans ((V3_of m outs c main_arg7 (by decide)).trans (arg_V2 m outs c main_arg7 (by decide) (by decide)))
  have a9 : V5 m outs c main_arg9 = (m ((c : Thread nD τ).loc main_arg9)) :=
    (V5_of m outs c main_arg9 (by decide)).trans ((V4_of m outs c main_arg9 (by decide)).trans
      ((V3_of m outs c main_arg9 (by decide)).trans (arg_V2 m outs c main_arg9 (by decide) (by decide))))
  have e19 : V3 m outs c main_v19 = hidA (F := Ideal) (m ((c : Thread nD τ).loc main_arg5)) (m ((c : Thread nD τ).loc main_arg6)) (m ((c : Thread nD τ).loc main_arg8)) :=
    (hid_run (V2 m outs c)).trans (by rw [a5, a6, a8])
  have e20 : V4 m outs c main_v20 = reluA (F := Ideal) (hidA (F := Ideal) (m ((c : Thread nD τ).loc main_arg5)) (m ((c : Thread nD τ).loc main_arg6)) (m ((c : Thread nD τ).loc main_arg8))) :=
    (relu_run (V3 m outs c)).trans (by rw [e19])
  have e31 : V5 m outs c main_v31 = tabA (F := Ideal) (reluA (F := Ideal) (hidA (F := Ideal) (m ((c : Thread nD τ).loc main_arg5)) (m ((c : Thread nD τ).loc main_arg6)) (m ((c : Thread nD τ).loc main_arg8)))) (m ((c : Thread nD τ).loc main_arg7)) :=
    (tab_run (V4 m outs c)).trans (by rw [e20, a7])
  have e32 : V6 m outs c main_v32 = takeA (F := Ideal) (tabA (F := Ideal) (reluA (F := Ideal) (hidA (F := Ideal) (m ((c : Thread nD τ).loc main_arg5)) (m ((c : Thread nD τ).loc main_arg6)) (m ((c : Thread nD τ).loc main_arg8)))) (m ((c : Thread nD τ).loc main_arg7))) (m ((c : Thread nD τ).loc main_arg9)) :=
    (take_run (V5 m outs c)).trans (by rw [e31, a9])
  have e33 : V7 m outs c main_v33 = shapeCast S16x2304x2304 (takeA (F := Ideal) (tabA (F := Ideal) (reluA (F := Ideal) (hidA (F := Ideal) (m ((c : Thread nD τ).loc main_arg5)) (m ((c : Thread nD τ).loc main_arg6)) (m ((c : Thread nD τ).loc main_arg8)))) (m ((c : Thread nD τ).loc main_arg7))) (m ((c : Thread nD τ).loc main_arg9))) shapeCasts_S16x5308416_S16x2304x2304 :=
    (cast_run (V6 m outs c)).trans (by rw [e32])
  rw [e33, cast_read, takeA_apply _ _ hin, tab_mlp]
  rfl

end Cert.KernelIdeal.HostBias
end
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.KI_Final.lean ====
/-
  The kernel program's result, entry (i, j), is the specification of the argument arrays: the output projection of
  the merged attention of the packed projection, with the position bias read through the index array. Each launch's
  output array is known as a function of the contents the launch is entered from; the host code between the launches
  only re-lays those arrays out, computes the bias table and reads it by the index; composing the readings entry by
  entry gives the specification. The attention launch's running form equals the softmax form only on finite reals, so
  the finiteness of every float argument, and the index array lying inside the table, are used here.
-/
import proofs.«423628_j37984690766439_2_alg».proof.Proof.KI_Run
import proofs.«423628_j37984690766439_2_alg».proof.Proof.KI_Lin0Value
import proofs.«423628_j37984690766439_2_alg».proof.Proof.KI_Lin2Value
import proofs.«423628_j37984690766439_2_alg».proof.Proof.HostLayout
import proofs.«423628_j37984690766439_2_alg».proof.Proof.HostBias
import proofs.«423628_j37984690766439_2_alg».proof.Proof.Spec
import proofs.«423628_j37984690766439_2_alg».proof.Proof.LibReal

noncomputable section

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Cert.LibReal
open scoped BigOperators

/-! ## Finite reals through the specification's pieces -/

theorem lin_congr {M N K : ℕ} {x x' : Fin M → Fin K → EReal} {w w' : Fin N → Fin K → EReal} {b b' : Fin N → EReal}
    (hx : ∀ a k, x a k = x' a k) (hw : ∀ a k, w a k = w' a k) (hb : ∀ a, b a = b' a) (i : Fin M) (j : Fin N) :
    Cert.Spec.lin x w b i j = Cert.Spec.lin x' w' b' i j := by
  have e1 : x = x' := funext fun a => funext fun k => hx a k
  have e2 : w = w' := funext fun a => funext fun k => hw a k
  have e3 : b = b' := funext hb
  rw [e1, e2, e3]

/-- An affine map of finite reals is a finite real. -/
theorem isReal_lin {M N K : ℕ} {x : Fin M → Fin K → EReal} {w : Fin N → Fin K → EReal} {b : Fin N → EReal}
    (hx : ∀ a k, IsReal (x a k)) (hw : ∀ a k, IsReal (w a k)) (hb : ∀ a, IsReal (b a)) (i : Fin M) (j : Fin N) :
    IsReal (Cert.Spec.lin x w b i j) :=
  (IsReal.sum_univ _ fun k => (hx i k).mul (hw j k)).add (hb j)

/-- The position-bias perceptron of finite reals is a finite real. -/
theorem isReal_mlp {tab : Fin 9025 → Fin 2 → EReal} {w1 : Fin 512 → Fin 2 → EReal} {b1 : Fin 512 → EReal} {w2 : Fin 16 → Fin 512 → EReal}
    (ht : ∀ a k, IsReal (tab a k)) (hw1 : ∀ a k, IsReal (w1 a k)) (hb1 : ∀ a, IsReal (b1 a)) (hw2 : ∀ a k, IsReal (w2 a k))
    (r : Fin 9025) (h : Fin 16) : IsReal (Cert.Spec.mlp tab w1 b1 w2 r h) :=
  IsReal.sum_univ _ fun c => (((IsReal.sum_univ _ fun a => (ht r a).mul (hw1 c a)).add (hb1 c)).max isReal_zero).mul (hw2 h c)

/-- Sixteen times the logistic function of a finite real is a finite real. -/
theorem isReal_sig16 {t : EReal} (ht : IsReal t) : IsReal (Cert.Spec.sig16 t) := by
  unfold Cert.Spec.sig16
  have h16 : IsReal (16 : EReal) := ⟨16, by norm_cast⟩
  have h1 : IsPosReal (1 : EReal) := ⟨1, one_pos, by norm_cast⟩
  exact h16.mul (isReal_one.div_pos (h1.add ht.neg.exp_pos))

/-! ## The argument arrays by coordinates -/

section
variable (m : (ℓ : Loc nD τ sig) → Buf (Elt Ideal) ℓ) (c : Dev nD)

abbrev aX : Fin 2304 → Fin 1024 → EReal := fun a b => (m ((c : Thread nD τ).loc main_arg0) : S2304x1024.Idx → EReal) (ix2 a b)
abbrev aWqkv : Fin 3072 → Fin 1024 → EReal := fun a b => (m ((c : Thread nD τ).loc main_arg1) : S3072x1024.Idx → EReal) (ix2 a b)
abbrev aBqkv : Fin 3072 → EReal := fun a => (m ((c : Thread nD τ).loc main_arg2) : S3072.Idx → EReal) (ix1 a)
abbrev aWproj : Fin 1024 → Fin 1024 → EReal := fun a b => (m ((c : Thread nD τ).loc main_arg3) : S1024x1024.Idx → EReal) (ix2 a b)
abbrev aBproj : Fin 1024 → EReal := fun a => (m ((c : Thread nD τ).loc main_arg4) : S1024.Idx → EReal) (ix1 a)
abbrev aW1 : Fin 512 → Fin 2 → EReal := fun a b => (m ((c : Thread nD τ).loc main_arg5) : S512x2.Idx → EReal) (ix2 a b)
abbrev aB1 : Fin 512 → EReal := fun a => (m ((c : Thread nD τ).loc main_arg6) : S512.Idx → EReal) (ix1 a)
abbrev aW2 : Fin 16 → Fin 512 → EReal := fun a b => (m ((c : Thread nD τ).loc main_arg7) : S16x512.Idx → EReal) (ix2 a b)
abbrev aTab : Fin 9025 → Fin 2 → EReal := fun a b => (m ((c : Thread nD τ).loc main_arg8) : S9025x2.Idx → EReal) (ix2 a b)
abbrev aIdx : Fin 5308416 → BitVec 32 := fun p => (m ((c : Thread nD τ).loc main_arg9) : S5308416.Idx → BitVec 32) (ix1 p)
/-- The position bias of the arguments. -/
abbrev aBias : Fin 16 → Fin 2304 → Fin 2304 → EReal :=
  Cert.Spec.biasOf (Cert.Spec.mlp (aTab m c) (aW1 m c) (aB1 m c) (aW2 m c)) (aIdx m c)
/-- The packed projection of the arguments. -/
abbrev aQkv : Fin 2304 → Fin 3072 → EReal := Cert.Spec.lin (aX m c) (aWqkv m c) (aBqkv m c)

/-- What the precondition says of the arguments, entry by entry: every float entry a finite real, every index word inside the table. -/
structure ArgFacts : Prop where
  hX : ∀ a b, IsReal (aX m c a b)
  hWqkv : ∀ a b, IsReal (aWqkv m c a b)
  hBqkv : ∀ a, IsReal (aBqkv m c a)
  hW1 : ∀ a b, IsReal (aW1 m c a b)
  hB1 : ∀ a, IsReal (aB1 m c a)
  hW2 : ∀ a b, IsReal (aW2 m c a b)
  hTab : ∀ a b, IsReal (aTab m c a b)
  hIdx : ∀ p, Cert.Spec.InTable (aIdx m c p)

/-! ## The arrays the launches write and read, as functions of an index -/

/-- The three launches' output arrays. -/
abbrev o0A : S2304x3072.Idx → EReal := o0 m c
abbrev o1A : S16x2304x64.Idx → EReal := o1 m c
abbrev o2A : S2304x1024.Idx → EReal := o2 m c
/-- The query, key, value and bias arrays the attention launch is entered with. -/
abbrev qA : S16x2304x64.Idx → EReal := rd (V7 m (outsA m)) c main_v8
abbrev kA : S16x2304x64.Idx → EReal := rd (V7 m (outsA m)) c main_v11
abbrev vA : S16x2304x64.Idx → EReal := rd (V7 m (outsA m)) c main_v14
abbrev bA : S16x2304x2304.Idx → EReal := rd (V7 m (outsA m)) c main_v33

/-! ## The first launch's output is the packed projection -/

theorem o0_eq (a : Fin 2304) (cc : Fin 3072) : o0A m c (ix2 a cc) = aQkv m c a cc :=
  (Cert.KernelIdeal.LinValue.lin0_value (rd (V1 m)) c a cc).trans
    (lin_congr (fun a k => Cert.KernelIdeal.HostLayout.x_read m c a k) (fun a k => Cert.KernelIdeal.HostLayout.wqkv_read m c a k)
      (fun a => Cert.KernelIdeal.HostLayout.bqkv_read m c a) a cc)

/-- The first launch's output, read through the output family the attention launch's entry contents are stated with. -/
theorem outsA_read (a : Fin 2304) (cc : Fin 3072) : (outsA m 2 main_v4 c : S2304x3072.Idx → EReal) (ix2 a cc) = aQkv m c a cc := by
  rw [outsA_v4]; exact o0_eq m c a cc

/-- The query, key and value entries the attention launch reads are entries of the packed projection. -/
theorem q_eq (h : Fin 16) (i : Fin 2304) (d : Fin 64) : qA m c (ix3 h i d) = aQkv m c i (Cert.Spec.col 0 h d) :=
  (Cert.KernelIdeal.HostLayout.q_read m (outsA m) c h i d).trans (outsA_read m c i _)
theorem k_eq (h : Fin 16) (i : Fin 2304) (d : Fin 64) : kA m c (ix3 h i d) = aQkv m c i (Cert.Spec.col 1 h d) :=
  (Cert.KernelIdeal.HostLayout.k_read m (outsA m) c h i d).trans (outsA_read m c i _)
theorem v_eq (h : Fin 16) (i : Fin 2304) (d : Fin 64) : vA m c (ix3 h i d) = aQkv m c i (Cert.Spec.col 2 h d) :=
  (Cert.KernelIdeal.HostLayout.v_read m (outsA m) c h i d).trans (outsA_read m c i _)

variable (hf : ArgFacts m c)
include hf

theorem isReal_qkv (a : Fin 2304) (cc : Fin 3072) : IsReal (aQkv m c a cc) := isReal_lin hf.hX hf.hWqkv hf.hBqkv a cc

/-- The bias entries the attention launch reads are the specification's, and finite. -/
theorem b_eq (h : Fin 16) (i j : Fin 2304) : bA m c (ix3 h i j) = aBias m c h i j :=
  Cert.KernelIdeal.HostBias.bias_read m (outsA m) c hf.hIdx h i j
theorem isReal_bias (h : Fin 16) (i j : Fin 2304) : IsReal (aBias m c h i j) :=
  isReal_sig16 (isReal_mlp hf.hTab hf.hW1 hf.hB1 hf.hW2 _ _)

/-! ## The attention launch's output is the specification's attention -/

/-- The attention launch's value as its value module states it, at the contents the launch is entered from. -/
abbrev AttnValueAt : Prop :=
  (∀ idx, IsReal (qA m c idx)) → (∀ idx, IsReal (kA m c idx)) → (∀ idx, IsReal (vA m c idx)) → (∀ idx, IsReal (bA m c idx)) →
  ∀ (h : Fin 16) (i : Fin 2304) (d : Fin 64),
    o1A m c (ix3 h i d)
      = ∑ j : Fin 2304, Cert.Spec.softmaxRow (fun j' => Ideal.div (∑ dd : Fin 64, qA m c (ix3 h i dd) * kA m c (ix3 h j' dd)) ((8 : ℝ) : EReal) + bA m c (ix3 h i j')) j
          * vA m c (ix3 h j d)

theorem o1_eq (hAttn : AttnValueAt m c) (h : Fin 16) (i : Fin 2304) (d : Fin 64) :
    o1A m c (ix3 h i d) = Cert.Spec.attn (aQkv m c) (aBias m c) h i d := by
  have hq : ∀ idx, IsReal (qA m c idx) := fun idx => by
    obtain ⟨h, i, d, rfl⟩ : ∃ (h : Fin 16) (i : Fin 2304) (d : Fin 64), idx = ix3 h i d := ⟨idx 0, idx 1, idx 2, eq_ix3 idx⟩
    rw [q_eq]; exact isReal_qkv m c hf i _
  have hk : ∀ idx, IsReal (kA m c idx) := fun idx => by
    obtain ⟨h, i, d, rfl⟩ : ∃ (h : Fin 16) (i : Fin 2304) (d : Fin 64), idx = ix3 h i d := ⟨idx 0, idx 1, idx 2, eq_ix3 idx⟩
    rw [k_eq]; exact isReal_qkv m c hf i _
  have hv : ∀ idx, IsReal (vA m c idx) := fun idx => by
    obtain ⟨h, i, d, rfl⟩ : ∃ (h : Fin 16) (i : Fin 2304) (d : Fin 64), idx = ix3 h i d := ⟨idx 0, idx 1, idx 2, eq_ix3 idx⟩
    rw [v_eq]; exact isReal_qkv m c hf i _
  have hb : ∀ idx, IsReal (bA m c idx) := fun idx => by
    obtain ⟨h, i, j, rfl⟩ : ∃ (h : Fin 16) (i : Fin 2304) (j : Fin 2304), idx = ix3 h i j := ⟨idx 0, idx 1, idx 2, eq_ix3 idx⟩
    rw [b_eq m c hf]; exact isReal_bias m c hf h i j
  refine (hAttn hq hk hv hb h i d).trans ?_
  unfold Cert.Spec.attn
  refine Finset.sum_congr rfl fun j _ => ?_
  have hs : (fun j' => Ideal.div (∑ dd : Fin 64, qA m c (ix3 h i dd) * kA m c (ix3 h j' dd)) ((8 : ℝ) : EReal) + bA m c (ix3 h i j'))
      = Cert.Spec.scores (aQkv m c) (aBias m c) h i := by
    funext j'
    unfold Cert.Spec.scores
    rw [b_eq m c hf h i j']
    refine congrArg (fun s => Ideal.div s ((8 : ℝ) : EReal) + aBias m c h i j') ?_
    exact Finset.sum_congr rfl fun dd _ => by rw [q_eq m c h i dd, k_eq m c h j' dd]
  rw [hs, v_eq m c h j d]

/-! ## The last launch's output is the specification's result -/

theorem outsB_read (hAttn : AttnValueAt m c) (h : Fin 16) (i : Fin 2304) (d : Fin 64) :
    (outsB m 8 main_v34 c : S16x2304x64.Idx → EReal) (ix3 h i d) = Cert.Spec.attn (aQkv m c) (aBias m c) h i d := by
  rw [outsB_v34]; exact o1_eq m c hf hAttn h i d

theorem merged_eq (hAttn : AttnValueAt m c) (a : Fin 2304) (cc : Fin 1024) :
    (V9 m (outsB m) c main_v36 : S2304x1024.Idx → EReal) (ix2 a cc) = Cert.Spec.merged (aQkv m c) (aBias m c) a cc :=
  (Cert.KernelIdeal.HostLayout.merged_read m (outsB m) c a cc).trans (outsB_read m c hf hAttn _ a _)

/-- The kernel program's result, entry (i, j). -/
theorem o2_eq (hAttn : AttnValueAt m c) (i : Fin 2304) (j : Fin 1024) :
    o2A m c (ix2 i j)
      = Cert.Spec.result (aX m c) (aWqkv m c) (aBqkv m c) (aWproj m c) (aBproj m c) (aBias m c) i j :=
  (Cert.KernelIdeal.LinValue.lin2_value (rd (V9 m (outsB m))) c i j).trans
    (lin_congr (fun a k => merged_eq m c hf hAttn a k) (fun a k => Cert.KernelIdeal.HostLayout.wproj_read m (outsB m) c a k)
      (fun a => Cert.KernelIdeal.HostLayout.bproj_read m (outsB m) c a) i j)

end

end Cert.KernelIdeal.Final

end
-- ==== Proof.RefValue.lean ====
/-
  The reference program's result is the specification, entry by entry.

  The reference computes the attention layer one array operation at a time. Reading each operation at an index and
  following the chain back to the argument arrays gives, stage by stage: the packed projection  x·wᵀ + b ; its query,
  key and value parts by head, which are the columns p·1024 + h·64 + d of the packed projection; the scaled dot
  products; the position table, a two-layer perceptron on each coordinate row; the bias 16·σ of the table row the
  index array names for a pair (a negative index counted from the table's end, the row clamped into the table); the row
  maximum, the shifted exponentials, their sum and quotient, which is the row softmax; the softmax-weighted sum of the
  value rows; the heads merged back into model features; and the output projection. Each stage is one lemma over
  explicit coordinates; the last one states that entry (i, j) of the result is `Cert.Spec.result` of the arguments.
  No assumption on the arguments is needed: every identity here holds over the extended reals.
-/
import proofs.«423628_j37984690766439_2_alg».proof.Proof.Gen.ReferenceIdeal.Read
import proofs.«423628_j37984690766439_2_alg».proof.Proof.Spec
import Idealize.ShloMosaic.Lib.ValueIdx
import Idealize.ShloMosaic.Lib.Pipeline.Value
import Idealize.ShloMosaic.PureOps.Ideal.Laws
import Idealize.ShloMosaic.PureOps.Reduce
import Mathlib.Analysis.SpecialFunctions.Sqrt
import Mathlib.Algebra.BigOperators.Group.Finset.Basic

noncomputable section

namespace Cert.RefValue

open Cert.ReferenceIdeal Cert.ReferenceIdeal.Gen Cert.ReferenceIdeal.Read Idealize.ShloMosaic Idealize.ShloMosaic.ValueIdx
open scoped BigOperators

/-! ## The argument arrays by coordinates -/

/-- A rank-2 float array as a function of its two coordinates. -/
abbrev m2 {n0 n1 : Nat} (x : FVec Ideal ⟨2, ![n0, n1]⟩ .f32) : Fin n0 → Fin n1 → EReal := fun a b => x (ix2 a b)
/-- A rank-1 float array as a function of its coordinate. -/
abbrev m1 {n : Nat} (x : FVec Ideal ⟨1, ![n]⟩ .f32) : Fin n → EReal := fun a => x (ix1 a)

variable (x0 : FVec Ideal S2304x1024 .f32) (x1 : FVec Ideal S3072x1024 .f32) (x2 : FVec Ideal S3072 .f32)
  (x3 : FVec Ideal S1024x1024 .f32) (x4 : FVec Ideal S1024 .f32) (x5 : FVec Ideal S512x2 .f32) (x6 : FVec Ideal S512 .f32)
  (x7 : FVec Ideal S16x512 .f32) (x8 : FVec Ideal S9025x2 .f32) (x9 : IVec S5308416 32)

/-! ## The packed projection -/

/-- The packed projection at (i, c) is the affine map of row i of the input. -/
theorem qkv_apply (i : Fin 2304) (c : Fin 3072) :
    val_main_v4 (F := Ideal) x0 x1 x2 (ix2 i c) = Cert.Spec.lin (m2 x0) (m2 x1) (m1 x2) i c := by
  rw [val_main_v4_apply, val_main_v1_apply, val_main_v3_apply, val_main_v2_apply]
  unfold Cert.Spec.lin
  refine congrArg₂ (· + ·) (Finset.sum_congr rfl fun k _ => ?_) ?_
  · rw [val_main_v0_apply]
    exact congrArg₂ (· * ·)
      (congrArg x0 (funext fun a => by match a with | ⟨0, _⟩ => rfl | ⟨1, _⟩ => rfl))
      (congrArg x1 (funext fun a => by match a with | ⟨0, _⟩ => rfl | ⟨1, _⟩ => rfl))
  · exact congrArg x2 (funext fun a => by match a with | ⟨0, _⟩ => rfl)

/-! ## Query, key and value by head: columns of the packed projection -/

/-- The query of head h at (row i, feature d) is the packed projection's column `col 0 h d`. -/
theorem q_apply (h : Fin 16) (i : Fin 2304) (d : Fin 64) :
    val_main_v8 (F := Ideal) x0 x1 x2 (ix3 h i d) = val_main_v4 (F := Ideal) x0 x1 x2 (ix2 i (Cert.Spec.col 0 h d)) := by
  rw [val_main_v8_apply, val_main_v7_apply, val_main_v6_apply, val_main_v5_apply]
  refine congrArg _ (funext fun a => Fin.ext ?_)
  have hh := h.isLt; have hi := i.isLt; have hd := d.isLt
  have e1 : ((h.val * 2304 + i.val) * 64 + d.val) / 64 = h.val * 2304 + i.val := by omega
  have e2 : ((h.val * 2304 + i.val) * 64 + d.val) % 64 = d.val := by omega
  have e3 : ((h.val * 2304 + i.val) * 64 + d.val) / 147456 = h.val := by omega
  have e4 : (h.val * 2304 + i.val) % 2304 = i.val := by omega
  have e5 : h.val % 16 = h.val := by omega
  match a with
  | ⟨0, _⟩ =>
    show ((((((h.val * 2304 + i.val) * 64 + d.val) / 64 % 2304) * 3 + 0) * 16 + ((h.val * 2304 + i.val) * 64 + d.val) / 147456 % 16) * 64 + ((h.val * 2304 + i.val) * 64 + d.val) % 64) / 3072 = i.val
    rw [e1, e2, e3, e4, e5]; omega
  | ⟨1, _⟩ =>
    show ((((((h.val * 2304 + i.val) * 64 + d.val) / 64 % 2304) * 3 + 0) * 16 + ((h.val * 2304 + i.val) * 64 + d.val) / 147456 % 16) * 64 + ((h.val * 2304 + i.val) * 64 + d.val) % 64) % 3072 = 0 * 1024 + h.val * 64 + d.val
    rw [e1, e2, e3, e4, e5]; omega

/-- The key of head h at (row i, feature d) is the packed projection's column `col 1 h d`. -/
theorem k_apply (h : Fin 16) (i : Fin 2304) (d : Fin 64) :
    val_main_v10 (F := Ideal) x0 x1 x2 (ix3 h i d) = val_main_v4 (F := Ideal) x0 x1 x2 (ix2 i (Cert.Spec.col 1 h d)) := by
  rw [val_main_v10_apply, val_main_v9_apply, val_main_v6_apply, val_main_v5_apply]
  refine congrArg _ (funext fun a => Fin.ext ?_)
  have hh := h.isLt; have hi := i.isLt; have hd := d.isLt
  have e1 : ((h.val * 2304 + i.val) * 64 + d.val) / 64 = h.val * 2304 + i.val := by omega
  have e2 : ((h.val * 2304 + i.val) * 64 + d.val) % 64 = d.val := by omega
  have e3 : ((h.val * 2304 + i.val) * 64 + d.val) / 147456 = h.val := by omega
  have e4 : (h.val * 2304 + i.val) % 2304 = i.val := by omega
  have e5 : h.val % 16 = h.val := by omega
  match a with
  | ⟨0, _⟩ =>
    show ((((((h.val * 2304 + i.val) * 64 + d.val) / 64 % 2304) * 3 + 1 + 0) * 16 + ((h.val * 2304 + i.val) * 64 + d.val) / 147456 % 16) * 64 + ((h.val * 2304 + i.val) * 64 + d.val) % 64) / 3072 = i.val
    rw [e1, e2, e3, e4, e5]; omega
  | ⟨1, _⟩ =>
    show ((((((h.val * 2304 + i.val) * 64 + d.val) / 64 % 2304) * 3 + 1 + 0) * 16 + ((h.val * 2304 + i.val) * 64 + d.val) / 147456 % 16) * 64 + ((h.val * 2304 + i.val) * 64 + d.val) % 64) % 3072 = 1 * 1024 + h.val * 64 + d.val
    rw [e1, e2, e3, e4, e5]; omega

/-- The value of head h at (row i, feature d) is the packed projection's column `col 2 h d`. -/
theorem v_apply (h : Fin 16) (i : Fin 2304) (d : Fin 64) :
    val_main_v12 (F := Ideal) x0 x1 x2 (ix3 h i d) = val_main_v4 (F := Ideal) x0 x1 x2 (ix2 i (Cert.Spec.col 2 h d)) := by
  rw [val_main_v12_apply, val_main_v11_apply, val_main_v6_apply, val_main_v5_apply]
  refine congrArg _ (funext fun a => Fin.ext ?_)
  have hh := h.isLt; have hi := i.isLt; have hd := d.isLt
  have e1 : ((h.val * 2304 + i.val) * 64 + d.val) / 64 = h.val * 2304 + i.val := by omega
  have e2 : ((h.val * 2304 + i.val) * 64 + d.val) % 64 = d.val := by omega
  have e3 : ((h.val * 2304 + i.val) * 64 + d.val) / 147456 = h.val := by omega
  have e4 : (h.val * 2304 + i.val) % 2304 = i.val := by omega
  have e5 : h.val % 16 = h.val := by omega
  match a with
  | ⟨0, _⟩ =>
    show ((((((h.val * 2304 + i.val) * 64 + d.val) / 64 % 2304) * 3 + 2 + 0) * 16 + ((h.val * 2304 + i.val) * 64 + d.val) / 147456 % 16) * 64 + ((h.val * 2304 + i.val) * 64 + d.val) % 64) / 3072 = i.val
    rw [e1, e2, e3, e4, e5]; omega
  | ⟨1, _⟩ =>
    show ((((((h.val * 2304 + i.val) * 64 + d.val) / 64 % 2304) * 3 + 2 + 0) * 16 + ((h.val * 2304 + i.val) * 64 + d.val) / 147456 % 16) * 64 + ((h.val * 2304 + i.val) * 64 + d.val) % 64) % 3072 = 2 * 1024 + h.val * 64 + d.val
    rw [e1, e2, e3, e4, e5]; omega

/-! ## The scaled dot products -/

/-- The square root of the constant 64 is 8. -/
theorem sqrt64 : FloatOps.hostUnary (F := Ideal) (φ := .f32) .sqrt (FloatOps.ofBits .f32 0x42800000#32) = ((8 : ℝ) : EReal) := by
  have h64 : Ideal.ofBits .f32 0x42800000#32 = ((64 : ℝ) : EReal) := by
    simp [Ideal.ofBits, Ideal.ieee, -EReal.coe_mul]; norm_num
  rw [Ideal.hostUnary_sqrt_def, Ideal.ofBits_def, h64, Ideal.sqrt_coe, if_neg (by norm_num)]
  congr 1
  rw [show (64 : ℝ) = 8 ^ 2 by norm_num]
  exact Real.sqrt_sq (by norm_num)

/-- The scaled dot product of head h at (query i, key j). -/
theorem logits_apply (h : Fin 16) (i j : Fin 2304) :
    val_main_v16 (F := Ideal) x0 x1 x2 (ix3 h i j)
      = Ideal.div (∑ d : Fin 64, Cert.Spec.lin (m2 x0) (m2 x1) (m1 x2) i (Cert.Spec.col 0 h d)
          * Cert.Spec.lin (m2 x0) (m2 x1) (m1 x2) j (Cert.Spec.col 1 h d)) ((8 : ℝ) : EReal) := by
  rw [val_main_v16_apply, val_main_v13_apply, val_main_v15_apply, val_main_v14_apply, val_main_cst_apply, sqrt64,
    Ideal.hostDivf_def]
  refine congrArg (Ideal.div · _) (Finset.sum_congr rfl fun d _ => ?_)
  have e1 : lidx_main_v13 (ix3 h i j) d = ix3 h i d := (funext fun a => by match a with | ⟨0, _⟩ => rfl | ⟨1, _⟩ => rfl | ⟨2, _⟩ => rfl)
  have e2 : ridx_main_v13 (ix3 h i j) d = ix3 h j d := (funext fun a => by match a with | ⟨0, _⟩ => rfl | ⟨1, _⟩ => rfl | ⟨2, _⟩ => rfl)
  rw [e1, e2, q_apply, k_apply, qkv_apply, qkv_apply]

/-! ## The position table -/

/-- The table of the position-bias perceptron at (row r, head h). -/
theorem table_apply (r : Fin 9025) (h : Fin 16) :
    val_main_v24 (F := Ideal) x5 x6 x7 x8 (ix2 r h) = Cert.Spec.mlp (m2 x8) (m2 x5) (m1 x6) (m2 x7) r h := by
  rw [val_main_v24_apply]
  unfold Cert.Spec.mlp
  refine Finset.sum_congr rfl fun c _ => ?_
  rw [val_main_v22_apply, val_main_v21_apply, val_main_v18_apply, val_main_v20_apply, val_main_v19_apply,
    val_main_call0_v0_apply, val_main_call0_cst_apply, val_main_v23_apply, Ideal.maximumf_def, Ideal.addf_def,
    Ideal.ofBits_def, Ideal.ofBits_zero_f32]
  refine congrArg₂ (· * ·) (congrArg (max · 0) (congrArg₂ (· + ·) (Finset.sum_congr rfl fun a _ => ?_) ?_)) ?_
  · rw [val_main_v17_apply]
    exact congrArg₂ (· * ·) (congrArg x8 (funext fun a => by match a with | ⟨0, _⟩ => rfl | ⟨1, _⟩ => rfl)) (congrArg x5 (funext fun a => by match a with | ⟨0, _⟩ => rfl | ⟨1, _⟩ => rfl))
  · exact congrArg x6 (funext fun a => by match a with | ⟨0, _⟩ => rfl)
  · exact congrArg x7 (funext fun a => by match a with | ⟨0, _⟩ => rfl | ⟨1, _⟩ => rfl)

/-! ## The wrapped index and the gathered table rows -/

/-- The index word the gather reads for position p: negative values counted from the table's end. -/
theorem wrapped_apply (p : Fin 5308416) :
    val_main_v30 (F := Ideal) x9 (ix2 p (0 : Fin 1)) = Cert.Spec.wrapIdx (x9 (ix1 p)) := by
  rw [val_main_v30_apply, val_main_v29_apply, val_main_v26_apply, val_main_v28_apply, val_main_v25_apply,
    val_main_v27_apply, val_main_c_apply, val_main_c_0_apply]
  have e : idx_main_v30 (ix2 p (0 : Fin 1)) = ix1 p := (funext fun a => by match a with | ⟨0, _⟩ => rfl)
  rw [e]
  rfl

/-- The gather at (position p, head h) reads the table at the row the index word names, clamped into the table. -/
theorem gather_apply (p : Fin 5308416) (h : Fin 16) :
    val_main_v31 (F := Ideal) x5 x6 x7 x8 x9 (ix2 p h)
      = val_main_v24 (F := Ideal) x5 x6 x7 x8 (ix2 (Cert.Spec.rowOf (x9 (ix1 p))) h) := by
  unfold val_main_v31 Host.gather
  refine congrArg _ (funext fun a => Fin.ext ?_)
  match a with
  | ⟨0, _⟩ =>
    have hsi : gather_S9025x16_S5308416x1_S5308416x16_1_0_n_n_0_1_116.siIdx (ix2 p h) ⟨0, by decide⟩ = ix2 p (0 : Fin 1) := by
      funext b; refine Fin.ext ?_
      match b with
      | ⟨0, _⟩ => rfl
      | ⟨1, _⟩ => rfl
    show min (val_main_v30 (F := Ideal) x9 (gather_S9025x16_S5308416x1_S5308416x16_1_0_n_n_0_1_116.siIdx (ix2 p h) ⟨0, by decide⟩)).toInt.toNat (9025 - 1) + 0 + 0 = _
    rw [hsi, wrapped_apply]
    rfl
  | ⟨1, _⟩ =>
    show gather_S9025x16_S5308416x1_S5308416x16_1_0_n_n_0_1_116.start (ix2 p h) (val_main_v30 (F := Ideal) x9) 1 + gather_S9025x16_S5308416x1_S5308416x16_1_0_n_n_0_1_116.batchCoord (ix2 p h) 1 + gather_S9025x16_S5308416x1_S5308416x16_1_0_n_n_0_1_116.offCoord (ix2 p h) 1 = h.val
    rw [GatherDims.batchCoord_eq_zero _ _ _ (show (1 : Fin 2) ∉ gather_S9025x16_S5308416x1_S5308416x16_1_0_n_n_0_1_116.operandBatchingDims from List.not_mem_nil)]
    unfold GatherDims.start
    rw [dif_neg (show ¬ (1 : Fin 2) ∈ gather_S9025x16_S5308416x1_S5308416x16_1_0_n_n_0_1_116.startIndexMap by decide)]
    unfold GatherDims.offCoord
    rw [dif_pos (show (1 : Fin 2) ∈ gather_S9025x16_S5308416x1_S5308416x16_1_0_n_n_0_1_116.sKept by decide)]
    have key : ∀ (n : Nat) (hn : n < gather_S9025x16_S5308416x1_S5308416x16_1_0_n_n_0_1_116.offsetDims.length), n = 0 →
        (ix2 p h gather_S9025x16_S5308416x1_S5308416x16_1_0_n_n_0_1_116.offsetDims[n]).val = h.val := by
      intro n hn e; subst e; rfl
    rw [Nat.zero_add]
    exact key _ _ (by decide)

/-! ## The position bias -/

/-- The constant 16. -/
theorem ofBits_sixteen : Ideal.ofBits .f32 0x41800000#32 = (16 : EReal) := by
  have h : Ideal.ofBits .f32 0x41800000#32 = ((16 : ℝ) : EReal) := by
    simp [Ideal.ofBits, Ideal.ieee, -EReal.coe_mul]; norm_num
  rw [h]; norm_cast

/-- The constant 1. -/
theorem ofBits_one : Ideal.ofBits .f32 0x3F800000#32 = (1 : EReal) := by
  simp [Ideal.ofBits, Ideal.ieee, -EReal.coe_mul]; norm_num

/-- The additive bias of head h at (query i, key j): 16·σ of the table row named for the pair. -/
theorem bias_apply (h : Fin 16) (i j : Fin 2304) :
    val_main_v41 (F := Ideal) x5 x6 x7 x8 x9 (ix3 h i j)
      = Cert.Spec.biasOf (Cert.Spec.mlp (m2 x8) (m2 x5) (m1 x6) (m2 x7)) (fun p => x9 (ix1 p)) h i j := by
  rw [val_main_v41_apply, val_main_v40_apply, val_main_cst_3_apply, val_main_v39_apply, val_main_v38_apply,
    val_main_cst_2_apply, val_main_v37_apply, val_main_v36_apply, val_main_cst_1_apply, val_main_v35_apply,
    val_main_v34_apply, val_main_v33_apply, val_main_v32_apply]
  have e : idx_main_v32 (idx_main_v33 (ix3 h i j)) = ix2 (Cert.Spec.pairPos i j) h := by
    funext a; refine Fin.ext ?_
    have hh := h.isLt; have hi := i.isLt; have hj := j.isLt
    match a with
    | ⟨0, _⟩ => show ((i.val * 2304 + j.val) * 16 + h.val) / 16 = i.val * 2304 + j.val; omega
    | ⟨1, _⟩ => show ((i.val * 2304 + j.val) * 16 + h.val) % 16 = h.val; omega
  rw [e, gather_apply, table_apply, Ideal.mulf_def, Ideal.hostDivf_def, Ideal.addf_def, Ideal.hostUnary_exp_def,
    Ideal.hostNegf_def, Ideal.negf_def, Ideal.ofBits_def, Ideal.ofBits_def, ofBits_sixteen, ofBits_one]
  rfl

/-! ## The attention logits and their row softmax -/

/-- The attention logits of head h at (query i, key j): scaled dot product plus bias. -/
theorem scores_apply (h : Fin 16) (i j : Fin 2304) :
    val_main_v42 (F := Ideal) x0 x1 x2 x5 x6 x7 x8 x9 (ix3 h i j) = Cert.Spec.scores (Cert.Spec.lin (m2 x0) (m2 x1) (m1 x2)) (Cert.Spec.biasOf (Cert.Spec.mlp (m2 x8) (m2 x5) (m1 x6) (m2 x7)) (fun p => x9 (ix1 p))) h i j := by
  rw [val_main_v42_apply, logits_apply, bias_apply]
  rfl

/-- The word of minus infinity. -/
theorem ofBits_neg_inf : Ideal.ofBits .f32 0xFF800000#32 = (⊥ : EReal) := by simp [Ideal.ofBits, Ideal.ieee]

/-- The row maximum of head h at query i: the fold of the maximum from −∞ over the keys. -/
theorem rowmax_apply (h : Fin 16) (i : Fin 2304) :
    val_main_v45 (F := Ideal) x0 x1 x2 x5 x6 x7 x8 x9 (ix2 h i) = Cert.Spec.rowMax (Cert.Spec.scores (Cert.Spec.lin (m2 x0) (m2 x1) (m1 x2)) (Cert.Spec.biasOf (Cert.Spec.mlp (m2 x8) (m2 x5) (m1 x6) (m2 x7)) (fun p => x9 (ix1 p))) h i) := by
  have hR : S16x2304x2304.Reduces [2] S16x2304 := by decide
  have hlift : ∀ k : Fin (S16x2304x2304.size 2), hR.lift (ix2 h i) k = ix3 h i (⟨k.val, k.isLt⟩ : Fin 2304) := by
    intro k; funext c; apply Fin.ext
    match c with
    | ⟨0, _⟩ => rfl
    | ⟨1, _⟩ => rfl
    | ⟨2, _⟩ => rfl
  rw [val_main_v45_apply, val_main_v44_apply, val_main_cst_5_apply, Ideal.maximumf_def, Ideal.ofBits_def, ofBits_neg_inf,
    max_bot_left]
  unfold val_main_v43
  rw [Host.reduce_eq_fold_single FloatOps.maximumf _ _ reducesTo_S16x2304x2304_S16x2304_d2 hR h_S_]
  have hf : (val_main_v42 (F := Ideal) x0 x1 x2 x5 x6 x7 x8 x9 ∘ hR.lift (ix2 h i))
      = fun k : Fin 2304 => Cert.Spec.scores (Cert.Spec.lin (m2 x0) (m2 x1) (m1 x2)) (Cert.Spec.biasOf (Cert.Spec.mlp (m2 x8) (m2 x5) (m1 x6) (m2 x7)) (fun p => x9 (ix1 p))) h i k := by
    funext k
    show val_main_v42 (F := Ideal) x0 x1 x2 x5 x6 x7 x8 x9 (hR.lift (ix2 h i) k) = _
    rw [hlift k, scores_apply]
    rfl
  rw [hf, val_main_cst_4_apply, Ideal.ofBits_def, ofBits_neg_inf]
  rfl

/-- The shifted exponential of a logit. -/
theorem expo_apply (h : Fin 16) (i j : Fin 2304) :
    val_main_v49 (F := Ideal) x0 x1 x2 x5 x6 x7 x8 x9 (ix3 h i j)
      = Ideal.exp (Cert.Spec.scores (Cert.Spec.lin (m2 x0) (m2 x1) (m1 x2)) (Cert.Spec.biasOf (Cert.Spec.mlp (m2 x8) (m2 x5) (m1 x6) (m2 x7)) (fun p => x9 (ix1 p))) h i j - Cert.Spec.rowMax (Cert.Spec.scores (Cert.Spec.lin (m2 x0) (m2 x1) (m1 x2)) (Cert.Spec.biasOf (Cert.Spec.mlp (m2 x8) (m2 x5) (m1 x6) (m2 x7)) (fun p => x9 (ix1 p))) h i)) := by
  rw [val_main_v49_apply, val_main_v48_apply, val_main_v47_apply, val_main_v46_apply, scores_apply]
  have e : idx_main_v46 (idx_main_v47 (ix3 h i j)) = ix2 h i := (funext fun a => by match a with | ⟨0, _⟩ => rfl | ⟨1, _⟩ => rfl)
  rw [e, rowmax_apply, Ideal.hostUnary_exp_def, Ideal.subf_def]

/-- The softmax denominator of head h at query i. -/
theorem denom_apply (h : Fin 16) (i : Fin 2304) :
    val_main_v50 (F := Ideal) x0 x1 x2 x5 x6 x7 x8 x9 (ix2 h i)
      = ∑ j : Fin 2304, Ideal.exp (Cert.Spec.scores (Cert.Spec.lin (m2 x0) (m2 x1) (m1 x2)) (Cert.Spec.biasOf (Cert.Spec.mlp (m2 x8) (m2 x5) (m1 x6) (m2 x7)) (fun p => x9 (ix1 p))) h i j - Cert.Spec.rowMax (Cert.Spec.scores (Cert.Spec.lin (m2 x0) (m2 x1) (m1 x2)) (Cert.Spec.biasOf (Cert.Spec.mlp (m2 x8) (m2 x5) (m1 x6) (m2 x7)) (fun p => x9 (ix1 p))) h i)) := by
  rw [val_main_v50_apply, val_main_cst_6_apply, Ideal.ofBits_def, Ideal.ofBits_zero_f32, zero_add]
  refine Finset.sum_congr rfl fun k _ => ?_
  have e : idx_main_v50 (ix2 h i) k = ix3 h i k := (funext fun a => by match a with | ⟨0, _⟩ => rfl | ⟨1, _⟩ => rfl | ⟨2, _⟩ => rfl)
  rw [e, expo_apply]

/-- The softmax weight of head h at (query i, key j). -/
theorem softmax_apply (h : Fin 16) (i j : Fin 2304) :
    val_main_v53 (F := Ideal) x0 x1 x2 x5 x6 x7 x8 x9 (ix3 h i j) = Cert.Spec.softmaxRow (Cert.Spec.scores (Cert.Spec.lin (m2 x0) (m2 x1) (m1 x2)) (Cert.Spec.biasOf (Cert.Spec.mlp (m2 x8) (m2 x5) (m1 x6) (m2 x7)) (fun p => x9 (ix1 p))) h i) j := by
  rw [val_main_v53_apply, val_main_v52_apply, val_main_v51_apply, expo_apply]
  have e : idx_main_v51 (idx_main_v52 (ix3 h i j)) = ix2 h i := (funext fun a => by match a with | ⟨0, _⟩ => rfl | ⟨1, _⟩ => rfl)
  rw [e, denom_apply, Ideal.hostDivf_def]
  rfl

/-! ## Attention, the merged heads, the output projection -/

/-- Attention of head h at (query i, feature d): the softmax-weighted sum of the value rows. -/
theorem attn_apply (h : Fin 16) (i : Fin 2304) (d : Fin 64) :
    val_main_v54 (F := Ideal) x0 x1 x2 x5 x6 x7 x8 x9 (ix3 h i d) = Cert.Spec.attn (Cert.Spec.lin (m2 x0) (m2 x1) (m1 x2)) (Cert.Spec.biasOf (Cert.Spec.mlp (m2 x8) (m2 x5) (m1 x6) (m2 x7)) (fun p => x9 (ix1 p))) h i d := by
  rw [val_main_v54_apply]
  unfold Cert.Spec.attn
  refine Finset.sum_congr rfl fun j _ => ?_
  have e1 : lidx_main_v54 (ix3 h i d) j = ix3 h i j := (funext fun a => by match a with | ⟨0, _⟩ => rfl | ⟨1, _⟩ => rfl | ⟨2, _⟩ => rfl)
  have e2 : ridx_main_v54 (ix3 h i d) j = ix3 h j d := (funext fun a => by match a with | ⟨0, _⟩ => rfl | ⟨1, _⟩ => rfl | ⟨2, _⟩ => rfl)
  rw [e1, e2, softmax_apply, v_apply, qkv_apply]

/-- The heads merged back into model features: column c holds head c / 64, feature c % 64. -/
theorem merged_apply (i : Fin 2304) (c : Fin 1024) :
    val_main_v56 (F := Ideal) x0 x1 x2 x5 x6 x7 x8 x9 (ix2 i c) = Cert.Spec.merged (Cert.Spec.lin (m2 x0) (m2 x1) (m1 x2)) (Cert.Spec.biasOf (Cert.Spec.mlp (m2 x8) (m2 x5) (m1 x6) (m2 x7)) (fun p => x9 (ix1 p))) i c := by
  rw [val_main_v56_apply, val_main_v55_apply]
  have e : idx_main_v55 (idx_main_v56 (ix2 i c)) = ix3 (Cert.Spec.headOf c) i (Cert.Spec.featOf c) := by
    funext a; refine Fin.ext ?_
    have hi := i.isLt; have hc := c.isLt
    match a with
    | ⟨0, _⟩ => show (i.val * 1024 + c.val) / 64 % 16 = c.val / 64; omega
    | ⟨1, _⟩ => show (i.val * 1024 + c.val) / 1024 = i.val; omega
    | ⟨2, _⟩ => show (i.val * 1024 + c.val) % 64 = c.val % 64; omega
  rw [e, attn_apply]
  rfl

/-- THE REFERENCE'S RESULT at (row i, column j) is the specification of the argument arrays. -/
theorem ref_value (i : Fin 2304) (j : Fin 1024) :
    val_main_v61 (F := Ideal) x0 x1 x2 x3 x4 x5 x6 x7 x8 x9 (ix2 i j)
      = Cert.Spec.result (fun a b => x0 (ix2 a b)) (fun a b => x1 (ix2 a b)) (fun a => x2 (ix1 a))
          (fun a b => x3 (ix2 a b)) (fun a => x4 (ix1 a))
          (Cert.Spec.biasOf (Cert.Spec.mlp (fun a b => x8 (ix2 a b)) (fun a b => x5 (ix2 a b)) (fun a => x6 (ix1 a)) (fun a b => x7 (ix2 a b)))
             (fun p => x9 (ix1 p))) i j := by
  rw [val_main_v61_apply, val_main_v58_apply, val_main_v60_apply, val_main_v59_apply]
  show _ = Cert.Spec.lin (Cert.Spec.merged (Cert.Spec.lin (m2 x0) (m2 x1) (m1 x2)) (Cert.Spec.biasOf (Cert.Spec.mlp (m2 x8) (m2 x5) (m1 x6) (m2 x7)) (fun p => x9 (ix1 p)))) (m2 x3) (m1 x4) i j
  unfold Cert.Spec.lin
  refine congrArg₂ (· + ·) (Finset.sum_congr rfl fun k _ => ?_) ?_
  · rw [val_main_v57_apply]
    have e1 : lidx_main_v58 (ix2 i j) k = ix2 i k := (funext fun a => by match a with | ⟨0, _⟩ => rfl | ⟨1, _⟩ => rfl)
    rw [e1, merged_apply]
    exact congrArg (_ * ·) (congrArg x3 (funext fun a => by match a with | ⟨0, _⟩ => rfl | ⟨1, _⟩ => rfl))
  · exact congrArg x4 (funext fun a => by match a with | ⟨0, _⟩ => rfl)

end Cert.RefValue

end
-- ==== Proof.PreFacts.lean ====
/-
  The printed precondition read back as pointwise facts. The predicate is a conjunction of ten "all" statements, each a
  fold of "and" from 1 over an array of one-bit words; the whole is 1 exactly when every fold is 1, and a fold is 1
  exactly when every word folded is 1. For each of the nine real arrays the word at an index says |x| < +∞ with
  |x| = max x (−x), which makes x a finite real; for the index array the word at a position is the conjunction
  0 ≤ w' ∧ w' ≤ 9024 (signed) of the wrapped index w' (a negative index counted from the end of the 9025-row table),
  which is the statement that the wrapped index lies in the table.
-/
import proofs.«423628_j37984690766439_2_alg».proof.Pre_finite_inputs
import proofs.«423628_j37984690766439_2_alg».proof.Proof.Spec
import proofs.«423628_j37984690766439_2_alg».proof.Proof.LibReal
import Idealize.ShloMosaic.Lib.ReduceAll
import Idealize.ShloMosaic.Lib.ValueIdx
import Idealize.ShloMosaic.Lib.Affine
import Idealize.ShloMosaic.PureOps.Ideal.Laws

noncomputable section

namespace Cert.PreFacts

open Idealize.ShloMosaic Idealize.ShloMosaic.ValueIdx

/-- The scalar shape has one index. -/
instance subsingleton_scalar_idx : Subsingleton (⟨0, ![]⟩ : Shape).Idx :=
  ⟨fun a b => funext fun d => d.elim0⟩

/-- A one-bit word made from a truth value is 1 exactly when the truth value is true. -/
theorem ofBool_eq_one {b : Bool} : BitVec.ofBool b = 1#1 ↔ b = true := by cases b <;> decide

/-- The ordered comparison "less than" of two extended reals gives 1 exactly when the first is below the second. -/
theorem cmp_olt_eq_one {a b : EReal} (h : Ideal.cmp .olt a b = 1#1) : a < b := by
  unfold Ideal.cmp at h
  exact of_decide_eq_true (ofBool_eq_one.1 h)

/-- A real array all of whose entries have absolute value below +∞ (the fold of "and" over the comparisons is 1)
    consists of finite reals. -/
theorem finite_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ix0 = 1#1) :
    ∀ i, Cert.LibReal.IsReal (x i) := by
  intro i
  have h1 := Host.reduce_andi_all _ _ hr h0 _ e i
  have h2 : Ideal.cmp .olt (max (x i) (-(x i))) (Ideal.ofBits .f32 0x7F800000#32) = 1#1 := h1
  rw [Cert.LibReal.ofBits_pos_inf] at h2
  exact Cert.LibReal.isReal_of_abs_lt_top (cmp_olt_eq_one h2)

/-- An index array every entry of which, wrapped, passes both signed bounds (the fold of "and" over the conjunctions
    of the two comparisons is 1) has every wrapped entry inside the table. -/
theorem inTable_of_all {s : Shape} {axes : List (Fin s.rank)} (x : IVec s 32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (andi
            (cmpi .sge
              (select (cmpi .slt x (broadcastInDim s ![] hb (constantI (⟨0, ![]⟩ : Shape) 32 0#32)))
                (addi x (broadcastInDim s ![] hb (constantI (⟨0, ![]⟩ : Shape) 32 9025#32))) x)
              (broadcastInDim s ![] hb (constantI (⟨0, ![]⟩ : Shape) 32 0#32)))
            (cmpi .sle
              (select (cmpi .slt x (broadcastInDim s ![] hb (constantI (⟨0, ![]⟩ : Shape) 32 0#32)))
                (addi x (broadcastInDim s ![] hb (constantI (⟨0, ![]⟩ : Shape) 32 9025#32))) x)
              (broadcastInDim s ![] hb (constantI (⟨0, ![]⟩ : Shape) 32 9024#32))))
          (constantI (⟨0, ![]⟩ : Shape) 1 1#1) hr h0 ix0 = 1#1) :
    ∀ p, Cert.Spec.InTable (x p) := by
  intro p
  have h1 := Host.reduce_andi_all _ _ hr h0 _ e p
  exact IntOp.andi_eq_one.1 h1

open Cert.Pre_finite_inputs in
/-- THE PRECONDITION DECODED: every entry of the nine real arrays is a finite real, and every entry of the index
    array, wrapped, lies inside the 9025-row table. -/
theorem pre_facts [Cert.Pre_finite_inputs.Facts]
    (x0 : FVec Ideal Cert.Pre_finite_inputs.S2304x1024 .f32) (x1 : FVec Ideal Cert.Pre_finite_inputs.S3072x1024 .f32)
    (x2 : FVec Ideal Cert.Pre_finite_inputs.S3072 .f32) (x3 : FVec Ideal Cert.Pre_finite_inputs.S1024x1024 .f32)
    (x4 : FVec Ideal Cert.Pre_finite_inputs.S1024 .f32) (x5 : FVec Ideal Cert.Pre_finite_inputs.S512x2 .f32)
    (x6 : FVec Ideal Cert.Pre_finite_inputs.S512 .f32) (x7 : FVec Ideal Cert.Pre_finite_inputs.S16x512 .f32)
    (x8 : FVec Ideal Cert.Pre_finite_inputs.S9025x2 .f32) (x9 : IVec Cert.Pre_finite_inputs.S5308416 32)
    (h : Cert.Pre_finite_inputs.fn (F := Ideal) x0 x1 x2 x3 x4 x5 x6 x7 x8 x9 = fun _ => 1#1) :
    (∀ i, Cert.LibReal.IsReal (x0 i)) ∧ (∀ i, Cert.LibReal.IsReal (x1 i)) ∧ (∀ i, Cert.LibReal.IsReal (x2 i))
    ∧ (∀ i, Cert.LibReal.IsReal (x3 i)) ∧ (∀ i, Cert.LibReal.IsReal (x4 i)) ∧ (∀ i, Cert.LibReal.IsReal (x5 i))
    ∧ (∀ i, Cert.LibReal.IsReal (x6 i)) ∧ (∀ i, Cert.LibReal.IsReal (x7 i)) ∧ (∀ i, Cert.LibReal.IsReal (x8 i))
    ∧ (∀ p, Cert.Spec.InTable (x9 p)) := by
  have e := congrFun h ix0
  dsimp only [fn, fn_part1, fn_part2, fn_part3] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨finite_of_all x0 _ _ _ e0, finite_of_all x1 _ _ _ e1, finite_of_all x2 _ _ _ e2,
    finite_of_all x3 _ _ _ e3, finite_of_all x4 _ _ _ e4, finite_of_all x5 _ _ _ e5,
    finite_of_all x6 _ _ _ e6, finite_of_all x7 _ _ _ e7, finite_of_all x8 _ _ _ e8,
    inTable_of_all x9 _ _ _ e9⟩

end Cert.PreFacts

end
-- ==== Proof.KI_AttnPay.lean ====
/-
  The arithmetic of one grid point of the attention launch, read at an index at the extended reals.
  A point takes the head's query block q (2304 rows of 64 features), the tile's key block k and value block v (384 rows
  of 64 features each), the tile's bias block b (2304 × 384), and the three running buffers: the row maximum M, the
  denominator L (both 2304 × 1) and the numerator A (2304 × 64). With the tile's logits
      s r lane = (∑ dd, q r dd · k lane dd) / 8 + b r lane
  the point leaves, at row r and feature d,
      M' r = max (M r) (max over the lanes of s r lane),
      L' r = e^(M r − M' r) · L r + ∑ lane, e^(s r lane − M' r),
      A' r d = e^(M r − M' r) · A r d + ∑ lane, e^(s r lane − M' r) · v lane d:
  one step of the running softmax of the specification, rowwise. At a head's last tile the stored output is A' r d / L' r;
  at a head's first tile the buffers are first reset to −∞, 0, 0.
-/
import proofs.«423628_j37984690766439_2_alg».proof.Proof.Gen.KernelIdeal.Skeleton
import proofs.«423628_j37984690766439_2_alg».proof.Proof.Spec
import proofs.«423628_j37984690766439_2_alg».proof.Proof.LibReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open scoped BigOperators

/-! ## Column forms: a vector as a one-column matrix, a one-column matrix spread over the columns -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products -/

theorem lhs_qk_0 (i : S2304x384.Idx) (q : dot_S2304x64_S64x384_S2304x384_1_0_0_1_n_n.contr.Idx) :
    (dot_S2304x64_S64x384_S2304x384_1_0_0_1_n_n.lhsIdx i q 0).val = (i 0).val := by
  unfold DotDims.lhsIdx
  rw [dif_neg (show ¬(0 : Fin S2304x64.rank) ∈ dot_S2304x64_S64x384_S2304x384_1_0_0_1_n_n.lhsBatch by decide), dif_pos (show (0 : Fin S2304x64.rank) ∈ dot_S2304x64_S64x384_S2304x384_1_0_0_1_n_n.lhsNonContracting by decide)]
  rfl
theorem lhs_qk_1 (i : S2304x384.Idx) (q : dot_S2304x64_S64x384_S2304x384_1_0_0_1_n_n.contr.Idx) :
    (dot_S2304x64_S64x384_S2304x384_1_0_0_1_n_n.lhsIdx i q 1).val = (q ⟨0, by decide⟩).val :=
  dot_S2304x64_S64x384_S2304x384_1_0_0_1_n_n.lhsIdx_val_of_single rfl i q
theorem rhs_qk_0 (i : S2304x384.Idx) (q : dot_S2304x64_S64x384_S2304x384_1_0_0_1_n_n.contr.Idx) :
    (dot_S2304x64_S64x384_S2304x384_1_0_0_1_n_n.rhsIdx i q 0).val = (q ⟨0, by decide⟩).val :=
  dot_S2304x64_S64x384_S2304x384_1_0_0_1_n_n.rhsIdx_val_of_single rfl i q
theorem rhs_qk_1 (i : S2304x384.Idx) (q : dot_S2304x64_S64x384_S2304x384_1_0_0_1_n_n.contr.Idx) :
    (dot_S2304x64_S64x384_S2304x384_1_0_0_1_n_n.rhsIdx i q 1).val = (i 1).val := by
  unfold DotDims.rhsIdx
  rw [dif_neg (show ¬(1 : Fin S64x384.rank) ∈ dot_S2304x64_S64x384_S2304x384_1_0_0_1_n_n.rhsBatch by decide), dif_pos (show (1 : Fin S64x384.rank) ∈ dot_S2304x64_S64x384_S2304x384_1_0_0_1_n_n.rhsNonContracting by decide)]
  rfl

/-- The product of a 2304×64 block with a 64×384 block into the zero accumulator, entry (p, q). -/
theorem mmQK_apply (l : FVec Ideal S2304x64 .bf16) (r : FVec Ideal S64x384 .bf16) (p : Fin 2304) (q : Fin 384) :
    matmul (F := Ideal) dot_S2304x64_S64x384_S2304x384_1_0_0_1_n_n none l r (constant S2304x384 .f32 0x00000000#32) (ix2 p q)
      = ∑ k : Fin 64, l (ix2 p k) * r (ix2 k q) := by
  unfold matmul
  rw [Ideal.matmul_constant_zero_apply, ← Equiv.sum_comp (contrEquiv1 dot_S2304x64_S64x384_S2304x384_1_0_0_1_n_n 64 rfl rfl).symm]
  refine Finset.sum_congr rfl fun k _ => ?_
  have hk := contrEquiv1_symm_val dot_S2304x64_S64x384_S2304x384_1_0_0_1_n_n 64 rfl rfl k
  have el : dot_S2304x64_S64x384_S2304x384_1_0_0_1_n_n.lhsIdx (ix2 p q) ((contrEquiv1 dot_S2304x64_S64x384_S2304x384_1_0_0_1_n_n 64 rfl rfl).symm k) = ix2 p k := funext fun a => Fin.ext (by
    match a with
    | ⟨0, _⟩ => exact lhs_qk_0 _ _
    | ⟨1, _⟩ => exact (lhs_qk_1 _ _).trans hk)
  have er : dot_S2304x64_S64x384_S2304x384_1_0_0_1_n_n.rhsIdx (ix2 p q) ((contrEquiv1 dot_S2304x64_S64x384_S2304x384_1_0_0_1_n_n 64 rfl rfl).symm k) = ix2 k q := funext fun a => Fin.ext (by
    match a with
    | ⟨0, _⟩ => exact (rhs_qk_0 _ _).trans hk
    | ⟨1, _⟩ => exact rhs_qk_1 _ _)
  rw [el, er]

theorem lhs_pv_0 (i : S2304x64.Idx) (q : dot_S2304x384_S384x64_S2304x64_1_0_0_1_n_n.contr.Idx) :
    (dot_S2304x384_S384x64_S2304x64_1_0_0_1_n_n.lhsIdx i q 0).val = (i 0).val := by
  unfold DotDims.lhsIdx
  rw [dif_neg (show ¬(0 : Fin S2304x384.rank) ∈ dot_S2304x384_S384x64_S2304x64_1_0_0_1_n_n.lhsBatch by decide), dif_pos (show (0 : Fin S2304x384.rank) ∈ dot_S2304x384_S384x64_S2304x64_1_0_0_1_n_n.lhsNonContracting by decide)]
  rfl
theorem lhs_pv_1 (i : S2304x64.Idx) (q : dot_S2304x384_S384x64_S2304x64_1_0_0_1_n_n.contr.Idx) :
    (dot_S2304x384_S384x64_S2304x64_1_0_0_1_n_n.lhsIdx i q 1).val = (q ⟨0, by decide⟩).val :=
  dot_S2304x384_S384x64_S2304x64_1_0_0_1_n_n.lhsIdx_val_of_single rfl i q
theorem rhs_pv_0 (i : S2304x64.Idx) (q : dot_S2304x384_S384x64_S2304x64_1_0_0_1_n_n.contr.Idx) :
    (dot_S2304x384_S384x64_S2304x64_1_0_0_1_n_n.rhsIdx i q 0).val = (q ⟨0, by decide⟩).val :=
  dot_S2304x384_S384x64_S2304x64_1_0_0_1_n_n.rhsIdx_val_of_single rfl i q
theorem rhs_pv_1 (i : S2304x64.Idx) (q : dot_S2304x384_S384x64_S2304x64_1_0_0_1_n_n.contr.Idx) :
    (dot_S2304x384_S384x64_S2304x64_1_0_0_1_n_n.rhsIdx i q 1).val = (i 1).val := by
  unfold DotDims.rhsIdx
  rw [dif_neg (show ¬(1 : Fin S384x64.rank) ∈ dot_S2304x384_S384x64_S2304x64_1_0_0_1_n_n.rhsBatch by decide), dif_pos (show (1 : Fin S384x64.rank) ∈ dot_S2304x384_S384x64_S2304x64_1_0_0_1_n_n.rhsNonContracting by decide)]
  rfl

/-- The product of a 2304×384 block with a 384×64 block into the zero accumulator, entry (p, q). -/
theorem mmPV_apply (l : FVec Ideal S2304x384 .bf16) (r : FVec Ideal S384x64 .bf16) (p : Fin 2304) (q : Fin 64) :
    matmul (F := Ideal) dot_S2304x384_S384x64_S2304x64_1_0_0_1_n_n none l r (constant S2304x64 .f32 0x00000000#32) (ix2 p q)
      = ∑ k : Fin 384, l (ix2 p k) * r (ix2 k q) := by
  unfold matmul
  rw [Ideal.matmul_constant_zero_apply, ← Equiv.sum_comp (contrEquiv1 dot_S2304x384_S384x64_S2304x64_1_0_0_1_n_n 384 rfl rfl).symm]
  refine Finset.sum_congr rfl fun k _ => ?_
  have hk := contrEquiv1_symm_val dot_S2304x384_S384x64_S2304x64_1_0_0_1_n_n 384 rfl rfl k
  have el : dot_S2304x384_S384x64_S2304x64_1_0_0_1_n_n.lhsIdx (ix2 p q) ((contrEquiv1 dot_S2304x384_S384x64_S2304x64_1_0_0_1_n_n 384 rfl rfl).symm k) = ix2 p k := funext fun a => Fin.ext (by
    match a with
    | ⟨0, _⟩ => exact lhs_pv_0 _ _
    | ⟨1, _⟩ => exact (lhs_pv_1 _ _).trans hk)
  have er : dot_S2304x384_S384x64_S2304x64_1_0_0_1_n_n.rhsIdx (ix2 p q) ((contrEquiv1 dot_S2304x384_S384x64_S2304x64_1_0_0_1_n_n 384 rfl rfl).symm k) = ix2 k q := funext fun a => Fin.ext (by
    match a with
    | ⟨0, _⟩ => exact (rhs_pv_0 _ _).trans hk
    | ⟨1, _⟩ => exact rhs_pv_1 _ _)
  rw [el, er]

/-! ## The tile's logits -/

/-- The scale 0.125 is one eighth. -/
theorem ofBits_eighth : Ideal.ofBits .f32 0x3E000000#32 = (((1 / 8 : ℝ)) : EReal) := by
  simp [Ideal.ofBits, Ideal.ieee, -EReal.coe_mul]; norm_num

/-- The logits of a tile at row r, lane c: the query row against the key row over the 64 features, divided by 8, plus the bias. -/
def logit (x0 : Vec Ideal S1x2304x64 .bf16) (x1 : Vec Ideal S1x384x64 .bf16) (x3 : Vec Ideal S1x2304x384 .f32)
    (r : Fin 2304) (c : Fin 384) : EReal :=
  Ideal.div (∑ dd : Fin 64, x0 (ix3 (0 : Fin 1) r dd) * x1 (ix3 (0 : Fin 1) c dd)) ((8 : ℝ) : EReal) + x3 (ix3 (0 : Fin 1) r c)

theorem pay9_apply (x0 : Vec Ideal S1x2304x64 .bf16) (x1 : Vec Ideal S1x384x64 .bf16) (x3 : Vec Ideal S1x2304x384 .f32)
    (r : Fin 2304) (c : Fin 384) :
    k1_pay9 (F := Ideal) x0 x1 x3 (ix2 r c) = logit x0 x1 x3 r c := by
  unfold k1_pay9 logit
  rw [addf_apply, mulf_apply, broadcast_apply, mmQK_apply, shapeCast_1ab_ab_apply]
  refine congrArg (· + x3 (ix3 (0 : Fin 1) r c)) ?_
  rw [Ideal.div_coe (by norm_num : (8 : ℝ) ≠ 0)]
  refine congrArg₂ (· * ·) (Finset.sum_congr rfl fun k _ => ?_) ofBits_eighth
  refine congrArg₂ (· * ·) (shapeCast_1ab_ab_apply x0 shapeCasts_S1x2304x64_S2304x64 r k) ?_
  exact (transpose_ix2_apply _ transposes_S384x64_p1_0_S64x384 k c).trans (shapeCast_1ab_ab_apply x1 shapeCasts_S1x384x64_S384x64 c k)

/-! ## The running buffers after the point -/

/-- The row maximum of the tile's logits at row r, folded from −∞. -/
theorem rowmax_apply (x0 : Vec Ideal S1x2304x64 .bf16) (x1 : Vec Ideal S1x384x64 .bf16) (x3 : Vec Ideal S1x2304x384 .f32)
    (r : Fin 2304) (u : Fin 1) :
    shapeCast S2304x1 (multiReduction (F := Ideal) .maximumf [1] S2304 (k1_pay9 x0 x1 x3) 0xFF800000#32 reduces_S2304x384_S2304 (.inl rfl) rfl) shapeCasts_S2304_S2304x1 (ix2 r u)
      = Cert.Spec.rowMax (logit x0 x1 x3 r) := by
  refine (shapeCast_a_a1_apply _ shapeCasts_S2304_S2304x1 r u).trans ?_
  refine (Ideal.multiReduction_maximumf_single (k1_pay9 (F := Ideal) x0 x1 x3) 0xFF800000#32 reduces_S2304x384_S2304 (.inl rfl) rfl (ix1 r)).trans ?_
  unfold Cert.Spec.rowMax
  refine (congrArg (fun z => (Finset.univ : Finset (Fin 384)).fold max z _) Cert.LibReal.ofBits_neg_inf).trans ?_
  refine congrArg (fun f => (Finset.univ : Finset (Fin 384)).fold max ⊥ f) (funext fun c => ?_)
  exact (congrArg (k1_pay9 (F := Ideal) x0 x1 x3) (funext fun a => Fin.ext (by match a with | ⟨0, _⟩ => rfl | ⟨1, _⟩ => rfl))).trans (pay9_apply x0 x1 x3 r c)

/-- The new running maximum at row r. -/
theorem pay10_apply (x0 : Vec Ideal S1x2304x64 .bf16) (x1 : Vec Ideal S1x384x64 .bf16) (x3 : Vec Ideal S1x2304x384 .f32)
    (xs0 : Vec Ideal S2304x1 .f32) (r : Fin 2304) (u : Fin 1) :
    k1_pay10 (F := Ideal) x0 x1 x3 xs0 (ix2 r u) = max (xs0 (ix2 r u)) (Cert.Spec.rowMax (logit x0 x1 x3 r)) := by
  unfold k1_pay10
  rw [maximumf_apply]
  exact congrArg (max (xs0 (ix2 r u))) (rowmax_apply x0 x1 x3 r u)

/-- The rescaling factor of the old sums at row r. -/
theorem pay11_apply (x0 : Vec Ideal S1x2304x64 .bf16) (x1 : Vec Ideal S1x384x64 .bf16) (x3 : Vec Ideal S1x2304x384 .f32)
    (xs0 xs0' : Vec Ideal S2304x1 .f32) (r : Fin 2304) (u : Fin 1) :
    k1_pay11 (F := Ideal) x0 x1 x3 xs0 xs0' (ix2 r u)
      = Ideal.exp (xs0' (ix2 r u) - max (xs0 (ix2 r u)) (Cert.Spec.rowMax (logit x0 x1 x3 r))) := by
  unfold k1_pay11
  show Ideal.exp (xs0' (ix2 r u) - k1_pay10 (F := Ideal) x0 x1 x3 xs0 (ix2 r u)) = _
  rw [pay10_apply]

/-- The tile's terms at row r, lane c. -/
theorem pay12_apply (x0 : Vec Ideal S1x2304x64 .bf16) (x1 : Vec Ideal S1x384x64 .bf16) (x3 : Vec Ideal S1x2304x384 .f32)
    (xs0 : Vec Ideal S2304x1 .f32) (r : Fin 2304) (c : Fin 384) :
    k1_pay12 (F := Ideal) x0 x1 x3 xs0 (ix2 r c)
      = Ideal.exp (logit x0 x1 x3 r c - max (xs0 (ix2 r (0 : Fin 1))) (Cert.Spec.rowMax (logit x0 x1 x3 r))) := by
  unfold k1_pay12
  show Ideal.exp (k1_pay9 (F := Ideal) x0 x1 x3 (ix2 r c) - broadcastTo S2304x384 (k1_pay10 (F := Ideal) x0 x1 x3 xs0) broadcasts_S2304x1_S2304x384 (ix2 r c)) = _
  rw [pay9_apply, broadcastTo_a1_ab_apply, pay10_apply]

/-- The new running denominator at row r. -/
theorem pay13_apply (x0 : Vec Ideal S1x2304x64 .bf16) (x1 : Vec Ideal S1x384x64 .bf16) (x3 : Vec Ideal S1x2304x384 .f32)
    (xs0 xs0' xs1 : Vec Ideal S2304x1 .f32) (r : Fin 2304) (u : Fin 1) :
    k1_pay13 (F := Ideal) x0 x1 x3 xs0 xs0' xs1 (ix2 r u)
      = Ideal.exp (xs0' (ix2 r u) - max (xs0 (ix2 r u)) (Cert.Spec.rowMax (logit x0 x1 x3 r))) * xs1 (ix2 r u)
        + ∑ c : Fin 384, Ideal.exp (logit x0 x1 x3 r c - max (xs0 (ix2 r (0 : Fin 1))) (Cert.Spec.rowMax (logit x0 x1 x3 r))) := by
  unfold k1_pay13
  rw [addf_apply, mulf_apply, pay11_apply]
  refine congrArg₂ (· + ·) rfl ?_
  refine (shapeCast_a_a1_apply _ shapeCasts_S2304_S2304x1 r u).trans ?_
  refine (Ideal.multiReduction_add_single (k1_pay12 (F := Ideal) x0 x1 x3 xs0) 0x00000000#32 reduces_S2304x384_S2304 (.inl rfl) rfl (ix1 r)).trans ?_
  refine Finset.sum_congr rfl fun c _ => ?_
  exact (congrArg (k1_pay12 (F := Ideal) x0 x1 x3 xs0) (funext fun a => Fin.ext (by match a with | ⟨0, _⟩ => rfl | ⟨1, _⟩ => rfl))).trans (pay12_apply x0 x1 x3 xs0 r c)

/-- The new running numerator at row r, feature d, from the rescaling factor e, the tile's terms p and the value block. -/
theorem pay2_apply (x2 : Vec Ideal S1x384x64 .bf16) (e : FVec Ideal S2304x1 .f32) (p : FVec Ideal S2304x384 .f32)
    (xs2 : Vec Ideal S2304x64 .f32) (r : Fin 2304) (d : Fin 64) :
    k1_pay2 (F := Ideal) (k1_pay8 (F := Ideal) x2) e p xs2 (ix2 r d)
      = e (ix2 r (0 : Fin 1)) * xs2 (ix2 r d) + ∑ c : Fin 384, p (ix2 r c) * x2 (ix3 (0 : Fin 1) c d) := by
  unfold k1_pay2 k1_pay8
  simp only [shapeCast_self]
  rw [addf_apply, mulf_apply, broadcastTo_a1_ab_apply, mmPV_apply]
  refine congrArg₂ (· + ·) rfl (Finset.sum_congr rfl fun c _ => ?_)
  exact congrArg₂ (· * ·) rfl (shapeCast_1ab_ab_apply x2 shapeCasts_S1x384x64_S384x64 c d)

/-- The stored output at row r, feature d: numerator over denominator. -/
theorem pay4_apply (a : Vec Ideal S2304x64 .f32) (l : Vec Ideal S2304x1 .f32) (u : Fin 1) (r : Fin 2304) (d : Fin 64) :
    k1_pay4 (F := Ideal) a l (ix3 u r d) = Ideal.div (a (ix2 r d)) (l (ix2 r (0 : Fin 1))) := by
  unfold k1_pay4
  rw [shapeCast_ab_1ab_apply, truncf_apply, divf_apply, broadcastTo_a1_ab_apply]

/-- The reset values. -/
theorem pay5_apply (i : S2304x1.Idx) : k1_pay5 (F := Ideal) i = ⊥ := by
  unfold k1_pay5; simp only [shapeCast_self]; exact Cert.LibReal.ofBits_neg_inf
theorem pay6_apply (i : S2304x1.Idx) : k1_pay6 (F := Ideal) i = 0 := by
  unfold k1_pay6; simp only [shapeCast_self]; exact Ideal.ofBits_zero_f32
theorem pay7_apply (i : S2304x64.Idx) : k1_pay7 (F := Ideal) i = 0 := by
  unfold k1_pay7; simp only [shapeCast_self]; exact Ideal.ofBits_zero_f32

theorem pay1_eq (v : FVec Ideal S2304x1 .f32) : k1_pay1 (F := Ideal) v = v := by
  unfold k1_pay1; simp only [shapeCast_self]
theorem pay3_eq (v : FVec Ideal S2304x1 .f32) : k1_pay3 (F := Ideal) v = v := by
  unfold k1_pay3; simp only [shapeCast_self]

/-! ## One point is one step of the running softmax -/

/-- The value block's column d. -/
def vcol (x2 : Vec Ideal S1x384x64 .bf16) (d : Fin 64) (c : Fin 384) : EReal := x2 (ix3 (0 : Fin 1) c d)

/-- The three buffers after the update, at row r and feature d, are one step of the running softmax over the tile's logits
    and the value block's column, from the three buffers before. -/
theorem point_step (x0 : Vec Ideal S1x2304x64 .bf16) (x1 : Vec Ideal S1x384x64 .bf16) (x2 : Vec Ideal S1x384x64 .bf16) (x3 : Vec Ideal S1x2304x384 .f32)
    (xs0 xs1 : Vec Ideal S2304x1 .f32) (xs2 : Vec Ideal S2304x64 .f32) (r : Fin 2304) (d : Fin 64) :
    (k1_pay3 (F := Ideal) (k1_pay10 (F := Ideal) x0 x1 x3 xs0) (ix2 r (0 : Fin 1)),
     k1_pay1 (F := Ideal) (k1_pay13 (F := Ideal) x0 x1 x3 xs0 xs0 xs1) (ix2 r (0 : Fin 1)),
     k1_pay2 (F := Ideal) (k1_pay8 (F := Ideal) x2) (k1_pay11 (F := Ideal) x0 x1 x3 xs0 xs0) (k1_pay12 (F := Ideal) x0 x1 x3 xs0) xs2 (ix2 r d))
      = Cert.Spec.osStep (logit x0 x1 x3 r) (vcol x2 d) (xs0 (ix2 r (0 : Fin 1)), xs1 (ix2 r (0 : Fin 1)), xs2 (ix2 r d)) := by
  unfold Cert.Spec.osStep vcol
  rw [pay3_eq, pay1_eq, pay10_apply, pay13_apply, pay2_apply, pay11_apply]
  refine Prod.ext rfl (Prod.ext rfl ?_)
  dsimp only
  exact congrArg₂ (· + ·) rfl (Finset.sum_congr rfl fun c _ => by rw [pay12_apply])

end Cert.KernelIdeal.HandValue

end
-- ==== Proof.KI_AttnPieces.lean ====
/-
  What the stores of one grid point of the attention launch leave in each buffer, as values: each buffer is written
  through its whole extent, so what it holds afterwards is the last stored payload, a term over the blocks the point
  loaded. At a first tile the three running buffers are reset before they are read, so the update starts from the reset
  values; at a middle or last tile it starts from what the tile before left. At a last tile the output block is the
  quotient of the updated numerator by the updated denominator.
-/
import proofs.«423628_j37984690766439_2_alg».proof.Proof.KI_AttnRuns
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem canonB_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_B (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).1 = k1_pay3 (k1_pay10 x0 x1 x3 xs0) := by
  unfold kernelRun1_B
  dsimp only
  sl_unfold_words
  rw [View.canon_unit_zero hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2]

theorem canonB_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_B (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).2.1 = k1_pay1 (k1_pay13 x0 x1 x3 xs0 xs0 xs1) := by
  unfold kernelRun1_B
  dsimp only
  sl_unfold_words
  rw [View.canon_unit_zero hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2]

theorem canonB_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : ¬cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_B (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).2.2.1 = k1_pay2 (k1_pay8 x2) (k1_pay11 x0 x1 x3 xs0 xs0) (k1_pay12 x0 x1 x3 xs0) xs2 := by
  unfold kernelRun1_B
  dsimp only
  sl_unfold_words
  rw [View.canon_unit_zero hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2]

theorem canonC_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_C (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).2.1 = k1_pay3 (k1_pay10 x0 x1 x3 xs0) := by
  unfold kernelRun1_C
  dsimp only
  sl_unfold_words
  rw [View.canon_unit_zero hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2]

theorem canonC_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_C (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).2.2.1 = k1_pay1 (k1_pay13 x0 x1 x3 xs0 xs0 xs1) := by
  unfold kernelRun1_C
  dsimp only
  sl_unfold_words
  rw [View.canon_unit_zero hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2]

theorem canonC_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_C (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).2.2.2.1 = k1_pay2 (k1_pay8 x2) (k1_pay11 x0 x1 x3 xs0 xs0) (k1_pay12 x0 x1 x3 xs0) xs2 := by
  unfold kernelRun1_C
  dsimp only
  sl_unfold_words
  rw [View.canon_unit_zero hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2]

theorem canonC_4 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : cond1_1 i) (x0 : Vec F S1x2304x64 .bf16) (x1 : Vec F S1x384x64 .bf16) (x2 : Vec F S1x384x64 .bf16) (x3 : Vec F S1x2304x384 .f32) (xs0 : Vec F S2304x1 .f32) (xs1 : Vec F S2304x1 .f32) (xs2 : Vec F S2304x64 .f32) :
    View.canon (kernelRun1_C (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2).1 = k1_pay4 (k1_pay2 (k1_pay8 x2) (k1_pay11 x0 x1 x3 xs0 xs0) (k1_pay12 x0 x1 x3 xs0) xs2) (k1_pay1 (k1_pay13 x0 x1 x3 xs0 xs0 xs1)) := by
  unfold kernelRun1_C
  dsimp only
  sl_unfold_words
  rw [View.canon_unit_zero hz3]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2, View.readCov_unit_zero (S := S2304x1) _ hz2, View.readCov_unit_zero (S := S2304x64) _ hz2]

theorem canonA_0 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : cond1_0 i) (hc1 : ¬cond1_1 i) (x0 : Vec F S1x2304x64 .bf16) (x1 : Vec F S1x384x64 .bf16) (x2 : Vec F S1x384x64 .bf16) (x3 : Vec F S1x2304x384 .f32)  :
    View.canon (kernelRun1_A (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3).1 = k1_pay3 (k1_pay10 x0 x1 x3 (k1_pay5 (F := F))) := by
  unfold kernelRun1_A
  dsimp only
  sl_unfold_words
  rw [View.canon_cons_unit_zero (S := S2304x1) hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2, View.readCov_unit_zero (S := S2304x1) _ hz2, View.readCov_unit_zero (S := S2304x64) _ hz2]

theorem canonA_1 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : cond1_0 i) (hc1 : ¬cond1_1 i) (x0 : Vec F S1x2304x64 .bf16) (x1 : Vec F S1x384x64 .bf16) (x2 : Vec F S1x384x64 .bf16) (x3 : Vec F S1x2304x384 .f32)  :
    View.canon (kernelRun1_A (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3).2.1 = k1_pay1 (k1_pay13 x0 x1 x3 (k1_pay5 (F := F)) (k1_pay5 (F := F)) (k1_pay6 (F := F))) := by
  unfold kernelRun1_A
  dsimp only
  sl_unfold_words
  rw [View.canon_cons_unit_zero (S := S2304x1) hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2, View.readCov_unit_zero (S := S2304x1) _ hz2, View.readCov_unit_zero (S := S2304x64) _ hz2]

theorem canonA_2 (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : cond1_0 i) (hc1 : ¬cond1_1 i) (x0 : Vec F S1x2304x64 .bf16) (x1 : Vec F S1x384x64 .bf16) (x2 : Vec F S1x384x64 .bf16) (x3 : Vec F S1x2304x384 .f32)  :
    View.canon (kernelRun1_A (F := F) c i arg2 harg2 arg3 harg3 arg4 harg4 arg5 harg5 arg6 harg6 scM1_0 (Memref.isWhole_whole _) scM1_1 (Memref.isWhole_whole _) scM1_2 (Memref.isWhole_whole _) hc0 hc1 x0 x1 x2 x3).2.2.1 = k1_pay2 (k1_pay8 x2) (k1_pay11 x0 x1 x3 (k1_pay5 (F := F)) (k1_pay5 (F := F))) (k1_pay12 x0 x1 x3 (k1_pay5 (F := F))) (k1_pay7 (F := F)) := by
  unfold kernelRun1_A
  dsimp only
  sl_unfold_words
  rw [View.canon_cons_unit_zero (S := S2304x64) hz2]
  simp only [View.readAt_eq_ld, harg2.read_unread, harg3.read_unread, harg4.read_unread, harg5.read_unread, (Memref.isWhole_whole cc1_scratch0).read_unread, (Memref.isWhole_whole cc1_scratch1).read_unread, (Memref.isWhole_whole cc1_scratch2).read_unread, View.ld_unit_zero (S := S1x2304x64) hz3, View.ld_unit_zero (S := S1x384x64) hz3, View.ld_unit_zero (S := S1x2304x384) hz3, View.ld_unit_zero (S := S2304x1) hz2, View.ld_unit_zero (S := S2304x64) hz2, View.readCov_unit_zero (S := S2304x1) _ hz2, View.readCov_unit_zero (S := S2304x64) _ hz2]

end Cert.KernelIdeal.HandValue

end
-- ==== Proof.OnlineSoftmax.lean ====
/-
  The running softmax over tiles of keys equals the softmax-weighted sum over all keys.

  A row of finite real logits s and finite real values v is read in six tiles of 384 keys. The running form keeps
  a state (m, l, a): the maximum of the logits seen, the sum of e^(s − m) over the keys seen, and the sum of
  e^(s − m)·v over the keys seen. A new tile moves the maximum to m' = max m (tile maximum); the old sums are
  rescaled by e^(m − m') — on the reals e^(m − m')·e^(s − m) = e^(s − m') — and the tile's own terms are added.
  From the empty state (−∞, 0, 0) the first rescaling factor is e^(−∞) = 0, so the first tile simply installs its
  own maximum and sums. After all tiles m is the maximum M of the whole row (it bounds every logit and is one of
  them), l = Σ_j e^(s_j − M) is a positive real L, a = Σ_j e^(s_j − M)·v_j, and a / L = Σ_j (e^(s_j − M) / L)·v_j.
-/
import proofs.«423628_j37984690766439_2_alg».proof.Proof.Spec
import proofs.«423628_j37984690766439_2_alg».proof.Proof.LibReal
import Mathlib.Data.EReal.Operations
import Mathlib.Data.Finset.Fold
import Mathlib.Data.Finset.Max
import Mathlib.Algebra.BigOperators.Group.Finset.Basic
import Mathlib.Algebra.BigOperators.Ring.Finset
import Mathlib.Algebra.BigOperators.Field
import Mathlib.Algebra.Order.BigOperators.Group.Finset
import Mathlib.Analysis.SpecialFunctions.Exp

noncomputable section

namespace Cert.OnlineSoftmax

open Idealize.ShloMosaic
open scoped BigOperators
open Cert.Spec Cert.LibReal

/-! ## The maximum of a finite family, folded from −∞ -/

/-- A fold of the maximum from −∞ equals any member of the family that bounds all the others. -/
theorem fold_max_eq {ι : Type*} (S : Finset ι) (f : ι → EReal) {i : ι} (hi : i ∈ S)
    (h : ∀ j ∈ S, f j ≤ f i) : S.fold max ⊥ f = f i :=
  le_antisymm ((Finset.fold_max_le _).mpr ⟨bot_le, h⟩) ((Finset.le_fold_max _).mpr (Or.inr ⟨i, hi, le_rfl⟩))

/-- The maximum of a nonempty row of reals is one of its entries, and that entry bounds the row. -/
theorem rowMax_coe {n : ℕ} (hn : 0 < n) (σ : Fin n → ℝ) :
    ∃ i0 : Fin n, (∀ r, σ r ≤ σ i0) ∧ rowMax (fun r => (σ r : EReal)) = (σ i0 : EReal) := by
  have hne : (Finset.univ : Finset (Fin n)).Nonempty := ⟨⟨0, hn⟩, Finset.mem_univ _⟩
  obtain ⟨i0, _, h0⟩ := Finset.exists_max_image (Finset.univ : Finset (Fin n)) σ hne
  refine ⟨i0, fun r => h0 r (Finset.mem_univ r), ?_⟩
  unfold rowMax
  exact fold_max_eq Finset.univ (fun r => (σ r : EReal)) (Finset.mem_univ i0)
    (fun j _ => EReal.coe_le_coe_iff.mpr (h0 j (Finset.mem_univ j)))

/-! ## One tile's update on real data -/

/-- From the empty state the first tile installs its own maximum and its own two sums:
    the rescaling factor is e^(−∞) = 0. -/
theorem osStep_bot {n : ℕ} (σ ρ : Fin n → ℝ) (m : ℝ)
    (hm : rowMax (fun r => (σ r : EReal)) = (m : EReal)) :
    osStep (fun r => (σ r : EReal)) (fun r => (ρ r : EReal)) (⊥, 0, 0) =
      ((m : EReal), ((∑ r, Real.exp (σ r - m) : ℝ) : EReal),
        ((∑ r, Real.exp (σ r - m) * ρ r : ℝ) : EReal)) := by
  unfold osStep
  simp only [hm, max_eq_right (bot_le : (⊥ : EReal) ≤ (m : EReal)), EReal.bot_sub, Ideal.exp_bot, zero_mul,
    zero_add, ← EReal.coe_sub, Ideal.exp_coe, ← EReal.coe_mul, ← coe_finset_sum]

/-- From a real state the tile's update is the real update: new maximum max M m, old sums rescaled by
    e^(M − max M m), the tile's terms added. -/
theorem osStep_coe {n : ℕ} (σ ρ : Fin n → ℝ) (m M L A : ℝ)
    (hm : rowMax (fun r => (σ r : EReal)) = (m : EReal)) :
    osStep (fun r => (σ r : EReal)) (fun r => (ρ r : EReal)) ((M : EReal), (L : EReal), (A : EReal)) =
      (((max M m : ℝ) : EReal),
       ((Real.exp (M - max M m) * L + ∑ r, Real.exp (σ r - max M m) : ℝ) : EReal),
       ((Real.exp (M - max M m) * A + ∑ r, Real.exp (σ r - max M m) * ρ r : ℝ) : EReal)) := by
  have hmax : max (M : EReal) (m : EReal) = ((max M m : ℝ) : EReal) := (EReal.coe_strictMono.monotone.map_max).symm
  unfold osStep
  simp only [hm, hmax, ← EReal.coe_sub, Ideal.exp_coe, ← EReal.coe_mul, ← coe_finset_sum, ← EReal.coe_add]

/-! ## The tiles seen so far, and the two sums over them relative to a given level -/

section General

variable {T n : ℕ}

/-- The tiles with index below t. -/
def seen (T t : ℕ) : Finset (Fin T) := Finset.univ.filter (fun t' => t'.val < t)

theorem seen_zero : seen T 0 = ∅ := by
  ext x; simp [seen]

theorem seen_succ {t : ℕ} (h : t < T) : seen T (t + 1) = insert (⟨t, h⟩ : Fin T) (seen T t) := by
  ext x
  simp only [seen, Finset.mem_filter, Finset.mem_univ, true_and, Finset.mem_insert, Fin.ext_iff]
  omega

theorem not_mem_seen {t : ℕ} (h : t < T) : (⟨t, h⟩ : Fin T) ∉ seen T t := by
  simp [seen]

theorem seen_full : seen T T = Finset.univ := by
  ext x; simp [seen]

variable (s v : Fin T → Fin n → ℝ)

/-- The denominator over the tiles seen, relative to the level M: the sum of e^(s − M). -/
def Lf (t : ℕ) (M : ℝ) : ℝ := ∑ t' ∈ seen T t, ∑ r, Real.exp (s t' r - M)

/-- The numerator over the tiles seen, relative to the level M: the sum of e^(s − M)·v. -/
def Af (t : ℕ) (M : ℝ) : ℝ := ∑ t' ∈ seen T t, ∑ r, Real.exp (s t' r - M) * v t' r

theorem Lf_zero (M : ℝ) : Lf s 0 M = 0 := by
  unfold Lf; rw [seen_zero, Finset.sum_empty]

theorem Af_zero (M : ℝ) : Af s v 0 M = 0 := by
  unfold Af; rw [seen_zero, Finset.sum_empty]

theorem Lf_succ {t : ℕ} (h : t < T) (M : ℝ) :
    Lf s (t + 1) M = Lf s t M + ∑ r, Real.exp (s ⟨t, h⟩ r - M) := by
  unfold Lf; rw [seen_succ h, Finset.sum_insert (not_mem_seen h), add_comm]

theorem Af_succ {t : ℕ} (h : t < T) (M : ℝ) :
    Af s v (t + 1) M = Af s v t M + ∑ r, Real.exp (s ⟨t, h⟩ r - M) * v ⟨t, h⟩ r := by
  unfold Af; rw [seen_succ h, Finset.sum_insert (not_mem_seen h), add_comm]

/-- Moving the level from M to M' multiplies the denominator by e^(M − M'). -/
theorem Lf_rescale (t : ℕ) (M M' : ℝ) : Real.exp (M - M') * Lf s t M = Lf s t M' := by
  unfold Lf
  rw [Finset.mul_sum]
  refine Finset.sum_congr rfl fun t' _ => ?_
  rw [Finset.mul_sum]
  refine Finset.sum_congr rfl fun r _ => ?_
  rw [← Real.exp_add, show M - M' + (s t' r - M) = s t' r - M' by ring]

/-- Moving the level from M to M' multiplies the numerator by e^(M − M'). -/
theorem Af_rescale (t : ℕ) (M M' : ℝ) : Real.exp (M - M') * Af s v t M = Af s v t M' := by
  unfold Af
  rw [Finset.mul_sum]
  refine Finset.sum_congr rfl fun t' _ => ?_
  rw [Finset.mul_sum]
  refine Finset.sum_congr rfl fun r _ => ?_
  rw [← mul_assoc, ← Real.exp_add, show M - M' + (s t' r - M) = s t' r - M' by ring]

/-- The state after t tiles: a real level M that bounds every logit seen and is one of them, with the two sums
    over the tiles seen taken relative to M. -/
def Inv (t : ℕ) (h : t ≤ T) : Prop :=
  ∃ M : ℝ,
    osRun (fun t r => (s t r : EReal)) (fun t r => (v t r : EReal)) t h
        = ((M : EReal), ((Lf s t M : ℝ) : EReal), ((Af s v t M : ℝ) : EReal))
      ∧ (∀ t' ∈ seen T t, ∀ r, s t' r ≤ M) ∧ (∃ t' ∈ seen T t, ∃ r, s t' r = M)

/-- The invariant holds after every positive number of tiles. -/
theorem inv_succ (hn : 0 < n) : ∀ (t : ℕ) (h : t + 1 ≤ T), Inv s v (t + 1) h := by
  intro t
  induction t with
  | zero =>
    intro h
    obtain ⟨i0, hi0, hm⟩ := rowMax_coe hn (s ⟨0, h⟩)
    refine ⟨s ⟨0, h⟩ i0, ?_, ?_, ?_⟩
    · show osStep (fun r => (s ⟨0, h⟩ r : EReal)) (fun r => (v ⟨0, h⟩ r : EReal)) (⊥, 0, 0) = _
      rw [osStep_bot _ _ _ hm, Lf_succ s h, Af_succ s v h, Lf_zero, Af_zero, zero_add, zero_add]
    · intro t' ht' r
      rw [seen_succ h, seen_zero, Finset.mem_insert] at ht'
      rcases ht' with rfl | ht'
      · exact hi0 r
      · exact absurd ht' (Finset.notMem_empty _)
    · exact ⟨⟨0, h⟩, by rw [seen_succ h]; exact Finset.mem_insert_self _ _, i0, rfl⟩
  | succ t ih =>
    intro h
    obtain ⟨M, hrun, hub, t1, ht1, r1, hatt⟩ := ih (Nat.le_of_succ_le h)
    obtain ⟨i0, hi0, hm⟩ := rowMax_coe hn (s ⟨t + 1, h⟩)
    refine ⟨max M (s ⟨t + 1, h⟩ i0), ?_, ?_, ?_⟩
    · show osStep (fun r => (s ⟨t + 1, h⟩ r : EReal)) (fun r => (v ⟨t + 1, h⟩ r : EReal))
          (osRun (fun t r => (s t r : EReal)) (fun t r => (v t r : EReal)) (t + 1) (Nat.le_of_succ_le h)) = _
      rw [hrun, osStep_coe _ _ _ _ _ _ hm, Lf_rescale, Af_rescale, Lf_succ s h, Af_succ s v h]
    · intro t' ht' r
      rw [seen_succ h, Finset.mem_insert] at ht'
      rcases ht' with rfl | ht'
      · exact (hi0 r).trans (le_max_right _ _)
      · exact (hub t' ht' r).trans (le_max_left _ _)
    · rcases max_choice M (s ⟨t + 1, h⟩ i0) with hc | hc
      · exact ⟨t1, by rw [seen_succ h]; exact Finset.mem_insert_of_mem ht1, r1, by rw [hc]; exact hatt⟩
      · exact ⟨⟨t + 1, h⟩, by rw [seen_succ h]; exact Finset.mem_insert_self _ _, i0, hc.symm⟩

/-- After all the tiles: a real level M bounding every logit and attained by one, and the two sums over all tiles. -/
theorem run_full (hn : 0 < n) (hT : 0 < T) :
    ∃ M : ℝ,
      osRun (fun t r => (s t r : EReal)) (fun t r => (v t r : EReal)) T le_rfl
          = ((M : EReal), ((∑ t', ∑ r, Real.exp (s t' r - M) : ℝ) : EReal),
              ((∑ t', ∑ r, Real.exp (s t' r - M) * v t' r : ℝ) : EReal))
        ∧ (∀ t' r, s t' r ≤ M) ∧ (∃ t' r, s t' r = M) := by
  obtain ⟨k, rfl⟩ : ∃ k, T = k + 1 := ⟨T - 1, by omega⟩
  obtain ⟨M, hrun, hub, t1, _, r1, hatt⟩ := inv_succ s v hn k le_rfl
  refine ⟨M, ?_, fun t' r => hub t' (by rw [seen_full]; exact Finset.mem_univ _) r, t1, r1, hatt⟩
  rw [hrun]; unfold Lf Af; rw [seen_full]

end General

/-! ## Six tiles of 384 keys cover the 2304 keys once each -/

/-- Tile and position within the tile, against the flat key index. -/
def tileEquiv : Fin 6 × Fin 384 ≃ Fin 2304 where
  toFun p := tileIdx p.1 p.2
  invFun j := (⟨j.val / 384, by have := j.isLt; omega⟩, ⟨j.val % 384, Nat.mod_lt _ (by omega)⟩)
  left_inv := by
    rintro ⟨t, r⟩
    have := t.isLt; have := r.isLt
    ext <;> simp only [tileIdx] <;> omega
  right_inv := by
    intro j
    ext; simp only [tileIdx]; omega

/-- Every key is key r of tile t for some (t, r). -/
theorem tileIdx_surj (j : Fin 2304) : ∃ t r, tileIdx t r = j :=
  ⟨(tileEquiv.symm j).1, (tileEquiv.symm j).2, tileEquiv.apply_symm_apply j⟩

/-- A sum over all keys is the sum over the tiles of the sums over each tile's keys. -/
theorem sum_tiles (f : Fin 2304 → ℝ) : ∑ j, f j = ∑ t : Fin 6, ∑ r : Fin 384, f (tileIdx t r) := by
  rw [← tileEquiv.sum_comp f, Fintype.sum_prod_type]; rfl

/-! ## The running form against the softmax-weighted sum, on real data -/

theorem flash_real (sr vr : Fin 2304 → ℝ) :
    Ideal.div
        (osRun (fun t r => ((sr (tileIdx t r) : ℝ) : EReal)) (fun t r => ((vr (tileIdx t r) : ℝ) : EReal)) 6 le_rfl).2.2
        (osRun (fun t r => ((sr (tileIdx t r) : ℝ) : EReal)) (fun t r => ((vr (tileIdx t r) : ℝ) : EReal)) 6 le_rfl).2.1
      = ∑ j : Fin 2304, softmaxRow (fun j => (sr j : EReal)) j * (vr j : EReal) := by
  obtain ⟨M, hrun, hub, t0, r0, hatt⟩ :=
    run_full (fun t r => sr (tileIdx t r)) (fun t r => vr (tileIdx t r)) (by omega : 0 < 384) (by omega : 0 < 6)
  -- the level is the maximum of the whole row
  have hbound : ∀ j, sr j ≤ M := by
    intro j; obtain ⟨t, r, rfl⟩ := tileIdx_surj j; exact hub t r
  have hmax : rowMax (fun j => (sr j : EReal)) = (M : EReal) := by
    unfold rowMax
    rw [fold_max_eq Finset.univ (fun j => (sr j : EReal)) (Finset.mem_univ (tileIdx t0 r0))
      (fun j _ => EReal.coe_le_coe_iff.mpr (by rw [hatt]; exact hbound j)), hatt]
  -- the two sums over tiles are the two sums over all keys
  have hZ : ∑ t : Fin 6, ∑ r : Fin 384, Real.exp (sr (tileIdx t r) - M) = ∑ j, Real.exp (sr j - M) :=
    (sum_tiles (fun j => Real.exp (sr j - M))).symm
  have hN : ∑ t : Fin 6, ∑ r : Fin 384, Real.exp (sr (tileIdx t r) - M) * vr (tileIdx t r)
      = ∑ j, Real.exp (sr j - M) * vr j :=
    (sum_tiles (fun j => Real.exp (sr j - M) * vr j)).symm
  have hZpos : 0 < ∑ j : Fin 2304, Real.exp (sr j - M) :=
    Finset.sum_pos (fun j _ => Real.exp_pos _) ⟨⟨0, by omega⟩, Finset.mem_univ _⟩
  rw [hrun, hZ, hN, div_coe_coe _ hZpos.ne']
  unfold softmaxRow
  simp only [hmax, ← EReal.coe_sub, Ideal.exp_coe, ← coe_finset_sum, div_coe_coe _ hZpos.ne', ← EReal.coe_mul]
  rw [Finset.sum_div]
  refine congrArg _ (Finset.sum_congr rfl fun j _ => ?_)
  ring

/-! ## The exported statement -/

/-- On a row of finite real logits and finite real values, the running numerator over the running denominator
    after the six tiles is the softmax-weighted sum of the values. -/
theorem flash_eq_softmax (s v : Fin 2304 → EReal) (hs : ∀ j, Cert.LibReal.IsReal (s j))
    (hv : ∀ j, Cert.LibReal.IsReal (v j)) :
    Ideal.div (Cert.Spec.osRun (fun t r => s (Cert.Spec.tileIdx t r)) (fun t r => v (Cert.Spec.tileIdx t r)) 6 le_rfl).2.2
              (Cert.Spec.osRun (fun t r => s (Cert.Spec.tileIdx t r)) (fun t r => v (Cert.Spec.tileIdx t r)) 6 le_rfl).2.1
      = ∑ j : Fin 2304, Cert.Spec.softmaxRow s j * v j := by
  obtain ⟨sr, rfl⟩ : ∃ sr : Fin 2304 → ℝ, s = fun j => (sr j : EReal) :=
    ⟨fun j => (hs j).choose, funext fun j => (hs j).choose_spec⟩
  obtain ⟨vr, rfl⟩ : ∃ vr : Fin 2304 → ℝ, v = fun j => (vr j : EReal) :=
    ⟨fun j => (hv j).choose, funext fun j => (hv j).choose_spec⟩
  exact flash_real sr vr

end Cert.OnlineSoftmax

end
-- ==== Proof.KI_AttnValue.lean ====
/-
  The value of the attention launch of the kernel program at the extended reals. The grid is 16 heads by 6 tiles of 384
  keys; point 6·h + kt works on head h and key tile kt. Between the points of a head three buffers carry, for every query
  row r (and head feature d), the running maximum, the running denominator and the running numerator of the softmax
  over the keys seen so far. One point is one step of the running softmax of the specification over the tile's logits
      s kt lane = (∑ dd, q h r dd · k h (384·kt + lane) dd) / 8 + bias h r (384·kt + lane)
  and the tile's values v h (384·kt + lane) d; a head's first tile starts from (−∞, 0, 0). So after point 6·h + kt the
  buffers hold the running softmax after kt + 1 tiles, by induction on kt. At the head's last tile the output block is
  numerator over denominator, which on finite logits and values is the softmax-weighted sum of the values; the sixteen
  output blocks, one per head, tile the output array.
-/
import proofs.«423628_j37984690766439_2_alg».proof.Proof.KI_AttnDat
import proofs.«423628_j37984690766439_2_alg».proof.Proof.KI_AttnPay
import proofs.«423628_j37984690766439_2_alg».proof.Proof.KI_AttnPieces
import proofs.«423628_j37984690766439_2_alg».proof.Proof.OnlineSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## The four input arrays and their blocks at a grid point -/

abbrev qarr (c : Dev nD) : Vec Ideal S16x2304x64 .bf16 := V c main_v8
abbrev karr (c : Dev nD) : Vec Ideal S16x2304x64 .bf16 := V c main_v11
abbrev varr (c : Dev nD) : Vec Ideal S16x2304x64 .bf16 := V c main_v14
abbrev barr (c : Dev nD) : Vec Ideal S16x2304x2304 .f32 := V c main_v33
abbrev qblk (c : Dev nD) (t : Fin cfg1.N) : Vec Ideal S1x2304x64 .bf16 := iblk1 V c 0 t
abbrev kblk (c : Dev nD) (t : Fin cfg1.N) : Vec Ideal S1x384x64 .bf16 := iblk1 V c 1 t
abbrev vblk (c : Dev nD) (t : Fin cfg1.N) : Vec Ideal S1x384x64 .bf16 := iblk1 V c 2 t
abbrev bblk (c : Dev nD) (t : Fin cfg1.N) : Vec Ideal S1x2304x384 .f32 := iblk1 V c 3 t

/-- The block indices over the grid: point t works on head t / 6 and key tile t % 6. -/
theorem idx_facts1 : ∀ t : Fin cfg1.N,
    win1_0.index t (0 : Fin 3) = t.val / 6 ∧ win1_0.index t (1 : Fin 3) = 0 ∧ win1_0.index t (2 : Fin 3) = 0
    ∧ win1_1.index t (0 : Fin 3) = t.val / 6 ∧ win1_1.index t (1 : Fin 3) = t.val % 6 ∧ win1_1.index t (2 : Fin 3) = 0
    ∧ win1_2.index t (0 : Fin 3) = t.val / 6 ∧ win1_2.index t (1 : Fin 3) = t.val % 6 ∧ win1_2.index t (2 : Fin 3) = 0
    ∧ win1_3.index t (0 : Fin 3) = t.val / 6 ∧ win1_3.index t (1 : Fin 3) = 0 ∧ win1_3.index t (2 : Fin 3) = t.val % 6
    ∧ win1_4.index t (0 : Fin 3) = t.val / 6 ∧ win1_4.index t (1 : Fin 3) = 0 ∧ win1_4.index t (2 : Fin 3) = 0 :=
  (by decide +kernel : ∀ t : Fin grid1.N, _)

theorem hN1 : cfg1.N = 96 := N_1

/-- The head and the key tile of a grid point. -/
abbrev headOf (t : Fin cfg1.N) : Fin 16 := ⟨t.val / 6, by have : t.val < 96 := lt_of_lt_of_eq t.isLt hN1; omega⟩
abbrev tileOf (t : Fin cfg1.N) : Fin 6 := ⟨t.val % 6, Nat.mod_lt _ (by decide)⟩

/-- The query block of point t is head (t / 6)'s rows of the query array. -/
theorem qblk_apply (c : Dev nD) (t : Fin cfg1.N) (u : Fin 1) (r : Fin 2304) (dd : Fin 64) :
    qblk V c t (ix3 u r dd) = qarr V c (ix3 (headOf t) r dd) := by
  show (V c main_v8 : S16x2304x64.Idx → EReal) (((cfg1.win 0).blk t).view.emb (ix3 u r dd)) = _
  refine congrArg _ (funext fun a => Fin.ext ?_)
  obtain ⟨e00, e01, e02, -⟩ := idx_facts1 t
  match a with
  | ⟨0, _⟩ => show win1_0.index t (0 : Fin 3) * 1 + 1 * u.val = t.val / 6; omega
  | ⟨1, _⟩ => show win1_0.index t (1 : Fin 3) * 2304 + 1 * r.val = r.val; omega
  | ⟨2, _⟩ => show win1_0.index t (2 : Fin 3) * 64 + 1 * dd.val = dd.val; omega

/-- The key block of point t is the tile's 384 rows of head (t / 6) of the key array. -/
theorem kblk_apply (c : Dev nD) (t : Fin cfg1.N) (u : Fin 1) (l : Fin 384) (dd : Fin 64) :
    kblk V c t (ix3 u l dd) = karr V c (ix3 (headOf t) (Cert.Spec.tileIdx (tileOf t) l) dd) := by
  show (V c main_v11 : S16x2304x64.Idx → EReal) (((cfg1.win 1).blk t).view.emb (ix3 u l dd)) = _
  refine congrArg _ (funext fun a => Fin.ext ?_)
  obtain ⟨-, -, -, e10, e11, e12, -⟩ := idx_facts1 t
  match a with
  | ⟨0, _⟩ => show win1_1.index t (0 : Fin 3) * 1 + 1 * u.val = t.val / 6; omega
  | ⟨1, _⟩ => show win1_1.index t (1 : Fin 3) * 384 + 1 * l.val = t.val % 6 * 384 + l.val; omega
  | ⟨2, _⟩ => show win1_1.index t (2 : Fin 3) * 64 + 1 * dd.val = dd.val; omega

/-- The value block likewise. -/
theorem vblk_apply (c : Dev nD) (t : Fin cfg1.N) (u : Fin 1) (l : Fin 384) (dd : Fin 64) :
    vblk V c t (ix3 u l dd) = varr V c (ix3 (headOf t) (Cert.Spec.tileIdx (tileOf t) l) dd) := by
  show (V c main_v14 : S16x2304x64.Idx → EReal) (((cfg1.win 2).blk t).view.emb (ix3 u l dd)) = _
  refine congrArg _ (funext fun a => Fin.ext ?_)
  obtain ⟨-, -, -, -, -, -, e20, e21, e22, -⟩ := idx_facts1 t
  match a with
  | ⟨0, _⟩ => show win1_2.index t (0 : Fin 3) * 1 + 1 * u.val = t.val / 6; omega
  | ⟨1, _⟩ => show win1_2.index t (1 : Fin 3) * 384 + 1 * l.val = t.val % 6 * 384 + l.val; omega
  | ⟨2, _⟩ => show win1_2.index t (2 : Fin 3) * 64 + 1 * dd.val = dd.val; omega

/-- The bias block of point t is the tile's 384 columns of head (t / 6) of the bias array. -/
theorem bblk_apply (c : Dev nD) (t : Fin cfg1.N) (u : Fin 1) (r : Fin 2304) (l : Fin 384) :
    bblk V c t (ix3 u r l) = barr V c (ix3 (headOf t) r (Cert.Spec.tileIdx (tileOf t) l)) := by
  show (V c main_v33 : S16x2304x2304.Idx → EReal) (((cfg1.win 3).blk t).view.emb (ix3 u r l)) = _
  refine congrArg _ (funext fun a => Fin.ext ?_)
  obtain ⟨-, -, -, -, -, -, -, -, -, e30, e31, e32, -⟩ := idx_facts1 t
  match a with
  | ⟨0, _⟩ => show win1_3.index t (0 : Fin 3) * 1 + 1 * u.val = t.val / 6; omega
  | ⟨1, _⟩ => show win1_3.index t (1 : Fin 3) * 2304 + 1 * r.val = r.val; omega
  | ⟨2, _⟩ => show win1_3.index t (2 : Fin 3) * 384 + 1 * l.val = t.val % 6 * 384 + l.val; omega

/-! ## The head's logits and values, tile by tile -/

/-- The logit of head h at query row r against key j. -/
def score (c : Dev nD) (h : Fin 16) (r : Fin 2304) (j : Fin 2304) : EReal :=
  Ideal.div (∑ dd : Fin 64, qarr V c (ix3 h r dd) * karr V c (ix3 h j dd)) ((8 : ℝ) : EReal) + barr V c (ix3 h r j)

/-- The value of head h at key j, feature d. -/
def valAt (c : Dev nD) (h : Fin 16) (d : Fin 64) (j : Fin 2304) : EReal := varr V c (ix3 h j d)

/-- The tile's logits at a point are the head's logits at the tile's keys. -/
theorem logit_eq (c : Dev nD) (t : Fin cfg1.N) (r : Fin 2304) :
    logit (qblk V c t) (kblk V c t) (bblk V c t) r = fun l => score V c (headOf t) r (Cert.Spec.tileIdx (tileOf t) l) := by
  funext l
  unfold logit score
  rw [bblk_apply]
  refine congrArg₂ (· + ·) (congrArg (fun z => Ideal.div z ((8 : ℝ) : EReal)) (Finset.sum_congr rfl fun dd _ => ?_)) rfl
  rw [qblk_apply, kblk_apply]

/-- The value block's column at a point is the head's values at the tile's keys. -/
theorem vcol_eq (c : Dev nD) (t : Fin cfg1.N) (d : Fin 64) :
    vcol (vblk V c t) d = fun l => valAt V c (headOf t) d (Cert.Spec.tileIdx (tileOf t) l) := by
  funext l
  unfold vcol valAt
  rw [vblk_apply]

/-! ## What each case leaves in the three running buffers and in the output block, as terms over the loaded blocks -/

theorem soutsA_eq (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : cond1_0 i) (hc1 : ¬cond1_1 i) (x0 : Vec Ideal S1x2304x64 .bf16) (x1 : Vec Ideal S1x384x64 .bf16) (x2 : Vec Ideal S1x384x64 .bf16) (x3 : Vec Ideal S1x2304x384 .f32) :
    souts1_A (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3
      = (k1_pay3 (F := Ideal) (k1_pay10 (F := Ideal) x0 x1 x3 (k1_pay5 (F := Ideal))), k1_pay1 (F := Ideal) (k1_pay13 (F := Ideal) x0 x1 x3 (k1_pay5 (F := Ideal)) (k1_pay5 (F := Ideal)) (k1_pay6 (F := Ideal))), k1_pay2 (F := Ideal) (k1_pay8 (F := Ideal) x2) (k1_pay11 (F := Ideal) x0 x1 x3 (k1_pay5 (F := Ideal)) (k1_pay5 (F := Ideal))) (k1_pay12 (F := Ideal) x0 x1 x3 (k1_pay5 (F := Ideal))) (k1_pay7 (F := Ideal))) := by
  unfold souts1_A
  rw [View.read_writes_eq_canon _ _ _ (scoverA_0 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3), View.read_writes_eq_canon _ _ _ (scoverA_1 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3), View.read_writes_eq_canon _ _ _ (scoverA_2 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3)]
  rw [canonA_0 (F := Ideal) c i arg2 harg2 arg3 harg3 arg4 harg4 arg5 harg5 arg6 harg6 hc0 hc1 x0 x1 x2 x3, canonA_1 (F := Ideal) c i arg2 harg2 arg3 harg3 arg4 harg4 arg5 harg5 arg6 harg6 hc0 hc1 x0 x1 x2 x3, canonA_2 (F := Ideal) c i arg2 harg2 arg3 harg3 arg4 harg4 arg5 harg5 arg6 harg6 hc0 hc1 x0 x1 x2 x3]

theorem soutsB_eq (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : ¬cond1_1 i) (x0 : Vec Ideal S1x2304x64 .bf16) (x1 : Vec Ideal S1x384x64 .bf16) (x2 : Vec Ideal S1x384x64 .bf16) (x3 : Vec Ideal S1x2304x384 .f32) (xs0 : Vec Ideal S2304x1 .f32) (xs1 : Vec Ideal S2304x1 .f32) (xs2 : Vec Ideal S2304x64 .f32) :
    souts1_B (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2
      = (k1_pay3 (F := Ideal) (k1_pay10 (F := Ideal) x0 x1 x3 xs0), k1_pay1 (F := Ideal) (k1_pay13 (F := Ideal) x0 x1 x3 xs0 xs0 xs1), k1_pay2 (F := Ideal) (k1_pay8 (F := Ideal) x2) (k1_pay11 (F := Ideal) x0 x1 x3 xs0 xs0) (k1_pay12 (F := Ideal) x0 x1 x3 xs0) xs2) := by
  unfold souts1_B
  rw [View.read_writes_eq_canon _ _ _ (scoverB_0 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2), View.read_writes_eq_canon _ _ _ (scoverB_1 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2), View.read_writes_eq_canon _ _ _ (scoverB_2 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2)]
  rw [canonB_0 (F := Ideal) c i arg2 harg2 arg3 harg3 arg4 harg4 arg5 harg5 arg6 harg6 hc0 hc1 x0 x1 x2 x3 xs0 xs1 xs2, canonB_1 (F := Ideal) c i arg2 harg2 arg3 harg3 arg4 harg4 arg5 harg5 arg6 harg6 hc0 hc1 x0 x1 x2 x3 xs0 xs1 xs2, canonB_2 (F := Ideal) c i arg2 harg2 arg3 harg3 arg4 harg4 arg5 harg5 arg6 harg6 hc0 hc1 x0 x1 x2 x3 xs0 xs1 xs2]

theorem soutsC_eq (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : cond1_1 i) (x0 : Vec Ideal S1x2304x64 .bf16) (x1 : Vec Ideal S1x384x64 .bf16) (x2 : Vec Ideal S1x384x64 .bf16) (x3 : Vec Ideal S1x2304x384 .f32) (xs0 : Vec Ideal S2304x1 .f32) (xs1 : Vec Ideal S2304x1 .f32) (xs2 : Vec Ideal S2304x64 .f32) :
    souts1_C (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2
      = (k1_pay3 (F := Ideal) (k1_pay10 (F := Ideal) x0 x1 x3 xs0), k1_pay1 (F := Ideal) (k1_pay13 (F := Ideal) x0 x1 x3 xs0 xs0 xs1), k1_pay2 (F := Ideal) (k1_pay8 (F := Ideal) x2) (k1_pay11 (F := Ideal) x0 x1 x3 xs0 xs0) (k1_pay12 (F := Ideal) x0 x1 x3 xs0) xs2) := by
  unfold souts1_C
  exact congrArg₂ Prod.mk
    ((View.read_writes_eq_canon VS1_0 VS1_0.junk _ (scoverC_0 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2)).trans (canonC_0 (F := Ideal) c i arg2 harg2 arg3 harg3 arg4 harg4 arg5 harg5 arg6 harg6 hc0 hc1 x0 x1 x2 x3 xs0 xs1 xs2))
    (congrArg₂ Prod.mk
      ((View.read_writes_eq_canon VS1_1 VS1_1.junk _ (scoverC_1 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2)).trans (canonC_1 (F := Ideal) c i arg2 harg2 arg3 harg3 arg4 harg4 arg5 harg5 arg6 harg6 hc0 hc1 x0 x1 x2 x3 xs0 xs1 xs2))
      ((View.read_writes_eq_canon VS1_2 VS1_2.junk _ (scoverC_2 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2)).trans (canonC_2 (F := Ideal) c i arg2 harg2 arg3 harg3 arg4 harg4 arg5 harg5 arg6 harg6 hc0 hc1 x0 x1 x2 x3 xs0 xs1 xs2)))

theorem outC_eq (c : Dev nD) (i : grid1.Coords) (arg2 : Memref sig .tc .vmem S1x2304x64 .bf16) (harg2 : arg2.IsWhole) (arg3 : Memref sig .tc .vmem S1x384x64 .bf16) (harg3 : arg3.IsWhole) (arg4 : Memref sig .tc .vmem S1x384x64 .bf16) (harg4 : arg4.IsWhole) (arg5 : Memref sig .tc .vmem S1x2304x384 .f32) (harg5 : arg5.IsWhole) (arg6 : Memref sig .tc .vmem S1x2304x64 .bf16) (harg6 : arg6.IsWhole) (hc0 : ¬cond1_0 i) (hc1 : cond1_1 i) (x0 : Vec Ideal S1x2304x64 .bf16) (x1 : Vec Ideal S1x384x64 .bf16) (x2 : Vec Ideal S1x384x64 .bf16) (x3 : Vec Ideal S1x2304x384 .f32) (xs0 : Vec Ideal S2304x1 .f32) (xs1 : Vec Ideal S2304x1 .f32) (xs2 : Vec Ideal S2304x64 .f32) :
    out1_C_4 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2
      = k1_pay4 (F := Ideal) (k1_pay2 (F := Ideal) (k1_pay8 (F := Ideal) x2) (k1_pay11 (F := Ideal) x0 x1 x3 xs0 xs0) (k1_pay12 (F := Ideal) x0 x1 x3 xs0) xs2) (k1_pay1 (F := Ideal) (k1_pay13 (F := Ideal) x0 x1 x3 xs0 xs0 xs1)) := by
  unfold out1_C_4
  exact (View.read_writes_eq_canon VO1_4 VO1_4.junk _ (coverC_4 (F := Ideal) c i arg2 harg2 arg3 harg3 arg4 harg4 arg5 harg5 arg6 harg6 scM1_0 (Memref.isWhole_whole _) scM1_1 (Memref.isWhole_whole _) scM1_2 (Memref.isWhole_whole _) hc0 hc1 x0 x1 x2 x3 xs0 xs1 xs2)).trans (canonC_4 (F := Ideal) c i arg2 harg2 arg3 harg3 arg4 harg4 arg5 harg5 arg6 harg6 hc0 hc1 x0 x1 x2 x3 xs0 xs1 xs2)

/-! ## The running buffers after a point, at a row and a feature -/

/-- The three running buffers after position n, read at row r (and feature d). -/
def tripleAt (c : Dev nD) (n : ℕ) (hn : n < cfg1.N) (r : Fin 2304) (d : Fin 64) : EReal × EReal × EReal :=
  (((outsAt1 V c n hn).2.1 : S2304x1.Idx → EReal) (ix2 r (0 : Fin 1)),
   ((outsAt1 V c n hn).2.2.1 : S2304x1.Idx → EReal) (ix2 r (0 : Fin 1)),
   ((outsAt1 V c n hn).2.2.2 : S2304x64.Idx → EReal) (ix2 r d))

theorem tripleAt_congr (c : Dev nD) {n m : ℕ} (e : n = m) (hn : n < cfg1.N) (hm : m < cfg1.N) (r : Fin 2304) (d : Fin 64) :
    tripleAt V c n hn r d = tripleAt V c m hm r d := by
  subst e; rfl

/-- A head's first tile: one step from (−∞, 0, 0). -/
theorem tripleAt_first (c : Dev nD) (t : Fin cfg1.N) (h0 : t.val % 6 = 0) (r : Fin 2304) (d : Fin 64) :
    tripleAt V c t.val t.isLt r d
      = Cert.Spec.osStep (fun l => score V c (headOf t) r (Cert.Spec.tileIdx (tileOf t) l))
          (fun l => valAt V c (headOf t) d (Cert.Spec.tileIdx (tileOf t) l)) (⊥, 0, 0) := by
  have h1 : ¬t.val % 6 = 5 := by omega
  unfold tripleAt
  rw [outsAt1_A V c t h0 h1]
  dsimp only
  rw [soutsA_eq c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (qblk V c t) (kblk V c t) (vblk V c t) (bblk V c t)]
  dsimp only
  refine (point_step (qblk V c t) (kblk V c t) (vblk V c t) (bblk V c t) (k1_pay5 (F := Ideal)) (k1_pay6 (F := Ideal)) (k1_pay7 (F := Ideal)) r d).trans ?_
  rw [pay5_apply, pay6_apply, pay7_apply, logit_eq, vcol_eq]

/-- A later tile: one step from what the tile before left. -/
theorem tripleAt_next (c : Dev nD) (t : Fin cfg1.N) (h0 : ¬t.val % 6 = 0) (r : Fin 2304) (d : Fin 64) :
    tripleAt V c t.val t.isLt r d
      = Cert.Spec.osStep (fun l => score V c (headOf t) r (Cert.Spec.tileIdx (tileOf t) l))
          (fun l => valAt V c (headOf t) d (Cert.Spec.tileIdx (tileOf t) l))
          (tripleAt V c (t.val - 1) (Nat.lt_of_le_of_lt (Nat.sub_le _ _) t.isLt) r d) := by
  by_cases h1 : t.val % 6 = 5
  · unfold tripleAt
    rw [outsAt1_C V c t h0 h1]
    dsimp only
    rw [soutsC_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (qblk V c t) (kblk V c t) (vblk V c t) (bblk V c t) (prev1 V c t).2.1 (prev1 V c t).2.2.1 (prev1 V c t).2.2.2]
    dsimp only
    refine (point_step (qblk V c t) (kblk V c t) (vblk V c t) (bblk V c t) (prev1 V c t).2.1 (prev1 V c t).2.2.1 (prev1 V c t).2.2.2 r d).trans ?_
    rw [logit_eq, vcol_eq]
  · unfold tripleAt
    rw [outsAt1_B V c t h0 h1]
    dsimp only
    rw [soutsB_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (fun h => h1 ((hcond1_1 t).mp h)) (qblk V c t) (kblk V c t) (vblk V c t) (bblk V c t) (prev1 V c t).2.1 (prev1 V c t).2.2.1 (prev1 V c t).2.2.2]
    dsimp only
    refine (point_step (qblk V c t) (kblk V c t) (vblk V c t) (bblk V c t) (prev1 V c t).2.1 (prev1 V c t).2.2.1 (prev1 V c t).2.2.2 r d).trans ?_
    rw [logit_eq, vcol_eq]

/-! ## The invariant: after point 6·h + kt the buffers hold the running softmax after kt + 1 tiles -/

/-- Head h's logits of row r, tile by tile. -/
abbrev tileS (c : Dev nD) (h : Fin 16) (r : Fin 2304) : Fin 6 → Fin 384 → EReal :=
  fun k l => score V c h r (Cert.Spec.tileIdx k l)
/-- Head h's values at feature d, tile by tile. -/
abbrev tileV (c : Dev nD) (h : Fin 16) (d : Fin 64) : Fin 6 → Fin 384 → EReal :=
  fun k l => valAt V c h d (Cert.Spec.tileIdx k l)

theorem inv (c : Dev nD) (h : Fin 16) : ∀ (kt : ℕ) (hkt : kt < 6) (hn : 6 * h.val + kt < cfg1.N) (r : Fin 2304) (d : Fin 64),
    tripleAt V c (6 * h.val + kt) hn r d
      = Cert.Spec.osRun (tileS V c h r) (tileV V c h d) (kt + 1) (Nat.succ_le_of_lt hkt)
  | 0, hkt, hn, r, d => by
    have e := tripleAt_first V c ⟨6 * h.val + 0, hn⟩ (by show (6 * h.val + 0) % 6 = 0; omega) r d
    have hh : headOf ⟨6 * h.val + 0, hn⟩ = h := Fin.ext (by show (6 * h.val + 0) / 6 = h.val; omega)
    have ht : tileOf ⟨6 * h.val + 0, hn⟩ = (⟨0, hkt⟩ : Fin 6) := Fin.ext (by show (6 * h.val + 0) % 6 = 0; omega)
    rw [hh, ht] at e
    exact e
  | kt + 1, hkt, hn, r, d => by
    have ih := inv c h kt (by omega) (by omega) r d
    have e := tripleAt_next V c ⟨6 * h.val + (kt + 1), hn⟩ (by show ¬(6 * h.val + (kt + 1)) % 6 = 0; omega) r d
    have hh : headOf ⟨6 * h.val + (kt + 1), hn⟩ = h := Fin.ext (by show (6 * h.val + (kt + 1)) / 6 = h.val; omega)
    have ht : tileOf ⟨6 * h.val + (kt + 1), hn⟩ = (⟨kt + 1, hkt⟩ : Fin 6) := Fin.ext (by show (6 * h.val + (kt + 1)) % 6 = kt + 1; omega)
    rw [hh, ht, tripleAt_congr V c (show (6 * h.val + (kt + 1)) - 1 = 6 * h.val + kt by omega) _ (by omega) r d, ih] at e
    exact e

/-! ## The output block at a head's last tile -/

/-- At a last tile the output block holds, at row r and feature d, the updated numerator over the updated denominator. -/
theorem outAt_last (c : Dev nD) (t : Fin cfg1.N) (h5 : t.val % 6 = 5) (u : Fin 1) (r : Fin 2304) (d : Fin 64) :
    ((outsAt1 V c t.val t.isLt).1 : S1x2304x64.Idx → EReal) (ix3 u r d)
      = Ideal.div (tripleAt V c t.val t.isLt r d).2.2 (tripleAt V c t.val t.isLt r d).2.1 := by
  have h0 : ¬t.val % 6 = 0 := by omega
  unfold tripleAt
  rw [outsAt1_C V c t h0 h5]
  dsimp only
  rw [outC_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h5) (qblk V c t) (kblk V c t) (vblk V c t) (bblk V c t) (prev1 V c t).2.1 (prev1 V c t).2.2.1 (prev1 V c t).2.2.2,
    soutsC_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h5) (qblk V c t) (kblk V c t) (vblk V c t) (bblk V c t) (prev1 V c t).2.1 (prev1 V c t).2.2.1 (prev1 V c t).2.2.2]
  dsimp only
  exact pay4_apply _ _ u r d

/-- The attention of the four arrays as the launch finds them, as one array read by index: at (head, row, feature) the
    softmax-weighted sum of the head's values. -/
def attnArr (c : Dev nD) : S16x2304x64.Idx → EReal :=
  fun i => ∑ j : Fin 2304, Cert.Spec.softmaxRow (score V c (i 0) (i 1)) j * valAt V c (i 0) (i 2) j

section Finite
variable (c : Dev nD)
  (hq : ∀ idx, Cert.LibReal.IsReal ((V c main_v8 : S16x2304x64.Idx → EReal) idx))
  (hk : ∀ idx, Cert.LibReal.IsReal ((V c main_v11 : S16x2304x64.Idx → EReal) idx))
  (hv : ∀ idx, Cert.LibReal.IsReal ((V c main_v14 : S16x2304x64.Idx → EReal) idx))
  (hb : ∀ idx, Cert.LibReal.IsReal ((V c main_v33 : S16x2304x2304.Idx → EReal) idx))
include hq hk hv hb

/-- The logits are finite when the queries, the keys and the bias are. -/
theorem score_isReal (h : Fin 16) (r j : Fin 2304) : Cert.LibReal.IsReal (score V c h r j) := by
  unfold score
  exact ((Cert.LibReal.IsReal.sum_univ _ (fun dd => (hq _).mul (hk _))).div_coe (by norm_num : (8 : ℝ) ≠ 0)).add (hb _)

/-- After a head's last tile, numerator over denominator is the softmax-weighted sum of the head's values. -/
theorem last_value (t : Fin cfg1.N) (h5 : t.val % 6 = 5) (u : Fin 1) (r : Fin 2304) (d : Fin 64) :
    ((outsAt1 V c t.val t.isLt).1 : S1x2304x64.Idx → EReal) (ix3 u r d)
      = ∑ j : Fin 2304, Cert.Spec.softmaxRow (score V c (headOf t) r) j * valAt V c (headOf t) d j := by
  have hN : t.val < 96 := lt_of_lt_of_eq t.isLt hN1
  rw [outAt_last V c t h5 u r d]
  have e := inv V c (headOf t) 5 (by decide) (lt_of_lt_of_eq (show 6 * (t.val / 6) + 5 < 96 by omega) hN1.symm) r d
  rw [tripleAt_congr V c (show 6 * (headOf t).val + 5 = t.val by show 6 * (t.val / 6) + 5 = t.val; omega) _ t.isLt r d] at e
  rw [e]
  exact Cert.OnlineSoftmax.flash_eq_softmax (score V c (headOf t) r) (valAt V c (headOf t) d)
    (fun j => score_isReal V c hq hk hv hb (headOf t) r j) (fun j => hv _)

/-! ## From the blocks to the array -/

/-- What grid point t writes back is its block of the attention array. -/
theorem flushed1_eq (t : Fin cfg1.N) (hf : (cfg1.win 4).flush t = true) :
    (dat1 (F := Ideal) V c).flushed 4 t = ((cfg1.win 4).blk t).view.read (Elt Ideal) (attnArr V c) := by
  have h5 : t.val % 6 = 5 := (flush1_4 t).mp hf
  show (cfg1.win 4).cut (grid1.coords t) ((dat1 (F := Ideal) V c).after 4 t) = _
  rw [after1_4]
  funext j
  show ((outsAt1 V c t.val t.isLt).1 : S1x2304x64.Idx → EReal) (win1_4.xinj (grid1.coords t) j)
      = attnArr V c (((cfg1.win 4).blk t).view.emb j)
  obtain ⟨-, -, -, -, -, -, -, -, -, -, -, -, e40, e41, e42⟩ := idx_facts1 t
  have hemb : ((cfg1.win 4).blk t).view.emb j
      = ix3 (headOf t) ((win1_4.xinj (grid1.coords t) j 1 : Fin 2304)) ((win1_4.xinj (grid1.coords t) j 2 : Fin 64)) := funext fun a => Fin.ext (by
    have hj0 : (j 0).val < 1 := (j 0).isLt
    match a with
    | ⟨0, _⟩ => show win1_4.index t (0 : Fin 3) * 1 + 1 * (j 0).val = t.val / 6; omega
    | ⟨1, _⟩ => show win1_4.index t (1 : Fin 3) * 2304 + 1 * (j 1).val = (j 1).val; omega
    | ⟨2, _⟩ => show win1_4.index t (2 : Fin 3) * 64 + 1 * (j 2).val = (j 2).val; omega)
  have key : ∀ y : S1x2304x64.Idx, ((outsAt1 V c t.val t.isLt).1 : S1x2304x64.Idx → EReal) y
      = attnArr V c (ix3 (headOf t) (y 1 : Fin 2304) (y 2 : Fin 64)) := fun y => by
    obtain ⟨u, r, d, rfl⟩ : ∃ (u : Fin 1) (r : Fin 2304) (d : Fin 64), y = ix3 u r d := ⟨y 0, y 1, y 2, eq_ix3 y⟩
    exact (last_value V c hq hk hv hb t h5 u r d).trans rfl
  rw [hemb]
  exact key _

end Finite

/-- An index of the output array is in grid point t's block iff each coordinate is in the block's range on its axis. -/
theorem mem_blk1 (t : Fin cfg1.N) (i : S16x2304x64.Idx) :
    i ∈ ((cfg1.win 4).blk t).view.set ↔ ∀ a : Fin 3, win1_4.index t a * S1x2304x64.size a ≤ (i a).val ∧ (i a).val < win1_4.index t a * S1x2304x64.size a + S1x2304x64.size a := by
  show i ∈ ((View.whole main_v34).slice (win1_4.rect t)).set ↔ _
  rw [View.set_slice_whole, Rect.mem_set_unit]
  exact Iff.rfl

/-- The sixteen output blocks tile the array: head h's rows are the block written back at point 6·h + 5. -/
theorem cover1 (i : S16x2304x64.Idx) :
    ∃ t : Fin cfg1.N, (cfg1.win 4).flush t = true ∧ i ∈ ((cfg1.win 4).blk t).view.set := by
  have hi0 : (i 0).val < 16 := (i 0).isLt
  have hi1 : (i 1).val < 2304 := (i 1).isLt
  have hi2 : (i 2).val < 64 := (i 2).isLt
  have hlt : 6 * (i 0).val + 5 < cfg1.N := by rw [hN1]; omega
  refine ⟨⟨6 * (i 0).val + 5, hlt⟩, (flush1_4 _).mpr (by show (6 * (i 0).val + 5) % 6 = 5; omega), ?_⟩
  rw [mem_blk1]
  obtain ⟨-, -, -, -, -, -, -, -, -, -, -, -, e40, e41, e42⟩ := idx_facts1 ⟨6 * (i 0).val + 5, hlt⟩
  have q0 : win1_4.index ⟨6 * (i 0).val + 5, hlt⟩ (0 : Fin 3) = (i 0).val := by
    rw [e40]; show (6 * (i 0).val + 5) / 6 = (i 0).val; omega
  intro a
  match a with
  | ⟨0, _⟩ => show win1_4.index ⟨6 * (i 0).val + 5, hlt⟩ (0 : Fin 3) * 1 ≤ (i 0).val ∧ (i 0).val < win1_4.index ⟨6 * (i 0).val + 5, hlt⟩ (0 : Fin 3) * 1 + 1; omega
  | ⟨1, _⟩ => show win1_4.index ⟨6 * (i 0).val + 5, hlt⟩ (1 : Fin 3) * 2304 ≤ (i 1).val ∧ (i 1).val < win1_4.index ⟨6 * (i 0).val + 5, hlt⟩ (1 : Fin 3) * 2304 + 2304; omega
  | ⟨2, _⟩ => show win1_4.index ⟨6 * (i 0).val + 5, hlt⟩ (2 : Fin 3) * 64 ≤ (i 2).val ∧ (i 2).val < win1_4.index ⟨6 * (i 0).val + 5, hlt⟩ (2 : Fin 3) * 64 + 64; omega

/-- The four input arrays and the output array of the launch, read at the extended reals. -/
abbrev qA (c : Dev nD) : S16x2304x64.Idx → EReal := V c main_v8
abbrev kA (c : Dev nD) : S16x2304x64.Idx → EReal := V c main_v11
abbrev vA (c : Dev nD) : S16x2304x64.Idx → EReal := V c main_v14
abbrev bA (c : Dev nD) : S16x2304x2304.Idx → EReal := V c main_v33
abbrev oA (c : Dev nD) : S16x2304x64.Idx → EReal := (Cert.KernelIdeal.Hand.dat1 (F := Ideal) V c).arrAt 4 cfg1.N

/-- The output array after the launch, on finite queries, keys, values and bias: at head h, row i, feature d the
    softmax over the keys of the scaled dot products plus the bias, weighting the head's values. -/
theorem attn_value (c : Dev nD)
    (hq : ∀ idx, Cert.LibReal.IsReal (qA V c idx)) (hk : ∀ idx, Cert.LibReal.IsReal (kA V c idx))
    (hv : ∀ idx, Cert.LibReal.IsReal (vA V c idx)) (hb : ∀ idx, Cert.LibReal.IsReal (bA V c idx))
    (h : Fin 16) (i : Fin 2304) (d : Fin 64) :
    oA V c (ix3 h i d)
      = ∑ j : Fin 2304, Cert.Spec.softmaxRow (fun j' => Ideal.div (∑ dd : Fin 64, qA V c (ix3 h i dd) * kA V c (ix3 h j' dd)) ((8 : ℝ) : EReal)
                                                      + bA V c (ix3 h i j')) j
            * vA V c (ix3 h j d) := by
  show ((Cert.KernelIdeal.Hand.dat1 (F := Ideal) V c).arrAt 4 cfg1.N : S16x2304x64.Idx → EReal) (ix3 h i d) = _
  rw [(dat1 (F := Ideal) V c).arrAt_eq_of_cover 4 (attnArr V c) (fun t hf => flushed1_eq V c hq hk hv hb t hf) cover1]
  rfl

end Cert.KernelIdeal.HandValue

end
-- ==== Proof.lean ====
/-
  The certificate: the tiled attention kernel with a continuous position bias computes, over the extended reals, what
  its reference computes — under the precondition that every float argument is finite and that every entry of the
  relative-position index array, a negative entry counted from the table's end, lies inside the 9025-row table.
  The kernel program is three launches among host operations: a linear layer x·wᵀ + b producing the packed queries,
  keys and values; an attention launch that, head by head, walks the keys in six tiles of 384 and keeps a running row
  maximum, a running denominator and a running numerator, rescaling the sums whenever the maximum moves, and divides
  at the last tile; a second linear layer. The reference computes the same projection, the row softmax of the scaled
  dot products plus the bias in its shifted form, the weighted sum of the values, and the same output projection.
  On finite reals the running form IS the shifted softmax (e^(a)·e^(b) = e^(a+b), and the division by the positive
  denominator moves inside the finite sum); the scale 1/8 is the division by √64; 16·σ applied to the table before the
  gather is the gather followed by 16·σ; and the two gathers read the same row wherever the index lies in the table
  (outside it one of them fills with a not-a-number, which is why the precondition names the table's range).
  The three frames: each program runs to the end without a fault and leaves its arguments unchanged. The kernel
  programs' frames come from running each launch's body symbolically at every grid point (the attention body in its
  three cases: first tile, middle tile, last tile) and chaining the launches and the host operations; the reference's
  from its operations' composed term. The idealization rewrote nothing, so `preserves` is trivial.
-/
import proofs.«423628_j37984690766439_2_alg».proof.Defs
import proofs.«423628_j37984690766439_2_alg».proof.Proof.Gen.Kernel
import proofs.«423628_j37984690766439_2_alg».proof.Proof.Gen.KernelIdeal
import proofs.«423628_j37984690766439_2_alg».proof.Proof.Gen.ReferenceIdeal
import proofs.«423628_j37984690766439_2_alg».proof.Proof.Gen.Pre_finite_inputs
import proofs.«423628_j37984690766439_2_alg».proof.Proof.Gen.ReferenceIdeal.Run
import proofs.«423628_j37984690766439_2_alg».proof.Proof.Gen.ReferenceIdeal.Read
import proofs.«423628_j37984690766439_2_alg».proof.Proof.K_Run
import proofs.«423628_j37984690766439_2_alg».proof.Proof.KI_Run
import proofs.«423628_j37984690766439_2_alg».proof.Proof.KI_Final
import proofs.«423628_j37984690766439_2_alg».proof.Proof.RefValue
import proofs.«423628_j37984690766439_2_alg».proof.Proof.PreFacts
import proofs.«423628_j37984690766439_2_alg».proof.Proof.KI_AttnValue
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal Cert.KernelIdeal.Gen Cert.KernelIdeal.Hand Cert.KernelIdeal.Final
open Cert.LibReal

/-- What the precondition gives, entry by entry. -/
theorem argFacts_of_pre (m : (ℓ : Loc nD τ sig) → Buf (Elt Ideal) ℓ) (hpre : Cert.Pre_KernelIdeal m) (c : Dev nD) : ArgFacts m c := by
  obtain ⟨h0, h1, h2, -, -, h5, h6, h7, h8, h9⟩ := Cert.PreFacts.pre_facts _ _ _ _ _ _ _ _ _ _ (hpre c)
  exact ⟨fun a b => h0 (ix2 a b), fun a b => h1 (ix2 a b), fun a => h2 (ix1 a), fun a b => h5 (ix2 a b), fun a => h6 (ix1 a),
    fun a b => h7 (ix2 a b), fun a b => h8 (ix2 a b), fun p => h9 (ix1 p)⟩

/-- The attention launch's value at the contents it is entered from. -/
theorem attn_at (m : (ℓ : Loc nD τ sig) → Buf (Elt Ideal) ℓ) (c : Dev nD) : AttnValueAt m c :=
  Cert.KernelIdeal.HandValue.attn_value (rd (V7 m (outsA m))) c

/-- The kernel program's frame at the word level. -/
theorem frame_k : Cert.frame_Kernel := fun m ρ _ => Cert.Kernel.Hand.frame (F := Bits) m ρ
/-- The idealized kernel program's frame. -/
theorem frame_ki : Cert.frame_KernelIdeal := fun m ρ _ => Cert.KernelIdeal.Hand.frame (F := Ideal) m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and their results are equal entry by entry: each is the
    specification of the arguments. -/
theorem algebraic : Cert.algebraic_KernelIdeal_ReferenceIdeal := by
  intro m ρ m' ρ' hpre hagree
  refine ⟨fun c => o2 (F := Ideal) m c, run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq m' c]
  obtain ⟨e0, e1, e2, e3, e4, e5, e6, e7, e8, e9⟩ := hagree c
  rw [e0, e1, e2, e3, e4, e5, e6, e7, e8, e9]
  funext idx
  obtain ⟨i, j, rfl⟩ : ∃ (i : Fin 2304) (j : Fin 1024), idx = ix2 i j := ⟨idx 0, idx 1, eq_ix2 idx⟩
  exact (Cert.RefValue.ref_value _ _ _ _ _ _ _ _ _ _ i j).trans
    (o2_eq m c (argFacts_of_pre m hpre c) (attn_at m c) i j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
